-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S512x1024 : Shape := ⟨2, ![512, 1024]⟩
abbrev S512 : Shape := ⟨1, ![512]⟩
abbrev S32768x512 : Shape := ⟨2, ![32768, 512]⟩
abbrev S32768x1024 : Shape := ⟨2, ![32768, 1024]⟩
abbrev S1024x2048 : Shape := ⟨2, ![1024, 2048]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S32768x512 : S_.BroadcastsInDim S32768x512 (![] : Fin 0 → Fin S32768x512.rank)
  reducesTo_S32768x512_S_d0_1 : S32768x512.ReducesTo [0, 1] S_
  bcast_S_S32768x1024 : S_.BroadcastsInDim S32768x1024 (![] : Fin 0 → Fin S32768x1024.rank)
  reducesTo_S32768x1024_S_d0_1 : S32768x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S32768x1024 .f32) (main_arg5 : FVec F S1024x2048 .f32) (main_arg6 : FVec F S1024 .f32) (main_arg7 : FVec F S1024 .f32) (main_arg8 : FVec F S1024 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x1024x1024 .f32) (main_arg1 : FVec F S512x1024 .f32) (main_arg2 : FVec F S512 .f32) (main_arg3 : FVec F S32768x512 .f32) (main_arg4 : FVec F S32768x1024 .f32) (main_arg5 : FVec F S1024x2048 .f32) (main_arg6 : FVec F S1024 .f32) (main_arg7 : FVec F S1024 .f32) (main_arg8 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_v13 main_v16
-- ==== Kernel.lean ====
abbrev S4x1024x1024 : Shape := ⟨3, ![4, 1024, 1024]⟩
abbrev S512x1024 : Shape := ⟨2, ![512, 1024]⟩
abbrev S512 : Shape := ⟨1, ![512]⟩
abbrev S32768x512 : Shape := ⟨2, ![32768, 512]⟩
abbrev S32768x1024 : Shape := ⟨2, ![32768, 1024]⟩
abbrev S1024x2048 : Shape := ⟨2, ![1024, 2048]⟩
abbrev S1024 : Shape := ⟨1, ![1024]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S4096x512 : Shape := ⟨2, ![4096, 512]⟩
abbrev S1024x512 : Shape := ⟨2, ![1024, 512]⟩
abbrev S1024x1 : Shape := ⟨2, ![1024, 1]⟩
abbrev S1024x4096 : Shape := ⟨2, ![1024, 4096]⟩

abbrev nBuf : Space → Nat
  | .hbm => 23
  | .vmem => 19
  | .smem => 0
  | _ => 0

abbrev bufTy : (tb : Table) → Fin (tcTables nBuf tb) → BufTy
  | .hbm, ⟨0, _⟩ => ⟨S4x1024x1024, .f32⟩
  | .hbm, ⟨1, _⟩ => ⟨S512x1024, .f32⟩
  | .hbm, ⟨2, _⟩ => ⟨S512, .f32⟩
  | .hbm, ⟨3, _⟩ => ⟨S32768x512, .f32⟩
  | .hbm, ⟨4, _⟩ => ⟨S32768x1024, .f32⟩
  | .hbm, ⟨5, _⟩ => ⟨S1024x2048, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S512x1024, .bf16⟩
  | .hbm, ⟨11, _⟩ => ⟨S1x512, .f32⟩
  | .hbm, ⟨12, _⟩ => ⟨S32768x512, .bf16⟩
  | .hbm, ⟨13, _⟩ => ⟨S32768x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1x512, .f32⟩
  | .local _ .vmem, ⟨4, _⟩ => ⟨S4096x512, .bf16⟩
  | .local _ .vmem, ⟨5, _⟩ => ⟨S4096x512, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x512, .f32⟩
  | .local _ .vmem, ⟨16, _⟩ => ⟨S1024x1, .f32⟩
  | .local _ .vmem, ⟨17, _⟩ => ⟨S1024x1, .f32⟩
  | .local _ .vmem, ⟨18, _⟩ => ⟨S1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S4x1024x1024_S4096x1024 : S4x1024x1024.ShapeCasts S4096x1024
  bitsLt_bf16_f32 : FTy.bits .bf16 < FTy.bits .f32
  shapeCasts_S512_S1x512 : S512.ShapeCasts S1x512
  slices_S1024x2048_S1024x1024_0_0 : S1024x2048.Slices ![0, 0] S1024x1024
  slices_S1024x2048_S1024x1024_0_1024 : S1024x2048.Slices ![0, 1024] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S1024x4096_S1024 : S1024x4096.Reduces [1] S1024
  shapeCasts_S1024_S1024x1 : S1024.ShapeCasts S1024x1
  broadcasts_S1024x1_S1024x4096 : S1024x1.Broadcasts S1024x4096
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S4096x1024_S4x1024x1024 : S4096x1024.ShapeCasts S4x1024x1024
  dot_S1024x1024_S512x1024_S1024x512_1_1_0_0_n_n_wf : DotDims.WF S1024x1024 S512x1024 S1024x512 [1] [1] [0] [0] [] []
  dot_S1024x512_S4096x512_S1024x4096_1_1_0_0_n_n_wf : DotDims.WF S1024x512 S4096x512 S1024x4096 [1] [1] [0] [0] [] []
  dot_S1024x4096_S4096x1024_S1024x1024_1_0_0_1_n_n_wf : DotDims.WF S1024x4096 S4096x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S32768x512.size a
  hwx0_3 : ∀ i : grid0.Coords, EltTy.bits .bf16 = 32 ∨ (Rect.block (s := S32768x512) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S32768x1024.size a
  hwx0_4 : ∀ i : grid0.Coords, EltTy.bits .bf16 = 32 ∨ (Rect.block (s := S32768x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S4096x1024.size a
  hwx0_10 : ∀ i : grid0.Coords, EltTy.bits .f32 = 32 ∨ (Rect.block (s := S4096x1024) S1024x1024.size (cc0_transform_10 i) (hinb0_10 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S4096x512_S1024x4096_1_1_0_0_n_n : DotDims S1024x512 S4096x512 S1024x4096 where
  lhsContracting := [1]
  rhsContracting := [1]
  lhsNonContracting := [0]
  rhsNonContracting := [0]
  lhsBatch := []
  rhsBatch := []
  wf := dot_S1024x512_S4096x512_S1024x4096_1_1_0_0_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1024x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x1024x1024 : Shape := ⟨3, ![4, 1024, 1024]⟩
abbrev S512x1024 : Shape := ⟨2, ![512, 1024]⟩
abbrev S512 : Shape := ⟨1, ![512]⟩
abbrev S32768x512 : Shape := ⟨2, ![32768, 512]⟩
abbrev S32768x1024 : Shape := ⟨2, ![32768, 1024]⟩
abbrev S1024x2048 : Shape := ⟨2, ![1024, 2048]⟩
abbrev S1024 : Shape := ⟨1, ![1024]⟩
abbrev S4x1024x512 : Shape := ⟨3, ![4, 1024, 512]⟩
abbrev S1x1x512 : Shape := ⟨3, ![1, 1, 512]⟩
abbrev S4x1024x32768 : Shape := ⟨3, ![4, 1024, 32768]⟩
abbrev S_ : Shape := ⟨0, ![]⟩
abbrev S4x1024 : Shape := ⟨2, ![4, 1024]⟩
abbrev S4x1024x1 : Shape := ⟨3, ![4, 1024, 1]⟩
abbrev S4x1024x2048 : Shape := ⟨3, ![4, 1024, 2048]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S512x1024, .f32⟩
  | .hbm, ⟨2, _⟩ => ⟨S512, .f32⟩
  | .hbm, ⟨3, _⟩ => ⟨S32768x512, .f32⟩
  | .hbm, ⟨4, _⟩ => ⟨S32768x1024, .f32⟩
  | .hbm, ⟨5, _⟩ => ⟨S1024x2048, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x1024x512, .f32⟩
  | .hbm, ⟨10, _⟩ => ⟨S1x1x512, .f32⟩
  | .hbm, ⟨11, _⟩ => ⟨S4x1024x512, .f32⟩
  | .hbm, ⟨12, _⟩ => ⟨S4x1024x512, .f32⟩
  | .hbm, ⟨13, _⟩ => ⟨S4x1024x32768, .f32⟩
  | .hbm, ⟨14, _⟩ => ⟨S_, .f32⟩
  | .hbm, ⟨15, _⟩ => ⟨S4x1024, .f32⟩
  | .hbm, ⟨16, _⟩ => ⟨S_, .f32⟩
  | .hbm, ⟨17, _⟩ => ⟨S4x1024, .f32⟩
  | .hbm, ⟨18, _⟩ => ⟨S4x1024, .f32⟩
  | .hbm, ⟨19, _⟩ => ⟨S4x1024x1, .f32⟩
  | .hbm, ⟨20, _⟩ => ⟨S4x1024x32768, .f32⟩
  | .hbm, ⟨21, _⟩ => ⟨S4x1024x32768, .f32⟩
  | .hbm, ⟨22, _⟩ => ⟨S4x1024x32768, .f32⟩
  | .hbm, ⟨23, _⟩ => ⟨S_, .f32⟩
  | .hbm, ⟨24, _⟩ => ⟨S4x1024, .f32⟩
  | .hbm, ⟨25, _⟩ => ⟨S4x1024x1, .f32⟩
  | .hbm, ⟨26, _⟩ => ⟨S4x1024x32768, .f32⟩
  | .hbm, ⟨27, _⟩ => ⟨S4x1024x32768, .f32⟩
  | .hbm, ⟨28, _⟩ => ⟨S4x1024x1024, .f32⟩
  | .hbm, ⟨29, _⟩ => ⟨S4x1024x2048, .f32⟩
  | .hbm, ⟨30, _⟩ => ⟨S4x1024x1024, .f32⟩
  | .hbm, ⟨31, _⟩ => ⟨S1x1x1024, .f32⟩
  | .hbm, ⟨32, _⟩ => ⟨S4x1024x1024, .f32⟩
  | .hbm, ⟨33, _⟩ => ⟨S4x1024x1024, .f32⟩
  | .hbm, ⟨34, _⟩ => ⟨S4x1024x1024, .f32⟩
  | .hbm, ⟨35, _⟩ => ⟨S_, .f32⟩
  | .hbm, ⟨36, _⟩ => ⟨S4x1024, .f32⟩
  | .hbm, ⟨37, _⟩ => ⟨S4x1024x1, .f32⟩
  | .hbm, ⟨38, _⟩ => ⟨S_, .f32⟩
  | .hbm, ⟨39, _⟩ => ⟨S4x1024x1, .f32⟩
  | .hbm, ⟨40, _⟩ => ⟨S4x1024x1, .f32⟩
  | .hbm, ⟨41, _⟩ => ⟨S4x1024x1024, .f32⟩
  | .hbm, ⟨42, _⟩ => ⟨S4x1024x1024, .f32⟩
  | .hbm, ⟨43, _⟩ => ⟨S4x1024x1024, .f32⟩
  | .hbm, ⟨44, _⟩ => ⟨S_, .f32⟩
  | .hbm, ⟨45, _⟩ => ⟨S4x1024, .f32⟩
  | .hbm, ⟨46, _⟩ => ⟨S4x1024x1, .f32⟩
  | .hbm, ⟨47, _⟩ => ⟨S_, .f32⟩
  | .hbm, ⟨48, _⟩ => ⟨S4x1024x1, .f32⟩
  | .hbm, ⟨49, _⟩ => ⟨S4x1024x1, .f32⟩
  | .hbm, ⟨50, _⟩ => ⟨S4x1024x1024, .f32⟩
  | .hbm, ⟨51, _⟩ => ⟨S4x1024x1024, .f32⟩
  | .hbm, ⟨52, _⟩ => ⟨S_, .f32⟩
  | .hbm, ⟨53, _⟩ => ⟨S4x1024x1, .f32⟩
  | .hbm, ⟨54, _⟩ => ⟨S4x1024x1, .f32⟩
  | .hbm, ⟨55, _⟩ => ⟨S4x1024x1, .f32⟩
  | .hbm, ⟨56, _⟩ => ⟨S4x1024x1024, .f32⟩
  | .hbm, ⟨57, _⟩ => ⟨S4x1024x1024, .f32⟩
  | .hbm, ⟨58, _⟩ => ⟨S1x1x1024, .f32⟩
  | .hbm, ⟨59, _⟩ => ⟨S4x1024x1024, .f32⟩
  | .hbm, ⟨60, _⟩ => ⟨S4x1024x1024, .f32⟩
  | .hbm, ⟨61, _⟩ => ⟨S1x1x1024, .f32⟩
  | .hbm, ⟨62, _⟩ => ⟨S4x1024x1024, .f32⟩
  | .hbm, ⟨63, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  reducesTo_S4x1024x32768_S4x1024_d2 : S4x1024x32768.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32768_0_1_2 : S4x1024x1.BroadcastsInDim S4x1024x32768 (![0, 1, 2] : Fin 3 → Fin S4x1024x32768.rank)
  concatenates_S4x1024x1024_S4x1024x1024_S4x1024x2048_d2 : Shape.Concatenates [S4x1024x1024, S4x1024x1024] S4x1024x2048 2
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  reducesTo_S4x1024x1024_S4x1024_d2 : S4x1024x1024.ReducesTo [2] S4x1024
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  dot_S4x1024x1024_S512x1024_S4x1024x512_2_1_01_0_n_n_wf : DotDims.WF S4x1024x1024 S512x1024 S4x1024x512 [2] [1] [0, 1] [0] [] []
  dot_S4x1024x512_S32768x512_S4x1024x32768_2_1_01_0_n_n_wf : DotDims.WF S4x1024x512 S32768x512 S4x1024x32768 [2] [1] [0, 1] [0] [] []
  dot_S4x1024x32768_S32768x1024_S4x1024x1024_2_0_01_1_n_n_wf : DotDims.WF S4x1024x32768 S32768x1024 S4x1024x1024 [2] [0] [0, 1] [1] [] []
  dot_S4x1024x2048_S1024x2048_S4x1024x1024_2_1_01_0_n_n_wf : DotDims.WF S4x1024x2048 S1024x2048 S4x1024x1024 [2] [1] [0, 1] [0] [] []

variable [Facts₀]

def dot_S4x1024x1024_S512x1024_S4x1024x512_2_1_01_0_n_n : DotDims S4x1024x1024 S512x1024 S4x1024x512 where
  lhsContracting := [2]
  rhsContracting := [1]
  lhsNonContracting := [0, 1]
  rhsNonContracting := [0]
  lhsBatch := []
  rhsBatch := []
  wf := dot_S4x1024x1024_S512x1024_S4x1024x512_2_1_01_0_n_n_wf
def dot_S4x1024x512_S32768x512_S4x1024x32768_2_1_01_0_n_n : DotDims S4x1024x512 S32768x512 S4x1024x32768 where
  lhsContracting := [2]
  rhsContracting := [1]
  lhsNonContracting := [0, 1]
  rhsNonContracting := [0]
  lhsBatch := []
  rhsBatch := []
  wf := dot_S4x1024x512_S32768x512_S4x1024x32768_2_1_01_0_n_n_wf
def dot_S4x1024x32768_S32768x1024_S4x1024x1024_2_0_01_1_n_n : DotDims S4x1024x32768 S32768x1024 S4x1024x1024 where
  lhsContracting := [2]
  rhsContracting := [0]
  lhsNonContracting := [0, 1]
  rhsNonContracting := [1]
  lhsBatch := []
  rhsBatch := []
  wf := dot_S4x1024x32768_S32768x1024_S4x1024x1024_2_0_01_1_n_n_wf
def dot_S4x1024x2048_S1024x2048_S4x1024x1024_2_1_01_0_n_n : DotDims S4x1024x2048 S1024x2048 S4x1024x1024 where
  lhsContracting := [2]
  rhsContracting := [1]
  lhsNonContracting := [0, 1]
  rhsNonContracting := [0]
  lhsBatch := []
  rhsBatch := []
  wf := dot_S4x1024x2048_S1024x2048_S4x1024x1024_2_1_01_0_n_n_wf

class Facts : Prop extends Facts₀ where

variable [Facts]
-- ==== Proof.Steps.lean ====
/-
  One step of the kernel's walk over the memory blocks, as functions of what the step reads: the running maximum,
  the running denominator and the running numerator after a block, from the block of keys, the block of values,
  the query tile and the three running quantities before it; and the finishing step, which divides, gates and
  normalises. Each is a composition of the body's printed payload terms, named here so that what the body leaves
  in its scratch buffers and what those values are as numbers can be stated against one vocabulary.
-/
import proofs.«426381_j5866925326436_3_alg».proof.Proof.Gen.KernelIdeal.Skeleton

noncomputable section

namespace Cert.KernelIdeal.Steps

open Idealize.ShloMosaic Cert.KernelIdeal Cert.KernelIdeal.Gen

variable {F : FTy → Type} [FloatOps F]

/-- The query tile: hidden tile times the query weights, plus the bias. -/
abbrev queryTile (x0 : Vec F S1024x1024 .f32) (x1 : Vec F S512x1024 .bf16) (x2 : Vec F S1x512 .f32) : Vec F S1024x512 .f32 :=
  k0_pay5 x0 x1 x2

/-- The running maximum after a block of keys k, from the query tile q and the maximum m before. -/
abbrev stepMax (k : Vec F S4096x512 .bf16) (q : Vec F S1024x512 .f32) (m : Vec F S1024x1 .f32) : Vec F S1024x1 .f32 :=
  k0_pay2 (k0_pay10 k q m)

/-- The running denominator after the block, from the denominator l before. -/
abbrev stepDen (k : Vec F S4096x512 .bf16) (q : Vec F S1024x512 .f32) (m l : Vec F S1024x1 .f32) : Vec F S1024x1 .f32 :=
  k0_pay13 k q m l

/-- The running numerator after the block of keys k and values v, from the numerator a before. -/
abbrev stepNum (k : Vec F S4096x512 .bf16) (v : Vec F S4096x1024 .bf16) (q : Vec F S1024x512 .f32) (m : Vec F S1024x1 .f32)
    (a : Vec F S1024x1024 .f32) : Vec F S1024x1024 .f32 :=
  k0_pay1 (k0_pay14 k v q m a)

/-- The finishing step: numerator a over denominator l, gated with the hidden tile x0 through the two halves g1, g2 of the
    gate weights and the bias bg, normalised, scaled by gam and shifted by bet. -/
abbrev finish (x0 : Vec F S1024x1024 .f32) (g1 g2 : Vec F S1024x1024 .bf16) (bg gam bet : Vec F S1x1024 .f32)
    (a : Vec F S1024x1024 .f32) (l : Vec F S1024x1 .f32) : Vec F S1024x1024 .f32 :=
  k0_pay3 (k0_pay4 a l x0 g1 g2 bg) gam bet

/-- What the first step starts from: the finite stand-in for minus infinity, zero, zero. -/
abbrev startMax : Vec F S1024x1 .f32 := k0_pay6
abbrev startDen : Vec F S1024x1 .f32 := k0_pay7
abbrev startNum : Vec F S1024x1024 .f32 := k0_pay8

end Cert.KernelIdeal.Steps

end
-- ==== Proof.Pieces.lean ====
/-
  What one run of the kernel body leaves behind, case by case. The body has three cases: at the first memory block of a
  query tile (A) it computes the query tile, resets the running maximum, denominator and numerator and takes the first
  step; at a middle block (B) it takes one step from what the point before left; at the last block (C) it takes the step
  and then finishes into the output block. Each buffer's final contents are the last covering store's payload, and a load
  of a buffer after a store in the same run reads that store's payload.
-/
import proofs.«426381_j5866925326436_3_alg».proof.Proof.Gen.KernelIdeal.Frame
import proofs.«426381_j5866925326436_3_alg».proof.Proof.Steps
import Idealize.ShloMosaic.Lib.Pipeline.Value

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Steps

variable {F : FTy → Type} [FloatOps F]

/-- The zero offset pair, as the constant-zero function. -/
private theorem hz : (![0, 0] : Fin 2 → Nat) = fun _ => 0 := funext fun a => by fin_cases a <;> rfl

/-- First block: the query scratch holds the query tile. -/
theorem query_A (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = queryTile x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_unit_zero (S := S1024x512) hz]
  simp only [View.readAt_eq_ld, harg2.read_unread, harg3.read_unread, harg4.read_unread, View.ld_unit_zero (S := S1024x1024) hz, View.ld_unit_zero (S := S512x1024) hz, View.ld_unit_zero (S := S1x512) hz]

/-- First block: the maximum after one step from the start value. -/
theorem max_A (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = stepMax x3 (queryTile x0 x1 x2) startMax := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1024x1) hz]
  simp only [View.readAt_eq_ld, harg2.read_unread, harg3.read_unread, harg4.read_unread, harg5.read_unread, View.ld_unit_zero (S := S1024x1024) hz, View.ld_unit_zero (S := S512x1024) hz, View.ld_unit_zero (S := S1x512) hz, View.ld_unit_zero (S := S4096x512) hz, View.readCov_unit_zero (S := S1024x512) _ hz, View.readCov_unit_zero (S := S1024x1) _ hz]

/-- First block: the denominator after one step from zero. -/
theorem den_A (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = stepDen x3 (queryTile x0 x1 x2) startMax startDen := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1024x1) hz]
  simp only [View.readAt_eq_ld, harg2.read_unread, harg3.read_unread, harg4.read_unread, harg5.read_unread, View.ld_unit_zero (S := S1024x1024) hz, View.ld_unit_zero (S := S512x1024) hz, View.ld_unit_zero (S := S1x512) hz, View.ld_unit_zero (S := S4096x512) hz, View.readCov_unit_zero (S := S1024x512) _ hz, View.readCov_unit_zero (S := S1024x1) _ hz]

/-- First block: the numerator after one step from zero. -/
theorem num_A (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = stepNum x3 x4 (queryTile x0 x1 x2) startMax startNum := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1024x1024) hz]
  simp only [View.readAt_eq_ld, harg2.read_unread, harg3.read_unread, harg4.read_unread, harg5.read_unread, harg6.read_unread, View.ld_unit_zero (S := S1024x1024) hz, View.ld_unit_zero (S := S512x1024) hz, View.ld_unit_zero (S := S1x512) hz, View.ld_unit_zero (S := S4096x512) hz, View.ld_unit_zero (S := S4096x1024) hz, View.readCov_unit_zero (S := S1024x512) _ hz, View.readCov_unit_zero (S := S1024x1) _ hz, View.readCov_unit_zero (S := S1024x1024) _ hz]

/-- Middle block: one step from what the point before left. -/
theorem max_B (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepMax x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero (S := S1024x1) hz]
  simp only [View.readAt_eq_ld, harg5.read_unread, harg13.read_unread, harg14.read_unread, View.ld_unit_zero (S := S4096x512) hz, View.ld_unit_zero (S := S1024x512) hz, View.ld_unit_zero (S := S1024x1) hz]

/-- Middle block: the denominator. -/
theorem den_B (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepDen x3 xs0 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero (S := S1024x1) hz]
  simp only [View.readAt_eq_ld, harg5.read_unread, harg13.read_unread, harg14.read_unread, harg15.read_unread, View.ld_unit_zero (S := S4096x512) hz, View.ld_unit_zero (S := S1024x512) hz, View.ld_unit_zero (S := S1024x1) hz]

/-- Middle block: the numerator. -/
theorem num_B (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : ¬cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepNum x3 x4 xs0 xs1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero (S := S1024x1024) hz]
  simp only [View.readAt_eq_ld, harg5.read_unread, harg6.read_unread, harg13.read_unread, harg14.read_unread, harg16.read_unread, View.ld_unit_zero (S := S4096x512) hz, View.ld_unit_zero (S := S4096x1024) hz, View.ld_unit_zero (S := S1024x512) hz, View.ld_unit_zero (S := S1024x1) hz, View.ld_unit_zero (S := S1024x1024) hz]

/-- Last block: the same step. -/
theorem max_C (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepMax x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero (S := S1024x1) hz]
  simp only [View.readAt_eq_ld, harg5.read_unread, harg13.read_unread, harg14.read_unread, View.ld_unit_zero (S := S4096x512) hz, View.ld_unit_zero (S := S1024x512) hz, View.ld_unit_zero (S := S1024x1) hz]

/-- Last block: the denominator. -/
theorem den_C (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepDen x3 xs0 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero (S := S1024x1) hz]
  simp only [View.readAt_eq_ld, harg5.read_unread, harg13.read_unread, harg14.read_unread, harg15.read_unread, View.ld_unit_zero (S := S4096x512) hz, View.ld_unit_zero (S := S1024x512) hz, View.ld_unit_zero (S := S1024x1) hz]

/-- Last block: the numerator. -/
theorem num_C (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = stepNum x3 x4 xs0 xs1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero (S := S1024x1024) hz]
  simp only [View.readAt_eq_ld, harg5.read_unread, harg6.read_unread, harg13.read_unread, harg14.read_unread, harg16.read_unread, View.ld_unit_zero (S := S4096x512) hz, View.ld_unit_zero (S := S4096x1024) hz, View.ld_unit_zero (S := S1024x512) hz, View.ld_unit_zero (S := S1024x1) hz, View.ld_unit_zero (S := S1024x1024) hz]

/-- Last block: the output block is the finishing step of the numerator and denominator just stored. -/
theorem out_C (c : Dev nD) (i : grid0.Coords) (arg2 : Memref sig .tc .vmem S1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x512 .f32) (harg13 : arg13.IsWhole) (arg14 : Memref sig .tc .vmem S1024x1 .f32) (harg14 : arg14.IsWhole) (arg15 : Memref sig .tc .vmem S1024x1 .f32) (harg15 : arg15.IsWhole) (arg16 : Memref sig .tc .vmem S1024x1024 .f32) (harg16 : arg16.IsWhole) (hc0 : ¬cond0_0 i) (hc1 : cond0_1 i)
    (x0 : Vec F S1024x1024 .f32) (x1 : Vec F S512x1024 .bf16) (x2 : Vec F S1x512 .f32) (x3 : Vec F S4096x512 .bf16) (x4 : Vec F S4096x1024 .bf16) (x5 : Vec F S1024x1024 .bf16) (x6 : Vec F S1024x1024 .bf16) (x7 : Vec F S1x1024 .f32) (x8 : Vec F S1x1024 .f32) (x9 : Vec F S1x1024 .f32) (xs0 : Vec F S1024x512 .f32) (xs1 : Vec F S1024x1 .f32) (xs2 : Vec F S1024x1 .f32) (xs3 : Vec F S1024x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = finish x0 x5 x6 x7 x8 x9 (stepNum x3 x4 xs0 xs1 xs3) (stepDen x3 xs0 xs1 xs2) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero (S := S1024x1024) hz]
  simp only [View.readAt_eq_ld, harg2.read_unread, harg5.read_unread, harg6.read_unread, harg7.read_unread, harg8.read_unread, harg9.read_unread, harg10.read_unread, harg11.read_unread, harg13.read_unread, harg14.read_unread, harg15.read_unread, harg16.read_unread, View.ld_unit_zero (S := S4096x512) hz, View.ld_unit_zero (S := S4096x1024) hz, View.ld_unit_zero (S := S1024x512) hz, View.ld_unit_zero (S := S1024x1) hz, View.ld_unit_zero (S := S1024x1024) hz, View.ld_unit_zero (S := S1x1024) hz, View.readCov_unit_zero (S := S1024x1024) _ hz, View.readCov_unit_zero (S := S1024x1) _ hz]

end Cert.KernelIdeal.Pieces

end
-- ==== Proof.Spec.lean ====
/-
  The mathematics of the retrieval block, stated once over the reals, with no program in sight.

  One query row (batch b, position s) of the block computes
    query   q k   = (sum over h of hs h * Wq k h) + bq k
    score   sc m  = sum over k of q k * K m k                 (m ranges over the 32768 memory rows)
    read    r v   = (sum over m of e^(sc m) * V m v) / (sum over m of e^(sc m))
    gated   x h   = hs h + ((sum over c of hs c * Wg h c + sum over c of r c * Wg h (1024 + c)) + bg h)
  and the result is the layer norm of the row x, scaled by gamma and shifted by beta.

  The softmax weights are written here with NO shift of the exponent.  Any real shift mu cancels between numerator
  and denominator, which is what makes a kernel that walks the memory rows block by block, rescaling as its running
  maximum grows, equal to a reference that subtracts the row's true maximum once.  The partial sums after n blocks
  of 4096 memory rows, under the shift mu, are partDen and partNum below.
-/
import Idealize.ShloMosaic.PureOps.Ideal.Laws
import Idealize.ShloMosaic.Lib.ValueIdx

noncomputable section

open Idealize.ShloMosaic

namespace Cert.Retrieval

/-- Memory row k of block j (blocks of 4096 rows; total, so that no bound proof is carried: for j < 8 the remainder is idle). -/
def krow (j : ℕ) (k : Fin 4096) : Fin 32768 := ⟨(j * 4096 + k.val) % 32768, Nat.mod_lt _ (by norm_num)⟩

/-- The query tile (of 1024 rows; it is also the batch index) that grid point n works on: the grid is 4 tiles by 8 memory
    blocks, the memory axis innermost. Total in n. -/
def tileOf (n : ℕ) : Fin 4 := ⟨(n / 8) % 4, Nat.mod_lt _ (by norm_num)⟩

/-- Column c of the first half of the gate's 2048 input columns (those that multiply the hidden row). -/
def loCol (c : Fin 1024) : Fin 2048 := ⟨c.val, by have := c.isLt; omega⟩
/-- Column 1024 + c: the second half (those that multiply the retrieved row). -/
def hiCol (c : Fin 1024) : Fin 2048 := ⟨1024 + c.val, by have := c.isLt; omega⟩

section Row

variable (hs : Fin 1024 → ℝ) (Wq : Fin 512 → Fin 1024 → ℝ) (bq : Fin 512 → ℝ)
  (K : Fin 32768 → Fin 512 → ℝ) (V : Fin 32768 → Fin 1024 → ℝ)
  (Wg : Fin 1024 → Fin 2048 → ℝ) (bg : Fin 1024 → ℝ)

/-- The row's query. -/
def query (k : Fin 512) : ℝ := (∑ h : Fin 1024, hs h * Wq k h) + bq k

/-- Its score against memory row m. -/
def score (m : Fin 32768) : ℝ := ∑ k : Fin 512, query hs Wq bq k * K m k

/-- Denominator of the softmax over the first n blocks, exponents shifted by mu. -/
def partDen (sc : Fin 32768 → ℝ) (μ : ℝ) (n : ℕ) : ℝ :=
  ∑ j ∈ Finset.range n, ∑ k : Fin 4096, Real.exp (sc (krow j k) - μ)

/-- Numerator against one column val of the value rows, over the first n blocks, exponents shifted by mu. -/
def partNum (sc val : Fin 32768 → ℝ) (μ : ℝ) (n : ℕ) : ℝ :=
  ∑ j ∈ Finset.range n, ∑ k : Fin 4096, Real.exp (sc (krow j k) - μ) * val (krow j k)

/-- The softmax-weighted mean of column v of the value rows. -/
def retrieved (v : Fin 1024) : ℝ :=
  (∑ m : Fin 32768, Real.exp (score hs Wq bq K m) * V m v) / (∑ m : Fin 32768, Real.exp (score hs Wq bq K m))

/-- The gated residual row, before normalisation. -/
def gated (h : Fin 1024) : ℝ :=
  hs h + (((∑ c : Fin 1024, hs c * Wg h (loCol c)) + (∑ c : Fin 1024, retrieved hs Wq bq K V c * Wg h (hiCol c))) + bg h)

end Row

/-- Layer norm of a row over the extended reals, as both programs spell it: mean and variance are sums divided by the
    word 1024.0, the variance is shifted by the word 1e-5 before the reciprocal square root. The two words are kept as
    words: both programs carry the same ones, so their values are never needed. -/
def layerNorm (x γ β : Fin 1024 → EReal) (h : Fin 1024) : EReal :=
  let mean : EReal := Ideal.div (∑ k : Fin 1024, x k) (Ideal.ofBits .f32 0x44800000#32)
  let var : EReal := Ideal.div (∑ k : Fin 1024, (x k - mean) * (x k - mean)) (Ideal.ofBits .f32 0x44800000#32)
  ((x h - mean) * Ideal.rsqrt (var + Ideal.ofBits .f32 0x3727C5AC#32)) * γ h + β h

/-- The block's result at (b, s, h), for real inputs; gamma and beta enter only the last affine step and may be any
    extended reals. -/
def result (hs : Fin 4 → Fin 1024 → Fin 1024 → ℝ) (Wq : Fin 512 → Fin 1024 → ℝ) (bq : Fin 512 → ℝ)
    (K : Fin 32768 → Fin 512 → ℝ) (V : Fin 32768 → Fin 1024 → ℝ) (Wg : Fin 1024 → Fin 2048 → ℝ) (bg : Fin 1024 → ℝ)
    (γ β : Fin 1024 → EReal) (b : Fin 4) (s h : Fin 1024) : EReal :=
  layerNorm (fun h' => ((gated (hs b s) Wq bq K V Wg bg h' : ℝ) : EReal)) γ β h

end Cert.Retrieval

end
-- ==== Proof.Blocks.lean ====
/-
  What the kernel's windows hold at a grid point, in terms of the program's arguments. The host lines before the call
  only re-lay the arguments (a reshape of the hidden states to 4096 rows, a reshape of each vector to one row, the two
  column halves of the gate weights) or change a float format, which over the extended reals is the identity. Grid point n
  is query tile n / 8 (which is the batch index: a tile is 1024 rows) and memory block n % 8.
-/
import proofs.«426381_j5866925326436_3_alg».proof.Proof.Gen.KernelIdeal.Frame
import proofs.«426381_j5866925326436_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen Cert.Retrieval

variable (m : (ℓ : Loc nD τ sig) → Buf (Elt Ideal) ℓ)

/-- The windows' blocks at a grid point, each at its literal type. -/
abbrev hsBlk (c : Dev nD) (t : Fin cfg0.N) : Vec Ideal S1024x1024 .f32 := iblk m c 0 t
abbrev wqBlk (c : Dev nD) (t : Fin cfg0.N) : Vec Ideal S512x1024 .bf16 := iblk m c 1 t
abbrev bqBlk (c : Dev nD) (t : Fin cfg0.N) : Vec Ideal S1x512 .f32 := iblk m c 2 t
abbrev keyBlk (c : Dev nD) (t : Fin cfg0.N) : Vec Ideal S4096x512 .bf16 := iblk m c 3 t
abbrev valBlk (c : Dev nD) (t : Fin cfg0.N) : Vec Ideal S4096x1024 .bf16 := iblk m c 4 t
abbrev g1Blk (c : Dev nD) (t : Fin cfg0.N) : Vec Ideal S1024x1024 .bf16 := iblk m c 5 t
abbrev g2Blk (c : Dev nD) (t : Fin cfg0.N) : Vec Ideal S1024x1024 .bf16 := iblk m c 6 t
abbrev bgBlk (c : Dev nD) (t : Fin cfg0.N) : Vec Ideal S1x1024 .f32 := iblk m c 7 t
abbrev gamBlk (c : Dev nD) (t : Fin cfg0.N) : Vec Ideal S1x1024 .f32 := iblk m c 8 t
abbrev betBlk (c : Dev nD) (t : Fin cfg0.N) : Vec Ideal S1x1024 .f32 := iblk m c 9 t

/-! ## What the host lines before the call leave in the arrays the windows stage

Each is one line of the program: a reshape, a change of float format (the identity over the extended reals), or a
column slice followed by such a change. -/

private theorem arr_hs (c : Dev nD) :
    (V m c main_v0 : S4096x1024.Idx → EReal)
      = shapeCast S4096x1024 (m ((c.tc : Thread nD τ).loc main_arg0)) shapeCasts_S4x1024x1024_S4096x1024 := by
  show StableHlo.after hostOps0 (fun b => m (c, b)) (Proc.devRef .tc main_v0) = _
  after_results
  rfl

private theorem arr_wq (c : Dev nD) :
    (V m c main_v1 : S512x1024.Idx → EReal) = m ((c.tc : Thread nD τ).loc main_arg1) := by
  show StableHlo.after hostOps0 (fun b => m (c, b)) (Proc.devRef .tc main_v1) = _
  after_results
  rfl

private theorem arr_bq (c : Dev nD) :
    (V m c main_v2 : S1x512.Idx → EReal)
      = shapeCast S1x512 (m ((c.tc : Thread nD τ).loc main_arg2)) shapeCasts_S512_S1x512 := by
  show StableHlo.after hostOps0 (fun b => m (c, b)) (Proc.devRef .tc main_v2) = _
  after_results
  rfl

private theorem arr_key (c : Dev nD) :
    (V m c main_v3 : S32768x512.Idx → EReal) = m ((c.tc : Thread nD τ).loc main_arg3) := by
  show StableHlo.after hostOps0 (fun b => m (c, b)) (Proc.devRef .tc main_v3) = _
  after_results
  rfl

private theorem arr_val (c : Dev nD) :
    (V m c main_v4 : S32768x1024.Idx → EReal) = m ((c.tc : Thread nD τ).loc main_arg4) := by
  show StableHlo.after hostOps0 (fun b => m (c, b)) (Proc.devRef .tc main_v4) = _
  after_results
  rfl

private theorem arr_g1 (c : Dev nD) :
    (V m c main_v6 : S1024x1024.Idx → EReal)
      = extractStridedSlice S1024x1024 ![0, 0] (m ((c.tc : Thread nD τ).loc main_arg5))
          slices_S1024x2048_S1024x1024_0_0 := by
  show StableHlo.after hostOps0 (fun b => m (c, b)) (Proc.devRef .tc main_v6) = _
  after_results
  rfl

private theorem arr_g2 (c : Dev nD) :
    (V m c main_v8 : S1024x1024.Idx → EReal)
      = extractStridedSlice S1024x1024 ![0, 1024] (m ((c.tc : Thread nD τ).loc main_arg5))
          slices_S1024x2048_S1024x1024_0_1024 := by
  show StableHlo.after hostOps0 (fun b => m (c, b)) (Proc.devRef .tc main_v8) = _
  after_results
  rfl

private theorem arr_bg (c : Dev nD) :
    (V m c main_v9 : S1x1024.Idx → EReal)
      = shapeCast S1x1024 (m ((c.tc : Thread nD τ).loc main_arg6)) shapeCasts_S1024_S1x1024 := by
  show StableHlo.after hostOps0 (fun b => m (c, b)) (Proc.devRef .tc main_v9) = _
  after_results
  rfl

private theorem arr_gam (c : Dev nD) :
    (V m c main_v10 : S1x1024.Idx → EReal)
      = shapeCast S1x1024 (m ((c.tc : Thread nD τ).loc main_arg7)) shapeCasts_S1024_S1x1024 := by
  show StableHlo.after hostOps0 (fun b => m (c, b)) (Proc.devRef .tc main_v10) = _
  after_results
  rfl

private theorem arr_bet (c : Dev nD) :
    (V m c main_v11 : S1x1024.Idx → EReal)
      = shapeCast S1x1024 (m ((c.tc : Thread nD τ).loc main_arg8)) shapeCasts_S1024_S1x1024 := by
  show StableHlo.after hostOps0 (fun b => m (c, b)) (Proc.devRef .tc main_v11) = _
  after_results
  rfl

/-! ## The windows' block indices over the grid

Point t has coordinates (t / 8, t % 8). The hidden tile follows the first, the key and value blocks the second, every
other window stays at block (0, 0). Each is a finite check over the 32 points. -/

private theorem idx_hs : ∀ t : Fin grid0.N, win0_0.index t (0 : Fin 2) = t.val / 8 ∧ win0_0.index t (1 : Fin 2) = 0 :=
  (by decide +kernel : ∀ t : Fin grid0.N, _)
private theorem idx_wq : ∀ t : Fin grid0.N, win0_1.index t (0 : Fin 2) = 0 ∧ win0_1.index t (1 : Fin 2) = 0 :=
  (by decide +kernel : ∀ t : Fin grid0.N, _)
private theorem idx_bq : ∀ t : Fin grid0.N, win0_2.index t (0 : Fin 2) = 0 ∧ win0_2.index t (1 : Fin 2) = 0 :=
  (by decide +kernel : ∀ t : Fin grid0.N, _)
private theorem idx_key : ∀ t : Fin grid0.N, win0_3.index t (0 : Fin 2) = t.val % 8 ∧ win0_3.index t (1 : Fin 2) = 0 :=
  (by decide +kernel : ∀ t : Fin grid0.N, _)
private theorem idx_val : ∀ t : Fin grid0.N, win0_4.index t (0 : Fin 2) = t.val % 8 ∧ win0_4.index t (1 : Fin 2) = 0 :=
  (by decide +kernel : ∀ t : Fin grid0.N, _)
private theorem idx_g1 : ∀ t : Fin grid0.N, win0_5.index t (0 : Fin 2) = 0 ∧ win0_5.index t (1 : Fin 2) = 0 :=
  (by decide +kernel : ∀ t : Fin grid0.N, _)
private theorem idx_g2 : ∀ t : Fin grid0.N, win0_6.index t (0 : Fin 2) = 0 ∧ win0_6.index t (1 : Fin 2) = 0 :=
  (by decide +kernel : ∀ t : Fin grid0.N, _)
private theorem idx_bg : ∀ t : Fin grid0.N, win0_7.index t (0 : Fin 2) = 0 ∧ win0_7.index t (1 : Fin 2) = 0 :=
  (by decide +kernel : ∀ t : Fin grid0.N, _)
private theorem idx_gam : ∀ t : Fin grid0.N, win0_8.index t (0 : Fin 2) = 0 ∧ win0_8.index t (1 : Fin 2) = 0 :=
  (by decide +kernel : ∀ t : Fin grid0.N, _)
private theorem idx_bet : ∀ t : Fin grid0.N, win0_9.index t (0 : Fin 2) = 0 ∧ win0_9.index t (1 : Fin 2) = 0 :=
  (by decide +kernel : ∀ t : Fin grid0.N, _)

/-! ## The blocks, entry by entry

A block's coordinate on an axis is its index there times the block's extent plus the coordinate inside the block. -/

/-- The hidden tile at point t is batch t / 8 of the hidden states. -/
theorem hsBlk_apply (c : Dev nD) (t : Fin cfg0.N) (p h : Fin 1024) :
    hsBlk m c t (ix2 p h) = m ((c.tc : Thread nD τ).loc main_arg0) (ix3 (tileOf t.val) p h) := by
  have ht : t.val < 32 := t.isLt
  show iblk m c 0 t (ix2 p h) = _
  unfold iblk
  rw [View.read_apply]
  show V m c main_v0 _ = _
  rw [arr_hs]
  apply shapeCast_apply
  rw [Shape.rowMajor_val_two]
  show (S4x1024x1024.rowMajor (ix3 (tileOf t.val) p h)).val = _
  rw [Shape.rowMajor_val_three]
  show ((t.val / 8 % 4) * 1024 + p.val) * 1024 + h.val
    = (win0_0.index t 0 * 1024 + 1 * p.val) * 1024 + (win0_0.index t 1 * 1024 + 1 * h.val)
  rw [(idx_hs t).1, (idx_hs t).2]
  omega

theorem wqBlk_apply (c : Dev nD) (t : Fin cfg0.N) (k : Fin 512) (h : Fin 1024) :
    wqBlk m c t (ix2 k h) = m ((c.tc : Thread nD τ).loc main_arg1) (ix2 k h) := by
  show iblk m c 1 t (ix2 k h) = _
  unfold iblk
  rw [View.read_apply]
  show V m c main_v1 _ = _
  rw [arr_wq]
  congr 1
  funext a
  apply Fin.ext
  match a with
  | ⟨0, _⟩ => show win0_1.index t 0 * 512 + 1 * k.val = k.val; rw [(idx_wq t).1]; omega
  | ⟨1, _⟩ => show win0_1.index t 1 * 1024 + 1 * h.val = h.val; rw [(idx_wq t).2]; omega

theorem bqBlk_apply (c : Dev nD) (t : Fin cfg0.N) (k : Fin 512) :
    bqBlk m c t (ix2 (0 : Fin 1) k) = m ((c.tc : Thread nD τ).loc main_arg2) (ix1 k) := by
  show iblk m c 2 t (ix2 (0 : Fin 1) k) = _
  unfold iblk
  rw [View.read_apply]
  show V m c main_v2 _ = _
  rw [arr_bq]
  apply shapeCast_apply
  rw [Shape.rowMajor_val_two]
  show (S512.rowMajor (ix1 k)).val = _
  rw [Shape.rowMajor_val_one]
  show k.val = (win0_2.index t 0 * 1 + 1 * 0) * 512 + (win0_2.index t 1 * 512 + 1 * k.val)
  rw [(idx_bq t).1, (idx_bq t).2]
  omega

/-- The key block at point t is memory block t % 8. -/
theorem keyBlk_apply (c : Dev nD) (t : Fin cfg0.N) (n : Fin 4096) (d : Fin 512) :
    keyBlk m c t (ix2 n d) = m ((c.tc : Thread nD τ).loc main_arg3) (ix2 (krow (t.val % 8) n) d) := by
  show iblk m c 3 t (ix2 n d) = _
  unfold iblk
  rw [View.read_apply]
  show V m c main_v3 _ = _
  rw [arr_key]
  congr 1
  funext a
  apply Fin.ext
  match a with
  | ⟨0, _⟩ =>
    show win0_3.index t 0 * 4096 + 1 * n.val = (t.val % 8 * 4096 + n.val) % 32768
    rw [(idx_key t).1]; omega
  | ⟨1, _⟩ => show win0_3.index t 1 * 512 + 1 * d.val = d.val; rw [(idx_key t).2]; omega

theorem valBlk_apply (c : Dev nD) (t : Fin cfg0.N) (n : Fin 4096) (v : Fin 1024) :
    valBlk m c t (ix2 n v) = m ((c.tc : Thread nD τ).loc main_arg4) (ix2 (krow (t.val % 8) n) v) := by
  show iblk m c 4 t (ix2 n v) = _
  unfold iblk
  rw [View.read_apply]
  show V m c main_v4 _ = _
  rw [arr_val]
  congr 1
  funext a
  apply Fin.ext
  match a with
  | ⟨0, _⟩ =>
    show win0_4.index t 0 * 4096 + 1 * n.val = (t.val % 8 * 4096 + n.val) % 32768
    rw [(idx_val t).1]; omega
  | ⟨1, _⟩ => show win0_4.index t 1 * 1024 + 1 * v.val = v.val; rw [(idx_val t).2]; omega

theorem g1Blk_apply (c : Dev nD) (t : Fin cfg0.N) (h c' : Fin 1024) :
    g1Blk m c t (ix2 h c') = m ((c.tc : Thread nD τ).loc main_arg5) (ix2 h (loCol c')) := by
  show iblk m c 5 t (ix2 h c') = _
  unfold iblk
  rw [View.read_apply]
  show V m c main_v6 _ = _
  rw [arr_g1]
  apply extractStridedSlice_apply
  intro a
  match a with
  | ⟨0, _⟩ => show h.val = 0 + (win0_5.index t 0 * 1024 + 1 * h.val); rw [(idx_g1 t).1]; omega
  | ⟨1, _⟩ => show c'.val = 0 + (win0_5.index t 1 * 1024 + 1 * c'.val); rw [(idx_g1 t).2]; omega

theorem g2Blk_apply (c : Dev nD) (t : Fin cfg0.N) (h c' : Fin 1024) :
    g2Blk m c t (ix2 h c') = m ((c.tc : Thread nD τ).loc main_arg5) (ix2 h (hiCol c')) := by
  show iblk m c 6 t (ix2 h c') = _
  unfold iblk
  rw [View.read_apply]
  show V m c main_v8 _ = _
  rw [arr_g2]
  apply extractStridedSlice_apply
  intro a
  match a with
  | ⟨0, _⟩ => show h.val = 0 + (win0_6.index t 0 * 1024 + 1 * h.val); rw [(idx_g2 t).1]; omega
  | ⟨1, _⟩ => show 1024 + c'.val = 1024 + (win0_6.index t 1 * 1024 + 1 * c'.val); rw [(idx_g2 t).2]; omega

theorem bgBlk_apply (c : Dev nD) (t : Fin cfg0.N) (h : Fin 1024) :
    bgBlk m c t (ix2 (0 : Fin 1) h) = m ((c.tc : Thread nD τ).loc main_arg6) (ix1 h) := by
  show iblk m c 7 t (ix2 (0 : Fin 1) h) = _
  unfold iblk
  rw [View.read_apply]
  show V m c main_v9 _ = _
  rw [arr_bg]
  apply shapeCast_apply
  rw [Shape.rowMajor_val_two]
  show (S1024.rowMajor (ix1 h)).val = _
  rw [Shape.rowMajor_val_one]
  show h.val = (win0_7.index t 0 * 1 + 1 * 0) * 1024 + (win0_7.index t 1 * 1024 + 1 * h.val)
  rw [(idx_bg t).1, (idx_bg t).2]
  omega

theorem gamBlk_apply (c : Dev nD) (t : Fin cfg0.N) (h : Fin 1024) :
    gamBlk m c t (ix2 (0 : Fin 1) h) = m ((c.tc : Thread nD τ).loc main_arg7) (ix1 h) := by
  show iblk m c 8 t (ix2 (0 : Fin 1) h) = _
  unfold iblk
  rw [View.read_apply]
  show V m c main_v10 _ = _
  rw [arr_gam]
  apply shapeCast_apply
  rw [Shape.rowMajor_val_two]
  show (S1024.rowMajor (ix1 h)).val = _
  rw [Shape.rowMajor_val_one]
  show h.val = (win0_8.index t 0 * 1 + 1 * 0) * 1024 + (win0_8.index t 1 * 1024 + 1 * h.val)
  rw [(idx_gam t).1, (idx_gam t).2]
  omega

theorem betBlk_apply (c : Dev nD) (t : Fin cfg0.N) (h : Fin 1024) :
    betBlk m c t (ix2 (0 : Fin 1) h) = m ((c.tc : Thread nD τ).loc main_arg8) (ix1 h) := by
  show iblk m c 9 t (ix2 (0 : Fin 1) h) = _
  unfold iblk
  rw [View.read_apply]
  show V m c main_v11 _ = _
  rw [arr_bet]
  apply shapeCast_apply
  rw [Shape.rowMajor_val_two]
  show (S1024.rowMajor (ix1 h)).val = _
  rw [Shape.rowMajor_val_one]
  show h.val = (win0_9.index t 0 * 1 + 1 * 0) * 1024 + (win0_9.index t 1 * 1024 + 1 * h.val)
  rw [(idx_bet t).1, (idx_bet t).2]
  omega

end Cert.KernelIdeal.Blocks

end
-- ==== Proof.Trans.lean ====
/-
  From one grid point to the next. The generated frame says, case by case, what the body's run leaves in the four scratch
  buffers and the output block at a point, as a function of the point's window blocks and of what the point before left;
  with the per-case values of the body this is: at the first memory block of a tile the query tile is computed and one
  step is taken from the start values; at every other block one step is taken from what the point before left, the query
  tile untouched; at the last block the output block is the finishing step of the numerator and denominator just stored.
-/
import proofs.«426381_j5866925326436_3_alg».proof.Proof.Pieces
import proofs.«426381_j5866925326436_3_alg».proof.Proof.Blocks

set_option maxRecDepth 16384

noncomputable section

namespace Cert.KernelIdeal.Trans

open Idealize.ShloMosaic Idealize.ShloMosaic.TcCoe Idealize.SL.Sem
open Cert.KernelIdeal Cert.KernelIdeal.Gen Cert.KernelIdeal.Steps Cert.KernelIdeal.Pieces Cert.KernelIdeal.Blocks

variable (m : (ℓ : Loc nD τ sig) → Buf (Elt Ideal) ℓ) (c : Dev nD)

/-- First block of a tile: the query scratch. -/
theorem query_first (t : Fin cfg0.N) (h0 : t.val % 8 = 0) (h1 : ¬t.val % 8 = 7) :
    (outsAt0 m c t.val t.isLt).2.1 = queryTile (hsBlk m c t) (wqBlk m c t) (bqBlk m c t) := by
  rw [outsAt0_A m c t h0 h1]
  dsimp only
  exact query_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- First block: the running maximum. -/
theorem max_first (t : Fin cfg0.N) (h0 : t.val % 8 = 0) (h1 : ¬t.val % 8 = 7) :
    (outsAt0 m c t.val t.isLt).2.2.1 = stepMax (keyBlk m c t) (queryTile (hsBlk m c t) (wqBlk m c t) (bqBlk m c t)) startMax := by
  rw [outsAt0_A m c t h0 h1]
  dsimp only
  exact max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- First block: the running denominator. -/
theorem den_first (t : Fin cfg0.N) (h0 : t.val % 8 = 0) (h1 : ¬t.val % 8 = 7) :
    (outsAt0 m c t.val t.isLt).2.2.2.1 = stepDen (keyBlk m c t) (queryTile (hsBlk m c t) (wqBlk m c t) (bqBlk m c t)) startMax startDen := by
  rw [outsAt0_A m c t h0 h1]
  dsimp only
  exact den_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- First block: the running numerator. -/
theorem num_first (t : Fin cfg0.N) (h0 : t.val % 8 = 0) (h1 : ¬t.val % 8 = 7) :
    (outsAt0 m c t.val t.isLt).2.2.2.2 = stepNum (keyBlk m c t) (valBlk m c t) (queryTile (hsBlk m c t) (wqBlk m c t) (bqBlk m c t)) startMax startNum := by
  rw [outsAt0_A m c t h0 h1]
  dsimp only
  exact num_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- A middle block leaves the query scratch as the point before left it. -/
theorem query_mid (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  rfl

/-- Middle block: the running maximum. -/
theorem max_mid (t : Fin cfg0.N) (h0 : ¬t.val % 8 = 0) (h1 : ¬t.val % 8 = 7) :
    (outsAt0 m c t.val t.isLt).2.2.1 = stepMax (keyBlk m c t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_B m c t h0 h1]
  dsimp only
  exact max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Middle block: the running denominator. -/
theorem den_mid (t : Fin cfg0.N) (h0 : ¬t.val % 8 = 0) (h1 : ¬t.val % 8 = 7) :
    (outsAt0 m c t.val t.isLt).2.2.2.1 = stepDen (keyBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_B m c t h0 h1]
  dsimp only
  exact den_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Middle block: the running numerator. -/
theorem num_mid (t : Fin cfg0.N) (h0 : ¬t.val % 8 = 0) (h1 : ¬t.val % 8 = 7) :
    (outsAt0 m c t.val t.isLt).2.2.2.2 = stepNum (keyBlk m c t) (valBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 := by
  rw [outsAt0_B m c t h0 h1]
  dsimp only
  exact num_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last block leaves the query scratch as the point before left it. -/
theorem query_last (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  rfl

/-- Last block: the running maximum. -/
theorem max_last (t : Fin cfg0.N) (h0 : ¬t.val % 8 = 0) (h1 : t.val % 8 = 7) :
    (outsAt0 m c t.val t.isLt).2.2.1 = stepMax (keyBlk m c t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_C m c t h0 h1]
  dsimp only
  exact max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Last block: the running denominator. -/
theorem den_last (t : Fin cfg0.N) (h0 : ¬t.val % 8 = 0) (h1 : t.val % 8 = 7) :
    (outsAt0 m c t.val t.isLt).2.2.2.1 = stepDen (keyBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_C m c t h0 h1]
  dsimp only
  exact den_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Last block: the running numerator. -/
theorem num_last (t : Fin cfg0.N) (h0 : ¬t.val % 8 = 0) (h1 : t.val % 8 = 7) :
    (outsAt0 m c t.val t.isLt).2.2.2.2 = stepNum (keyBlk m c t) (valBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 := by
  rw [outsAt0_C m c t h0 h1]
  dsimp only
  exact num_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Last block: the output block is the finishing step of what this very point left as numerator and denominator. -/
theorem out_last (t : Fin cfg0.N) (h0 : ¬t.val % 8 = 0) (h1 : t.val % 8 = 7) :
    (outsAt0 m c t.val t.isLt).1 = finish (hsBlk m c t) (g1Blk m c t) (g2Blk m c t) (bgBlk m c t) (gamBlk m c t) (betBlk m c t)
        (stepNum (keyBlk m c t) (valBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2)
        (stepDen (keyBlk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Trans

end
-- ==== Proof.Layout.lean ====
/-
  The body's non-pointwise operations read at an index, over the extended reals: each matrix product as a plain sum over
  the contracted axis, each lane reduction (kept as a column) as a sum or a running maximum over the row, each broadcast
  as the element it repeats.
-/
import proofs.«426381_j5866925326436_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Layout

open Idealize.ShloMosaic Idealize.ShloMosaic.ValueIdx Cert.KernelIdeal Cert.KernelIdeal.Gen

/-! ## The operand indices of the four matrix products, axis by axis

Each product contracts one axis of each operand. On a kept axis an operand's index is the output's coordinate
on the corresponding output axis; on the contracted axis it is the contraction index's one coordinate. -/

-- Hidden tile times query weights: [1024,1024] x [512,1024] -> [1024,512], contracting axis 1 of both.
private theorem lhs_query_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
private theorem lhs_query_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
private theorem rhs_query_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
private theorem rhs_query_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

-- Query tile times key block: [1024,512] x [4096,512] -> [1024,4096], contracting axis 1 of both.
private theorem lhs_score_0 (i : S1024x4096.Idx) (q : dot_S1024x512_S4096x512_S1024x4096_1_1_0_0_n_n.contr.Idx) :
    (dot_S1024x512_S4096x512_S1024x4096_1_1_0_0_n_n.lhsIdx i q 0).val = (i 0).val := by
  unfold DotDims.lhsIdx
  rw [dif_neg (show ¬(0 : Fin S1024x512.rank) ∈ dot_S1024x512_S4096x512_S1024x4096_1_1_0_0_n_n.lhsBatch by decide), dif_pos (show (0 : Fin S1024x512.rank) ∈ dot_S1024x512_S4096x512_S1024x4096_1_1_0_0_n_n.lhsNonContracting by decide)]
  rfl
private theorem lhs_score_1 (i : S1024x4096.Idx) (q : dot_S1024x512_S4096x512_S1024x4096_1_1_0_0_n_n.contr.Idx) :
    (dot_S1024x512_S4096x512_S1024x4096_1_1_0_0_n_n.lhsIdx i q 1).val = (q ⟨0, by decide⟩).val :=
  dot_S1024x512_S4096x512_S1024x4096_1_1_0_0_n_n.lhsIdx_val_of_single rfl i q
private theorem rhs_score_0 (i : S1024x4096.Idx) (q : dot_S1024x512_S4096x512_S1024x4096_1_1_0_0_n_n.contr.Idx) :
    (dot_S1024x512_S4096x512_S1024x4096_1_1_0_0_n_n.rhsIdx i q 0).val = (i 1).val := by
  unfold DotDims.rhsIdx
  rw [dif_neg (show ¬(0 : Fin S4096x512.rank) ∈ dot_S1024x512_S4096x512_S1024x4096_1_1_0_0_n_n.rhsBatch by decide), dif_pos (show (0 : Fin S4096x512.rank) ∈ dot_S1024x512_S4096x512_S1024x4096_1_1_0_0_n_n.rhsNonContracting by decide)]
  rfl
private theorem rhs_score_1 (i : S1024x4096.Idx) (q : dot_S1024x512_S4096x512_S1024x4096_1_1_0_0_n_n.contr.Idx) :
    (dot_S1024x512_S4096x512_S1024x4096_1_1_0_0_n_n.rhsIdx i q 1).val = (q ⟨0, by decide⟩).val :=
  dot_S1024x512_S4096x512_S1024x4096_1_1_0_0_n_n.rhsIdx_val_of_single rfl i q

-- Weights times value block: [1024,4096] x [4096,1024] -> [1024,1024], contracting axis 1 of the left, axis 0 of the right.
private theorem lhs_value_0 (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch by decide), dif_pos (show (0 : Fin S1024x4096.rank) ∈ dot_S1024x4096_S4096x1024_S1024x1024_1_0_0_1_n_n.lhsNonContracting by decide)]
  rfl
private theorem lhs_value_1 (i : S1024x1024.Idx) (q : dot_S1024x4096_S4096x1024_S1024x1024_1_0_0_1_n_n.contr.Idx) :
    (dot_S1024x4096_S4096x1024_S1024x1024_1_0_0_1_n_n.lhsIdx i q 1).val = (q ⟨0, by decide⟩).val :=
  dot_S1024x4096_S4096x1024_S1024x1024_1_0_0_1_n_n.lhsIdx_val_of_single rfl i q
private theorem rhs_value_0 (i : S1024x1024.Idx) (q : dot_S1024x4096_S4096x1024_S1024x1024_1_0_0_1_n_n.contr.Idx) :
    (dot_S1024x4096_S4096x1024_S1024x1024_1_0_0_1_n_n.rhsIdx i q 0).val = (q ⟨0, by decide⟩).val :=
  dot_S1024x4096_S4096x1024_S1024x1024_1_0_0_1_n_n.rhsIdx_val_of_single rfl i q
private theorem rhs_value_1 (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch by decide), dif_pos (show (1 : Fin S4096x1024.rank) ∈ dot_S1024x4096_S4096x1024_S1024x1024_1_0_0_1_n_n.rhsNonContracting by decide)]
  rfl

-- A row tile times one half of the gate weights: [1024,1024] x [1024,1024] -> [1024,1024], contracting axis 1 of both.
private theorem lhs_gate_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
private theorem lhs_gate_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
private theorem rhs_gate_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
private theorem rhs_gate_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The four matrix products at an index

Into the zero accumulator a product's element is the sum over the contraction index of the operands' products;
the contraction index has one coordinate, so the sum is re-indexed by that coordinate, and each operand index
is then read off axis by axis. -/

/-- Hidden tile times query weights: row p of the left against row k of the right. -/
theorem matmul_query (a : FVec Ideal S1024x1024 .bf16) (b : FVec Ideal S512x1024 .bf16) (p : Fin 1024) (k : Fin 512) :
    matmul dot_S1024x1024_S512x1024_S1024x512_1_1_0_0_n_n none a b (constant S1024x512 .f32 0x00000000#32) (ix2 p k)
      = ∑ h : Fin 1024, a (ix2 p h) * b (ix2 k h) := by
  refine (Ideal.matmul_constant_zero_apply dot_S1024x1024_S512x1024_S1024x512_1_1_0_0_n_n none a b (ix2 p k)).trans ?_
  rw [← Equiv.sum_comp (contrEquiv1 dot_S1024x1024_S512x1024_S1024x512_1_1_0_0_n_n 1024 rfl rfl).symm]
  refine Finset.sum_congr rfl fun h _ => ?_
  have hk := contrEquiv1_symm_val dot_S1024x1024_S512x1024_S1024x512_1_1_0_0_n_n 1024 rfl rfl h
  have el : dot_S1024x1024_S512x1024_S1024x512_1_1_0_0_n_n.lhsIdx (ix2 p k) ((contrEquiv1 dot_S1024x1024_S512x1024_S1024x512_1_1_0_0_n_n 1024 rfl rfl).symm h) = ix2 p h := funext fun c => Fin.ext (by
    match c with
    | ⟨0, _⟩ => exact lhs_query_0 _ _
    | ⟨1, _⟩ => exact (lhs_query_1 _ _).trans hk)
  have er : dot_S1024x1024_S512x1024_S1024x512_1_1_0_0_n_n.rhsIdx (ix2 p k) ((contrEquiv1 dot_S1024x1024_S512x1024_S1024x512_1_1_0_0_n_n 1024 rfl rfl).symm h) = ix2 k h := funext fun c => Fin.ext (by
    match c with
    | ⟨0, _⟩ => exact rhs_query_0 _ _
    | ⟨1, _⟩ => exact (rhs_query_1 _ _).trans hk)
  rw [el, er]

/-- Query tile times key block: row p of the left against row n of the right. -/
theorem matmul_score (a : FVec Ideal S1024x512 .bf16) (b : FVec Ideal S4096x512 .bf16) (p : Fin 1024) (n : Fin 4096) :
    matmul dot_S1024x512_S4096x512_S1024x4096_1_1_0_0_n_n none a b (constant S1024x4096 .f32 0x00000000#32) (ix2 p n)
      = ∑ d : Fin 512, a (ix2 p d) * b (ix2 n d) := by
  refine (Ideal.matmul_constant_zero_apply dot_S1024x512_S4096x512_S1024x4096_1_1_0_0_n_n none a b (ix2 p n)).trans ?_
  rw [← Equiv.sum_comp (contrEquiv1 dot_S1024x512_S4096x512_S1024x4096_1_1_0_0_n_n 512 rfl rfl).symm]
  refine Finset.sum_congr rfl fun d _ => ?_
  have hk := contrEquiv1_symm_val dot_S1024x512_S4096x512_S1024x4096_1_1_0_0_n_n 512 rfl rfl d
  have el : dot_S1024x512_S4096x512_S1024x4096_1_1_0_0_n_n.lhsIdx (ix2 p n) ((contrEquiv1 dot_S1024x512_S4096x512_S1024x4096_1_1_0_0_n_n 512 rfl rfl).symm d) = ix2 p d := funext fun c => Fin.ext (by
    match c with
    | ⟨0, _⟩ => exact lhs_score_0 _ _
    | ⟨1, _⟩ => exact (lhs_score_1 _ _).trans hk)
  have er : dot_S1024x512_S4096x512_S1024x4096_1_1_0_0_n_n.rhsIdx (ix2 p n) ((contrEquiv1 dot_S1024x512_S4096x512_S1024x4096_1_1_0_0_n_n 512 rfl rfl).symm d) = ix2 n d := funext fun c => Fin.ext (by
    match c with
    | ⟨0, _⟩ => exact rhs_score_0 _ _
    | ⟨1, _⟩ => exact (rhs_score_1 _ _).trans hk)
  rw [el, er]

/-- Weights times value block: row p of the left against column v of the right. -/
theorem matmul_value (a : FVec Ideal S1024x4096 .bf16) (b : FVec Ideal S4096x1024 .bf16) (p v : Fin 1024) :
    matmul dot_S1024x4096_S4096x1024_S1024x1024_1_0_0_1_n_n none a b (constant S1024x1024 .f32 0x00000000#32) (ix2 p v)
      = ∑ n : Fin 4096, a (ix2 p n) * b (ix2 n v) := by
  refine (Ideal.matmul_constant_zero_apply dot_S1024x4096_S4096x1024_S1024x1024_1_0_0_1_n_n none a b (ix2 p v)).trans ?_
  rw [← Equiv.sum_comp (contrEquiv1 dot_S1024x4096_S4096x1024_S1024x1024_1_0_0_1_n_n 4096 rfl rfl).symm]
  refine Finset.sum_congr rfl fun n _ => ?_
  have hk := contrEquiv1_symm_val dot_S1024x4096_S4096x1024_S1024x1024_1_0_0_1_n_n 4096 rfl rfl n
  have el : dot_S1024x4096_S4096x1024_S1024x1024_1_0_0_1_n_n.lhsIdx (ix2 p v) ((contrEquiv1 dot_S1024x4096_S4096x1024_S1024x1024_1_0_0_1_n_n 4096 rfl rfl).symm n) = ix2 p n := funext fun c => Fin.ext (by
    match c with
    | ⟨0, _⟩ => exact lhs_value_0 _ _
    | ⟨1, _⟩ => exact (lhs_value_1 _ _).trans hk)
  have er : dot_S1024x4096_S4096x1024_S1024x1024_1_0_0_1_n_n.rhsIdx (ix2 p v) ((contrEquiv1 dot_S1024x4096_S4096x1024_S1024x1024_1_0_0_1_n_n 4096 rfl rfl).symm n) = ix2 n v := funext fun c => Fin.ext (by
    match c with
    | ⟨0, _⟩ => exact (rhs_value_0 _ _).trans hk
    | ⟨1, _⟩ => exact rhs_value_1 _ _)
  rw [el, er]

/-- A row tile times one half of the gate weights: row p of the left against row h of the right. -/
theorem matmul_gate (a b : FVec Ideal S1024x1024 .bf16) (p h : Fin 1024) :
    matmul dot_S1024x1024_S1024x1024_S1024x1024_1_1_0_0_n_n none a b (constant S1024x1024 .f32 0x00000000#32) (ix2 p h)
      = ∑ c : Fin 1024, a (ix2 p c) * b (ix2 h c) := by
  refine (Ideal.matmul_constant_zero_apply dot_S1024x1024_S1024x1024_S1024x1024_1_1_0_0_n_n none a b (ix2 p h)).trans ?_
  rw [← Equiv.sum_comp (contrEquiv1 dot_S1024x1024_S1024x1024_S1024x1024_1_1_0_0_n_n 1024 rfl rfl).symm]
  refine Finset.sum_congr rfl fun c _ => ?_
  have hk := contrEquiv1_symm_val dot_S1024x1024_S1024x1024_S1024x1024_1_1_0_0_n_n 1024 rfl rfl c
  have el : dot_S1024x1024_S1024x1024_S1024x1024_1_1_0_0_n_n.lhsIdx (ix2 p h) ((contrEquiv1 dot_S1024x1024_S1024x1024_S1024x1024_1_1_0_0_n_n 1024 rfl rfl).symm c) = ix2 p c := funext fun e => Fin.ext (by
    match e with
    | ⟨0, _⟩ => exact lhs_gate_0 _ _
    | ⟨1, _⟩ => exact (lhs_gate_1 _ _).trans hk)
  have er : dot_S1024x1024_S1024x1024_S1024x1024_1_1_0_0_n_n.rhsIdx (ix2 p h) ((contrEquiv1 dot_S1024x1024_S1024x1024_S1024x1024_1_1_0_0_n_n 1024 rfl rfl).symm c) = ix2 h c := funext fun e => Fin.ext (by
    match e with
    | ⟨0, _⟩ => exact rhs_gate_0 _ _
    | ⟨1, _⟩ => exact (rhs_gate_1 _ _).trans hk)
  rw [el, er]

/-! ## A lane reduction kept as a column -/

/-- A vector of length a cast to the column shape [a, 1] reads, at (i, u), the vector at i: both positions are
i in row-major order, the unit coordinate u being 0. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index of a reduction along axis 1 of a matrix, over the result index p with coordinate k inserted,
is (p, k). -/
private theorem lift_1024 (p : Fin 1024) (k : Fin 1024) :
    reduces_S1024x1024_S1024.lift (ix1 p) k = ix2 p k :=
  funext fun c => Fin.ext (by
    match c with
    | ⟨0, _⟩ => rfl
    | ⟨1, _⟩ => rfl)

private theorem lift_4096 (p : Fin 1024) (k : Fin 4096) :
    reduces_S1024x4096_S1024.lift (ix1 p) k = ix2 p k :=
  funext fun c => Fin.ext (by
    match c with
    | ⟨0, _⟩ => rfl
    | ⟨1, _⟩ => rfl)

/-- The word of minus infinity denotes the least extended real. -/
private theorem ofBits_neg_inf : Ideal.ofBits .f32 0xFF800000#32 = (⊥ : EReal) := by
  simp [Ideal.ofBits, Ideal.ieee]

/-- The sum of a row of 1024, kept as a column. -/
theorem rowsum_1024 (x : FVec Ideal S1024x1024 .f32) (p : Fin 1024) :
    shapeCast S1024x1 (multiReduction .add [1] S1024 x 0x00000000#32 reduces_S1024x1024_S1024 (.inl rfl) rfl) shapeCasts_S1024_S1024x1
        (ix2 p (0 : Fin 1))
      = ∑ k : Fin 1024, x (ix2 p k) := by
  refine (shapeCast_a_a1_apply _ shapeCasts_S1024_S1024x1 p (0 : Fin 1)).trans ?_
  refine (Ideal.multiReduction_add_single x 0x00000000#32 reduces_S1024x1024_S1024 (.inl rfl) rfl (ix1 p)).trans ?_
  show ∑ k : Fin 1024, x (reduces_S1024x1024_S1024.lift (ix1 p) k) = _
  exact Finset.sum_congr rfl fun k _ => congrArg x (lift_1024 p k)

/-- The sum of a row of 4096, kept as a column. -/
theorem rowsum_4096 (x : FVec Ideal S1024x4096 .f32) (p : Fin 1024) :
    shapeCast S1024x1 (multiReduction .add [1] S1024 x 0x00000000#32 reduces_S1024x4096_S1024 (.inl rfl) rfl) shapeCasts_S1024_S1024x1
        (ix2 p (0 : Fin 1))
      = ∑ k : Fin 4096, x (ix2 p k) := by
  refine (shapeCast_a_a1_apply _ shapeCasts_S1024_S1024x1 p (0 : Fin 1)).trans ?_
  refine (Ideal.multiReduction_add_single x 0x00000000#32 reduces_S1024x4096_S1024 (.inl rfl) rfl (ix1 p)).trans ?_
  show ∑ k : Fin 4096, x (reduces_S1024x4096_S1024.lift (ix1 p) k) = _
  exact Finset.sum_congr rfl fun k _ => congrArg x (lift_4096 p k)

/-- The maximum of a row of 4096 from minus infinity, kept as a column. -/
theorem rowmax_4096 (x : FVec Ideal S1024x4096 .f32) (p : Fin 1024) :
    shapeCast S1024x1 (multiReduction .maximumf [1] S1024 x 0xFF800000#32 reduces_S1024x4096_S1024 (.inl rfl) rfl) shapeCasts_S1024_S1024x1
        (ix2 p (0 : Fin 1))
      = (Finset.univ : Finset (Fin 4096)).fold max (⊥ : EReal) (fun k => x (ix2 p k)) := by
  refine (shapeCast_a_a1_apply _ shapeCasts_S1024_S1024x1 p (0 : Fin 1)).trans ?_
  refine (Ideal.multiReduction_maximumf_single x 0xFF800000#32 reduces_S1024x4096_S1024 (.inl rfl) rfl (ix1 p)).trans ?_
  have hf : (fun k : Fin 4096 => x (reduces_S1024x4096_S1024.lift (ix1 p) k)) = fun k : Fin 4096 => x (ix2 p k) :=
    funext fun k => congrArg x (lift_4096 p k)
  show (Finset.univ : Finset (Fin 4096)).fold max (Ideal.ofBits .f32 0xFF800000#32)
      (fun k : Fin 4096 => x (reduces_S1024x4096_S1024.lift (ix1 p) k)) = _
  rw [hf, ofBits_neg_inf]

/-! ## Broadcasts -/

/-- A column [a, 1] broadcast to [a, b] reads, at (p, c), the column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column repeated along rows of 1024. -/
theorem bcast_col_1024 (v : FVec Ideal S1024x1 .f32) (p h : Fin 1024) :
    broadcastTo S1024x1024 v broadcasts_S1024x1_S1024x1024 (ix2 p h) = v (ix2 p (0 : Fin 1)) :=
  broadcastTo_a1_ab_apply v broadcasts_S1024x1_S1024x1024 p h

/-- A column repeated along rows of 4096. -/
theorem bcast_col_4096 (v : FVec Ideal S1024x1 .f32) (p : Fin 1024) (k : Fin 4096) :
    broadcastTo S1024x4096 v broadcasts_S1024x1_S1024x4096 (ix2 p k) = v (ix2 p (0 : Fin 1)) :=
  broadcastTo_a1_ab_apply v broadcasts_S1024x1_S1024x4096 p k

/-- A row of 1024 repeated down 1024 rows. -/
theorem bcast_row_1024 (v : FVec Ideal S1x1024 .f32) (p h : Fin 1024) :
    broadcastTo S1024x1024 v broadcasts_S1x1024_S1024x1024 (ix2 p h) = v (ix2 (0 : Fin 1) h) :=
  broadcastTo_1b_ab_apply v broadcasts_S1x1024_S1024x1024 p h

/-- A row of 512 repeated down 1024 rows. -/
theorem bcast_row_512 (v : FVec Ideal S1x512 .f32) (p : Fin 1024) (k : Fin 512) :
    broadcastTo S1024x512 v broadcasts_S1x512_S1024x512 (ix2 p k) = v (ix2 (0 : Fin 1) k) :=
  broadcastTo_1b_ab_apply v broadcasts_S1x512_S1024x512 p k

end Cert.KernelIdeal.Layout

end
-- ==== Proof.Algebra.lean ====
/-
  The laws that join a block-by-block, rescaled softmax to the plain one, over the reals, and the few facts
  about extended reals (casts of sums, quotients of reals, a maximum of reals is a real) that carry them back.
-/
import proofs.«426381_j5866925326436_3_alg».proof.Proof.Spec

noncomputable section

open Idealize.ShloMosaic

namespace Cert.Retrieval

/-- A finite sum of reals, cast term by term, is the cast of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- Over any nonempty finite index set, the fold of max from minus infinity over casts of reals is the cast of a real:
    the first element folded in replaces minus infinity, every later one takes a maximum of two reals. -/
private theorem fold_max_real_aux {ι : Type*} (s : Finset ι) (f : ι → ℝ) (hs : s.Nonempty) :
    ∃ r : ℝ, s.fold max (⊥ : EReal) (fun k => ((f k : ℝ) : EReal)) = (r : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨r, hr⟩ := ih hne
      rw [hr]
      rcases le_total (f a) r with h | h
      · exact ⟨r, max_eq_right (EReal.coe_le_coe_iff.mpr h)⟩
      · exact ⟨f a, max_eq_left (EReal.coe_le_coe_iff.mpr h)⟩

/-- The running maximum from minus infinity over a nonempty family of reals is a real. -/
theorem fold_max_real {n : ℕ} (hn : 0 < n) (f : Fin n → ℝ) :
    ∃ r : ℝ, (Finset.univ : Finset (Fin n)).fold max (⊥ : EReal) (fun k => ((f k : ℝ) : EReal)) = (r : EReal) := by
  exact fold_max_real_aux Finset.univ f ⟨⟨0, hn⟩, Finset.mem_univ _⟩

theorem partDen_zero (sc : Fin 32768 → ℝ) (μ : ℝ) : partDen sc μ 0 = 0 := by
  simp [partDen]

theorem partNum_zero (sc val : Fin 32768 → ℝ) (μ : ℝ) : partNum sc val μ 0 = 0 := by
  simp [partNum]

/-- After at least one block the denominator is positive. -/
theorem partDen_pos (sc : Fin 32768 → ℝ) (μ : ℝ) (n : ℕ) (hn : 0 < n) : 0 < partDen sc μ n := by
  unfold partDen
  refine Finset.sum_pos (fun j _ => ?_) (Finset.nonempty_range_iff.mpr (by omega))
  exact Finset.sum_pos (fun k _ => Real.exp_pos _) ⟨⟨0, by norm_num⟩, Finset.mem_univ _⟩

/-- One step of the walk: rescale what the first n blocks gave from the shift mu to the shift mu', add block n under mu'. -/
theorem partDen_step (sc : Fin 32768 → ℝ) (μ μ' : ℝ) (n : ℕ) :
    Real.exp (μ - μ') * partDen sc μ n + ∑ k : Fin 4096, Real.exp (sc (krow n k) - μ') = partDen sc μ' (n + 1) := by
  unfold partDen
  rw [Finset.sum_range_succ, Finset.mul_sum]
  congr 1
  refine Finset.sum_congr rfl fun j _ => ?_
  rw [Finset.mul_sum]
  refine Finset.sum_congr rfl fun k _ => ?_
  rw [← Real.exp_add]
  congr 1
  ring

theorem partNum_step (sc val : Fin 32768 → ℝ) (μ μ' : ℝ) (n : ℕ) :
    Real.exp (μ - μ') * partNum sc val μ n + ∑ k : Fin 4096, Real.exp (sc (krow n k) - μ') * val (krow n k)
      = partNum sc val μ' (n + 1) := by
  unfold partNum
  rw [Finset.sum_range_succ, Finset.mul_sum]
  congr 1
  refine Finset.sum_congr rfl fun j _ => ?_
  rw [Finset.mul_sum]
  refine Finset.sum_congr rfl fun k _ => ?_
  have h : μ - μ' + (sc (krow j k) - μ) = sc (krow j k) - μ' := by ring
  rw [← mul_assoc, ← Real.exp_add, h]

/-- A shifted exponential is the unshifted one times the exponential of minus the shift. -/
private theorem exp_shift (x μ : ℝ) : Real.exp (x - μ) = Real.exp (-μ) * Real.exp x := by
  rw [← Real.exp_add]
  congr 1
  ring

/-- The eight blocks of 4096 rows tile the 32768 memory rows: row k of block j is row 4096 j + k, and the pair (j, k)
    runs over Fin 8 × Fin 4096, which that map carries bijectively onto Fin 32768. -/
private theorem sum_blocks (f : Fin 32768 → ℝ) :
    ∑ j ∈ Finset.range 8, ∑ k : Fin 4096, f (krow j k) = ∑ m : Fin 32768, f m := by
  rw [← Fin.sum_univ_eq_sum_range (fun j => ∑ k : Fin 4096, f (krow j k)) 8,
    ← Equiv.sum_comp (finProdFinEquiv : Fin 8 × Fin 4096 ≃ Fin 32768) f, Fintype.sum_prod_type]
  refine Finset.sum_congr rfl fun j _ => Finset.sum_congr rfl fun k _ => ?_
  congr 1
  apply Fin.ext
  simp only [krow, finProdFinEquiv_apply_val]
  have hj := j.isLt
  have hk := k.isLt
  omega

/-- Over all eight blocks the shifted denominator is the unshifted one times the exponential of minus the shift. -/
private theorem partDen_eight (sc : Fin 32768 → ℝ) (μ : ℝ) :
    partDen sc μ 8 = Real.exp (-μ) * ∑ m : Fin 32768, Real.exp (sc m) := by
  unfold partDen
  rw [sum_blocks (fun m => Real.exp (sc m - μ)), Finset.mul_sum]
  exact Finset.sum_congr rfl fun m _ => exp_shift (sc m) μ

/-- Likewise the numerator. -/
private theorem partNum_eight (sc val : Fin 32768 → ℝ) (μ : ℝ) :
    partNum sc val μ 8 = Real.exp (-μ) * ∑ m : Fin 32768, Real.exp (sc m) * val m := by
  unfold partNum
  rw [sum_blocks (fun m => Real.exp (sc m - μ) * val m), Finset.mul_sum]
  refine Finset.sum_congr rfl fun m _ => ?_
  rw [exp_shift, mul_assoc]

/-- After all eight blocks the shift cancels: the ratio is the unshifted softmax mean. -/
theorem part_ratio (sc val : Fin 32768 → ℝ) (μ : ℝ) :
    partNum sc val μ 8 / partDen sc μ 8
      = (∑ m : Fin 32768, Real.exp (sc m) * val m) / (∑ m : Fin 32768, Real.exp (sc m)) := by
  rw [partNum_eight, partDen_eight, mul_div_mul_left _ _ (Real.exp_pos _).ne']

/-- The reference's form: weights normalised first under any real shift M, then summed against the column. -/
theorem softmax_shift (sc val : Fin 32768 → ℝ) (M : ℝ) :
    (∑ m : Fin 32768, (Real.exp (sc m - M) / ∑ k : Fin 32768, Real.exp (sc k - M)) * val m)
      = (∑ m : Fin 32768, Real.exp (sc m) * val m) / (∑ m : Fin 32768, Real.exp (sc m)) := by
  have hD : (∑ k : Fin 32768, Real.exp (sc k - M)) = Real.exp (-M) * ∑ k : Fin 32768, Real.exp (sc k) := by
    rw [Finset.mul_sum]
    exact Finset.sum_congr rfl fun k _ => exp_shift (sc k) M
  rw [hD, Finset.sum_div]
  refine Finset.sum_congr rfl fun m _ => ?_
  rw [exp_shift, mul_div_mul_left _ _ (Real.exp_pos _).ne', div_mul_eq_mul_div]

/-- A sum over the 2048 gate columns is the sum over its two halves. -/
theorem sum_halves (f : Fin 2048 → ℝ) :
    (∑ c : Fin 2048, f c) = (∑ c : Fin 1024, f (loCol c)) + ∑ c : Fin 1024, f (hiCol c) := by
  exact Fin.sum_univ_add (a := 1024) (b := 1024) f

end Cert.Retrieval

end
-- ==== Proof.PayAttn.lean ====
/-
  The attention step as numbers. With the query tile, the key block, the value block and the three running quantities
  all real, one step leaves: a real running maximum mu'; the denominator e^(mu - mu') * L + sum over the block of
  e^(score - mu'); the numerator e^(mu - mu') * A + sum over the block of e^(score - mu') * value. The query tile is
  the hidden tile against the query weights plus the bias; the start values are a real, zero and zero.
-/
import proofs.«426381_j5866925326436_3_alg».proof.Proof.Steps
import proofs.«426381_j5866925326436_3_alg».proof.Proof.Layout
import proofs.«426381_j5866925326436_3_alg».proof.Proof.Spec
import proofs.«426381_j5866925326436_3_alg».proof.Proof.Algebra

noncomputable section

namespace Cert.KernelIdeal.PayAttn

open Idealize.ShloMosaic Idealize.ShloMosaic.ValueIdx Cert.KernelIdeal Cert.KernelIdeal.Gen Cert.KernelIdeal.Steps Cert.Retrieval

/-- The query tile of real inputs is real: row p against weight row k, plus the bias. -/
theorem queryTile_apply (X0 : Fin 1024 → Fin 1024 → ℝ) (X1 : Fin 512 → Fin 1024 → ℝ) (X2 : Fin 512 → ℝ)
    (x0 : Vec Ideal S1024x1024 .f32) (x1 : Vec Ideal S512x1024 .bf16) (x2 : Vec Ideal S1x512 .f32)
    (h0 : ∀ p h, x0 (ix2 p h) = ((X0 p h : ℝ) : EReal)) (h1 : ∀ k h, x1 (ix2 k h) = ((X1 k h : ℝ) : EReal))
    (h2 : ∀ k, x2 (ix2 (0 : Fin 1) k) = ((X2 k : ℝ) : EReal)) (p : Fin 1024) (k : Fin 512) :
    queryTile x0 x1 x2 (ix2 p k) = (((∑ h : Fin 1024, X0 p h * X1 k h) + X2 k : ℝ) : EReal) := by
  dsimp only [queryTile, k0_pay5]
  rw [shapeCast_self, addf_apply]
  refine (congrArg₂ (· + ·) (Layout.matmul_query _ _ p k) (Layout.bcast_row_512 _ p k)).trans ?_
  simp only [truncf_apply, shapeCast_self, h0, h1, h2, ← EReal.coe_mul]
  rw [coe_sum, ← EReal.coe_add]

/-- The word the running maximum starts from has an exponent field that is not all ones, so it denotes a real. -/
private theorem startWord_real : ∃ r : ℝ, Ideal.ofBits .f32 0xFF333332#32 = ((r : ℝ) : EReal) := by
  unfold Ideal.ofBits Ideal.ieee
  dsimp only
  rw [if_neg (by decide), if_neg (by decide)]
  exact ⟨_, rfl⟩

/-- The start value of the running maximum is one real, the same in every row. -/
theorem startMax_real : ∃ r : ℝ, ∀ p : Fin 1024, (startMax (F := Ideal)) (ix2 p (0 : Fin 1)) = ((r : ℝ) : EReal) := by
  obtain ⟨r, hr⟩ := startWord_real
  refine ⟨r, fun p => ?_⟩
  dsimp only [startMax, k0_pay6]
  rw [shapeCast_self, broadcast_apply]
  exact hr

theorem startDen_apply (p : Fin 1024) : (startDen (F := Ideal)) (ix2 p (0 : Fin 1)) = ((0 : ℝ) : EReal) := by
  dsimp only [startDen, k0_pay7]
  rw [shapeCast_self, broadcast_apply]
  exact Ideal.ofBits_zero_f32.trans EReal.coe_zero.symm

theorem startNum_apply (p v : Fin 1024) : (startNum (F := Ideal)) (ix2 p v) = ((0 : ℝ) : EReal) := by
  dsimp only [startNum, k0_pay8]
  rw [shapeCast_self, broadcast_apply]
  exact Ideal.ofBits_zero_f32.trans EReal.coe_zero.symm

section Step

variable (Q : Fin 1024 → Fin 512 → ℝ) (Kb : Fin 4096 → Fin 512 → ℝ) (Vb : Fin 4096 → Fin 1024 → ℝ)
  (Mu L : Fin 1024 → ℝ) (A : Fin 1024 → Fin 1024 → ℝ)
  (q : Vec Ideal S1024x512 .f32) (kb : Vec Ideal S4096x512 .bf16) (vb : Vec Ideal S4096x1024 .bf16)
  (m l : Vec Ideal S1024x1 .f32) (a : Vec Ideal S1024x1024 .f32)
  (hq : ∀ p d, q (ix2 p d) = ((Q p d : ℝ) : EReal)) (hk : ∀ n d, kb (ix2 n d) = ((Kb n d : ℝ) : EReal))
  (hv : ∀ n v, vb (ix2 n v) = ((Vb n v : ℝ) : EReal)) (hm : ∀ p, m (ix2 p (0 : Fin 1)) = ((Mu p : ℝ) : EReal))
  (hl : ∀ p, l (ix2 p (0 : Fin 1)) = ((L p : ℝ) : EReal)) (ha : ∀ p v, a (ix2 p v) = ((A p v : ℝ) : EReal))

include hq hk in
/-- The scores: query row p against key row n, a real. -/
private theorem scores_apply (p : Fin 1024) (n : Fin 4096) :
    k0_pay9 kb q (ix2 p n) = ((∑ d : Fin 512, Q p d * Kb n d : ℝ) : EReal) := by
  dsimp only [k0_pay9]
  refine (Layout.matmul_score _ _ p n).trans ?_
  simp only [truncf_apply, shapeCast_self, hq, hk, ← EReal.coe_mul]
  exact coe_sum _ _

include hq hk hm in
/-- The new maximum before its same-shape cast: the larger of the old one and the row's running maximum of the scores. -/
private theorem newMax_apply (p : Fin 1024) :
    k0_pay10 kb q m (ix2 p (0 : Fin 1))
      = max ((Mu p : ℝ) : EReal)
          ((Finset.univ : Finset (Fin 4096)).fold max (⊥ : EReal) (fun n => ((∑ d : Fin 512, Q p d * Kb n d : ℝ) : EReal))) := by
  dsimp only [k0_pay10]
  rw [maximumf_apply, hm p]
  refine (congrArg (max ((Mu p : ℝ) : EReal)) (Layout.rowmax_4096 _ p)).trans ?_
  simp only [scores_apply Q Kb q kb hq hk]

include hq hk hm in
/-- The running maximum after the step is real in every row. -/
theorem stepMax_real : ∃ Mu' : Fin 1024 → ℝ, ∀ p, stepMax kb q m (ix2 p (0 : Fin 1)) = ((Mu' p : ℝ) : EReal) := by
  have h : ∀ p : Fin 1024, ∃ r : ℝ, stepMax kb q m (ix2 p (0 : Fin 1)) = ((r : ℝ) : EReal) := by
    intro p
    obtain ⟨r, hr⟩ := fold_max_real (n := 4096) (by norm_num) (fun n => ∑ d : Fin 512, Q p d * Kb n d)
    refine ⟨max (Mu p) r, ?_⟩
    dsimp only [stepMax, k0_pay2]
    rw [shapeCast_self, newMax_apply Q Kb Mu q kb m hq hk hm p, hr]
    exact (EReal.coe_strictMono.monotone.map_max).symm
  exact ⟨fun p => (h p).choose, fun p => (h p).choose_spec⟩

/-- The maximum the step leaves, read before its same-shape cast. -/
private theorem newMax_of_stepMax (Mu' : Fin 1024 → ℝ) (hm' : ∀ p, stepMax kb q m (ix2 p (0 : Fin 1)) = ((Mu' p : ℝ) : EReal))
    (p : Fin 1024) : k0_pay10 kb q m (ix2 p (0 : Fin 1)) = ((Mu' p : ℝ) : EReal) := by
  have h := hm' p
  dsimp only [stepMax, k0_pay2] at h
  rwa [shapeCast_self] at h

include hm in
/-- The rescale factor: e to the old maximum minus the new one. -/
private theorem factor_apply (Mu' : Fin 1024 → ℝ) (hm' : ∀ p, stepMax kb q m (ix2 p (0 : Fin 1)) = ((Mu' p : ℝ) : EReal))
    (p : Fin 1024) : k0_pay11 kb q m (ix2 p (0 : Fin 1)) = ((Real.exp (Mu p - Mu' p) : ℝ) : EReal) := by
  dsimp only [k0_pay11]
  show Ideal.exp (m (ix2 p (0 : Fin 1)) - k0_pay10 kb q m (ix2 p (0 : Fin 1))) = _
  rw [hm p, newMax_of_stepMax q kb m Mu' hm' p, ← EReal.coe_sub, Ideal.exp_coe]

include hq hk in
/-- The weights: e to the score minus the new maximum of its row. -/
private theorem weights_apply (Mu' : Fin 1024 → ℝ) (hm' : ∀ p, stepMax kb q m (ix2 p (0 : Fin 1)) = ((Mu' p : ℝ) : EReal))
    (p : Fin 1024) (n : Fin 4096) :
    k0_pay12 kb q m (ix2 p n) = ((Real.exp ((∑ d : Fin 512, Q p d * Kb n d) - Mu' p) : ℝ) : EReal) := by
  have hb : broadcastTo S1024x4096 (k0_pay10 kb q m) broadcasts_S1024x1_S1024x4096 (ix2 p n) = ((Mu' p : ℝ) : EReal) :=
    (Layout.bcast_col_4096 _ p n).trans (newMax_of_stepMax q kb m Mu' hm' p)
  dsimp only [k0_pay12]
  show Ideal.exp (k0_pay9 kb q (ix2 p n) - broadcastTo S1024x4096 (k0_pay10 kb q m) broadcasts_S1024x1_S1024x4096 (ix2 p n)) = _
  rw [hb, scores_apply Q Kb q kb hq hk p n, ← EReal.coe_sub, Ideal.exp_coe]

include hq hk hm hl in
/-- The denominator after the step, given the real maximum Mu' the step leaves. -/
theorem stepDen_apply (Mu' : Fin 1024 → ℝ) (hm' : ∀ p, stepMax kb q m (ix2 p (0 : Fin 1)) = ((Mu' p : ℝ) : EReal)) (p : Fin 1024) :
    stepDen kb q m l (ix2 p (0 : Fin 1))
      = ((Real.exp (Mu p - Mu' p) * L p + ∑ n : Fin 4096, Real.exp ((∑ d : Fin 512, Q p d * Kb n d) - Mu' p) : ℝ) : EReal) := by
  dsimp only [stepDen, k0_pay13]
  rw [shapeCast_self, addf_apply, mulf_apply, factor_apply Mu q kb m hm Mu' hm' p, hl p]
  refine (congrArg (((Real.exp (Mu p - Mu' p) : ℝ) : EReal) * ((L p : ℝ) : EReal) + ·) (Layout.rowsum_4096 _ p)).trans ?_
  simp only [weights_apply Q Kb q kb m hq hk Mu' hm' p]
  rw [coe_sum, ← EReal.coe_mul, ← EReal.coe_add]

include hq hk hv hm ha in
/-- The numerator after the step. -/
theorem stepNum_apply (Mu' : Fin 1024 → ℝ) (hm' : ∀ p, stepMax kb q m (ix2 p (0 : Fin 1)) = ((Mu' p : ℝ) : EReal)) (p v : Fin 1024) :
    stepNum kb vb q m a (ix2 p v)
      = ((Real.exp (Mu p - Mu' p) * A p v + ∑ n : Fin 4096, Real.exp ((∑ d : Fin 512, Q p d * Kb n d) - Mu' p) * Vb n v : ℝ) : EReal) := by
  have hf : broadcastTo S1024x1024 (k0_pay11 kb q m) broadcasts_S1024x1_S1024x1024 (ix2 p v)
      = ((Real.exp (Mu p - Mu' p) : ℝ) : EReal) :=
    (Layout.bcast_col_1024 _ p v).trans (factor_apply Mu q kb m hm Mu' hm' p)
  dsimp only [stepNum, k0_pay1, k0_pay14]
  rw [shapeCast_self, addf_apply, mulf_apply, hf, ha p v]
  refine (congrArg (((Real.exp (Mu p - Mu' p) : ℝ) : EReal) * ((A p v : ℝ) : EReal) + ·) (Layout.matmul_value _ _ p v)).trans ?_
  simp only [truncf_apply, shapeCast_self, weights_apply Q Kb q kb m hq hk Mu' hm' p, hv, ← EReal.coe_mul]
  rw [coe_sum, ← EReal.coe_add]

end Step

end Cert.KernelIdeal.PayAttn

end
-- ==== Proof.PayFinal.lean ====
/-
  The finishing step as numbers: the numerator over the (nonzero) denominator is the retrieved row; gated with the
  hidden row through the two halves of the gate weights and the bias it is the row that the layer norm then normalises.
-/
import proofs.«426381_j5866925326436_3_alg».proof.Proof.Steps
import proofs.«426381_j5866925326436_3_alg».proof.Proof.Layout
import proofs.«426381_j5866925326436_3_alg».proof.Proof.Spec
import proofs.«426381_j5866925326436_3_alg».proof.Proof.Algebra

noncomputable section

namespace Cert.KernelIdeal.PayFinal

open Idealize.ShloMosaic Idealize.ShloMosaic.ValueIdx Cert.KernelIdeal Cert.KernelIdeal.Gen Cert.KernelIdeal.Steps Cert.Retrieval

/-- The retrieved tile: the numerator over the denominator repeated along each row. -/
private def retrievedVec (a : Vec Ideal S1024x1024 .f32) (l : Vec Ideal S1024x1 .f32) : FVec Ideal S1024x1024 .f32 :=
  divf a (broadcastTo S1024x1024 l broadcasts_S1024x1_S1024x1024)

/-- The gated tile: the hidden tile plus (hidden tile against the first half of the gate weights, plus the retrieved
    tile against the second half, plus the bias row). -/
private def gatedVec (a : Vec Ideal S1024x1024 .f32) (l : Vec Ideal S1024x1 .f32) (x0 : Vec Ideal S1024x1024 .f32)
    (g1 g2 : Vec Ideal S1024x1024 .bf16) (bg : Vec Ideal S1x1024 .f32) : FVec Ideal S1024x1024 .f32 :=
  addf (shapeCast S1024x1024 x0 shapeCasts_S1024x1024_S1024x1024 : FVec Ideal S1024x1024 .f32)
    (addf
      (addf
        (matmul dot_S1024x1024_S1024x1024_S1024x1024_1_1_0_0_n_n none
          (truncf .bf16 (shapeCast S1024x1024 x0 shapeCasts_S1024x1024_S1024x1024 : FVec Ideal S1024x1024 .f32) bitsLt_bf16_f32)
          (shapeCast S1024x1024 g1 shapeCasts_S1024x1024_S1024x1024 : FVec Ideal S1024x1024 .bf16) (constant S1024x1024 .f32 0x00000000#32))
        (matmul dot_S1024x1024_S1024x1024_S1024x1024_1_1_0_0_n_n none
          (truncf .bf16 (retrievedVec a l) bitsLt_bf16_f32)
          (shapeCast S1024x1024 g2 shapeCasts_S1024x1024_S1024x1024 : FVec Ideal S1024x1024 .bf16) (constant S1024x1024 .f32 0x00000000#32)))
      (broadcastTo S1024x1024 (shapeCast S1x1024 bg shapeCasts_S1x1024_S1x1024 : FVec Ideal S1x1024 .f32) broadcasts_S1x1024_S1024x1024))

/-- The mean of each row, as a column: the row's sum over the word 1024.0. -/
private def meanCol (x : FVec Ideal S1024x1024 .f32) : FVec Ideal S1024x1 .f32 :=
  divf (shapeCast S1024x1 (multiReduction .add [1] S1024 x 0x00000000#32 reduces_S1024x1024_S1024 (.inl rfl) rfl) shapeCasts_S1024_S1024x1)
    (broadcast S1024x1 (Scalar.ofBits .f32 0x44800000#32))

/-- Each row minus its mean. -/
private def centred (x : FVec Ideal S1024x1024 .f32) : FVec Ideal S1024x1024 .f32 :=
  subf x (broadcastTo S1024x1024 (meanCol x) broadcasts_S1024x1_S1024x1024)

/-- The variance of each row, as a column. -/
private def varCol (x : FVec Ideal S1024x1024 .f32) : FVec Ideal S1024x1 .f32 :=
  divf (shapeCast S1024x1 (multiReduction .add [1] S1024 (mulf (centred x) (centred x)) 0x00000000#32 reduces_S1024x1024_S1024 (.inl rfl) rfl) shapeCasts_S1024_S1024x1)
    (broadcast S1024x1 (Scalar.ofBits .f32 0x44800000#32))

/-- The reciprocal square root of the shifted variance, as a column. -/
private def rstdCol (x : FVec Ideal S1024x1024 .f32) : FVec Ideal S1024x1 .f32 :=
  rsqrt (addf (varCol x) (broadcast S1024x1 (Scalar.ofBits .f32 0x3727C5AC#32)))

/-- The normalised tile, before scale and shift. -/
private def normVec (x : FVec Ideal S1024x1024 .f32) : FVec Ideal S1024x1024 .f32 :=
  mulf (centred x) (broadcastTo S1024x1024 (rstdCol x) broadcasts_S1024x1_S1024x1024)

/-- The printed chain is the normalisation of the gated tile. -/
private theorem pay4_eq (a : Vec Ideal S1024x1024 .f32) (l : Vec Ideal S1024x1 .f32) (x0 : Vec Ideal S1024x1024 .f32)
    (g1 g2 : Vec Ideal S1024x1024 .bf16) (bg : Vec Ideal S1x1024 .f32) :
    k0_pay4 a l x0 g1 g2 bg = normVec (gatedVec a l x0 g1 g2 bg) := rfl

/-- The retrieved tile at an index: with a nonzero denominator, the real quotient. -/
private theorem retrieved_apply (A : Fin 1024 → Fin 1024 → ℝ) (L : Fin 1024 → ℝ)
    (a : Vec Ideal S1024x1024 .f32) (l : Vec Ideal S1024x1 .f32)
    (ha : ∀ p v, a (ix2 p v) = ((A p v : ℝ) : EReal)) (hl : ∀ p, l (ix2 p (0 : Fin 1)) = ((L p : ℝ) : EReal))
    (hL : ∀ p, L p ≠ 0) (p c : Fin 1024) :
    retrievedVec a l (ix2 p c) = ((A p c / L p : ℝ) : EReal) := by
  show Ideal.div (a (ix2 p c)) (broadcastTo S1024x1024 l broadcasts_S1024x1_S1024x1024 (ix2 p c)) = _
  rw [Layout.bcast_col_1024 l p c, ha, hl]
  exact div_coe_coe _ _ (hL p)

/-- The hidden tile against the first half of the gate weights, at an index. -/
private theorem gate1_apply (X0 G1 : Fin 1024 → Fin 1024 → ℝ)
    (x0 : Vec Ideal S1024x1024 .f32) (g1 : Vec Ideal S1024x1024 .bf16)
    (h0 : ∀ p h, x0 (ix2 p h) = ((X0 p h : ℝ) : EReal)) (h1 : ∀ h c, g1 (ix2 h c) = ((G1 h c : ℝ) : EReal))
    (p h' : Fin 1024) :
    matmul dot_S1024x1024_S1024x1024_S1024x1024_1_1_0_0_n_n none
        (truncf .bf16 (shapeCast S1024x1024 x0 shapeCasts_S1024x1024_S1024x1024 : FVec Ideal S1024x1024 .f32) bitsLt_bf16_f32)
        (shapeCast S1024x1024 g1 shapeCasts_S1024x1024_S1024x1024 : FVec Ideal S1024x1024 .bf16)
        (constant S1024x1024 .f32 0x00000000#32) (ix2 p h')
      = ((∑ c : Fin 1024, X0 p c * G1 h' c : ℝ) : EReal) := by
  refine (Layout.matmul_gate _ _ p h').trans ?_
  rw [← coe_sum]
  refine Finset.sum_congr rfl fun c _ => ?_
  rw [truncf_apply, shapeCast_self, shapeCast_self, h0, h1, EReal.coe_mul]

/-- The retrieved tile against the second half of the gate weights, at an index. -/
private theorem gate2_apply (G2 A : Fin 1024 → Fin 1024 → ℝ) (L : Fin 1024 → ℝ)
    (g2 : Vec Ideal S1024x1024 .bf16) (a : Vec Ideal S1024x1024 .f32) (l : Vec Ideal S1024x1 .f32)
    (h2 : ∀ h c, g2 (ix2 h c) = ((G2 h c : ℝ) : EReal))
    (ha : ∀ p v, a (ix2 p v) = ((A p v : ℝ) : EReal)) (hl : ∀ p, l (ix2 p (0 : Fin 1)) = ((L p : ℝ) : EReal))
    (hL : ∀ p, L p ≠ 0) (p h' : Fin 1024) :
    matmul dot_S1024x1024_S1024x1024_S1024x1024_1_1_0_0_n_n none
        (truncf .bf16 (retrievedVec a l) bitsLt_bf16_f32)
        (shapeCast S1024x1024 g2 shapeCasts_S1024x1024_S1024x1024 : FVec Ideal S1024x1024 .bf16)
        (constant S1024x1024 .f32 0x00000000#32) (ix2 p h')
      = ((∑ c : Fin 1024, (A p c / L p) * G2 h' c : ℝ) : EReal) := by
  refine (Layout.matmul_gate _ _ p h').trans ?_
  rw [← coe_sum]
  refine Finset.sum_congr rfl fun c _ => ?_
  rw [truncf_apply, shapeCast_self, retrieved_apply A L a l ha hl hL, h2, EReal.coe_mul]

/-- The gated tile at an index is the cast of the real gated row. -/
private theorem gated_apply (X0 G1 G2 A : Fin 1024 → Fin 1024 → ℝ) (Bg L : Fin 1024 → ℝ)
    (x0 : Vec Ideal S1024x1024 .f32) (g1 g2 : Vec Ideal S1024x1024 .bf16) (bg : Vec Ideal S1x1024 .f32)
    (a : Vec Ideal S1024x1024 .f32) (l : Vec Ideal S1024x1 .f32)
    (h0 : ∀ p h, x0 (ix2 p h) = ((X0 p h : ℝ) : EReal)) (h1 : ∀ h c, g1 (ix2 h c) = ((G1 h c : ℝ) : EReal))
    (h2 : ∀ h c, g2 (ix2 h c) = ((G2 h c : ℝ) : EReal)) (hb : ∀ h, bg (ix2 (0 : Fin 1) h) = ((Bg h : ℝ) : EReal))
    (ha : ∀ p v, a (ix2 p v) = ((A p v : ℝ) : EReal)) (hl : ∀ p, l (ix2 p (0 : Fin 1)) = ((L p : ℝ) : EReal))
    (hL : ∀ p, L p ≠ 0) (p h' : Fin 1024) :
    gatedVec a l x0 g1 g2 bg (ix2 p h')
      = ((X0 p h' + (((∑ c : Fin 1024, X0 p c * G1 h' c) + (∑ c : Fin 1024, (A p c / L p) * G2 h' c)) + Bg h') : ℝ) : EReal) := by
  unfold gatedVec
  rw [addf_apply, addf_apply, addf_apply, gate1_apply X0 G1 x0 g1 h0 h1, gate2_apply G2 A L g2 a l h2 ha hl hL,
    Layout.bcast_row_1024, shapeCast_self, shapeCast_self, h0, hb,
    EReal.coe_add, EReal.coe_add, EReal.coe_add]

/-- The mean column at a row: the row's sum over the word 1024.0. -/
private theorem mean_apply (x : FVec Ideal S1024x1024 .f32) (p : Fin 1024) :
    meanCol x (ix2 p (0 : Fin 1)) = Ideal.div (∑ k : Fin 1024, x (ix2 p k)) (Ideal.ofBits .f32 0x44800000#32) :=
  congrArg (fun t => Ideal.div t (Ideal.ofBits .f32 0x44800000#32)) (Layout.rowsum_1024 x p)

/-- The centred tile at an index: the entry minus its row's mean. -/
private theorem centred_apply (x : FVec Ideal S1024x1024 .f32) (p h : Fin 1024) :
    centred x (ix2 p h)
      = x (ix2 p h) - Ideal.div (∑ k : Fin 1024, x (ix2 p k)) (Ideal.ofBits .f32 0x44800000#32) := by
  show x (ix2 p h) - broadcastTo S1024x1024 (meanCol x) broadcasts_S1024x1_S1024x1024 (ix2 p h) = _
  rw [Layout.bcast_col_1024, mean_apply]

/-- The variance column at a row: the sum of the squared centred entries over the word 1024.0. -/
private theorem var_apply (x : FVec Ideal S1024x1024 .f32) (p : Fin 1024) :
    varCol x (ix2 p (0 : Fin 1))
      = Ideal.div (∑ k : Fin 1024,
            (x (ix2 p k) - Ideal.div (∑ k : Fin 1024, x (ix2 p k)) (Ideal.ofBits .f32 0x44800000#32))
              * (x (ix2 p k) - Ideal.div (∑ k : Fin 1024, x (ix2 p k)) (Ideal.ofBits .f32 0x44800000#32)))
          (Ideal.ofBits .f32 0x44800000#32) := by
  refine (congrArg (fun t => Ideal.div t (Ideal.ofBits .f32 0x44800000#32))
    (Layout.rowsum_1024 (mulf (centred x) (centred x)) p)).trans ?_
  refine congrArg (fun t => Ideal.div t (Ideal.ofBits .f32 0x44800000#32)) (Finset.sum_congr rfl fun k _ => ?_)
  rw [mulf_apply, centred_apply]

/-- The reciprocal square root of the shifted variance at a row. -/
private theorem rstd_apply (x : FVec Ideal S1024x1024 .f32) (p : Fin 1024) :
    rstdCol x (ix2 p (0 : Fin 1))
      = Ideal.rsqrt (Ideal.div (∑ k : Fin 1024,
            (x (ix2 p k) - Ideal.div (∑ k : Fin 1024, x (ix2 p k)) (Ideal.ofBits .f32 0x44800000#32))
              * (x (ix2 p k) - Ideal.div (∑ k : Fin 1024, x (ix2 p k)) (Ideal.ofBits .f32 0x44800000#32)))
          (Ideal.ofBits .f32 0x44800000#32) + Ideal.ofBits .f32 0x3727C5AC#32) := by
  show Ideal.rsqrt (varCol x (ix2 p (0 : Fin 1)) + Ideal.ofBits .f32 0x3727C5AC#32) = _
  rw [var_apply]

/-- The last payload is a scale by one row and a shift by another. -/
private theorem pay3_eq (v : FVec Ideal S1024x1024 .f32) (gam bet : Vec Ideal S1x1024 .f32) :
    k0_pay3 v gam bet
      = addf (mulf v (broadcastTo S1024x1024 (shapeCast S1x1024 gam shapeCasts_S1x1024_S1x1024 : FVec Ideal S1x1024 .f32)
            broadcasts_S1x1024_S1024x1024))
          (broadcastTo S1024x1024 (shapeCast S1x1024 bet shapeCasts_S1x1024_S1x1024 : FVec Ideal S1x1024 .f32)
            broadcasts_S1x1024_S1024x1024) := rfl

/-- Normalising a tile, scaling and shifting it is, at an index, the layer norm of that row of the tile. -/
private theorem norm_apply (x : FVec Ideal S1024x1024 .f32) (gam bet : Vec Ideal S1x1024 .f32) (p h : Fin 1024) :
    k0_pay3 (normVec x) gam bet (ix2 p h)
      = layerNorm (fun h' => x (ix2 p h')) (fun h' => gam (ix2 (0 : Fin 1) h')) (fun h' => bet (ix2 (0 : Fin 1) h')) h := by
  rw [pay3_eq, addf_apply, mulf_apply, Layout.bcast_row_1024, Layout.bcast_row_1024, shapeCast_self, shapeCast_self]
  show centred x (ix2 p h) * broadcastTo S1024x1024 (rstdCol x) broadcasts_S1024x1_S1024x1024 (ix2 p h)
      * gam (ix2 (0 : Fin 1) h) + bet (ix2 (0 : Fin 1) h) = _
  rw [Layout.bcast_col_1024, centred_apply, rstd_apply]
  rfl

theorem finish_apply (X0 G1 G2 A : Fin 1024 → Fin 1024 → ℝ) (Bg L : Fin 1024 → ℝ)
    (x0 : Vec Ideal S1024x1024 .f32) (g1 g2 : Vec Ideal S1024x1024 .bf16) (bg gam bet : Vec Ideal S1x1024 .f32)
    (a : Vec Ideal S1024x1024 .f32) (l : Vec Ideal S1024x1 .f32)
    (h0 : ∀ p h, x0 (ix2 p h) = ((X0 p h : ℝ) : EReal)) (h1 : ∀ h c, g1 (ix2 h c) = ((G1 h c : ℝ) : EReal))
    (h2 : ∀ h c, g2 (ix2 h c) = ((G2 h c : ℝ) : EReal)) (hb : ∀ h, bg (ix2 (0 : Fin 1) h) = ((Bg h : ℝ) : EReal))
    (ha : ∀ p v, a (ix2 p v) = ((A p v : ℝ) : EReal)) (hl : ∀ p, l (ix2 p (0 : Fin 1)) = ((L p : ℝ) : EReal))
    (hL : ∀ p, L p ≠ 0) (p h : Fin 1024) :
    finish x0 g1 g2 bg gam bet a l (ix2 p h)
      = layerNorm (fun h' => ((X0 p h' + (((∑ c : Fin 1024, X0 p c * G1 h' c) + (∑ c : Fin 1024, (A p c / L p) * G2 h' c)) + Bg h') : ℝ) : EReal))
          (fun h' => gam (ix2 (0 : Fin 1) h')) (fun h' => bet (ix2 (0 : Fin 1) h')) h := by
  show k0_pay3 (k0_pay4 a l x0 g1 g2 bg) gam bet (ix2 p h) = _
  rw [pay4_eq, norm_apply]
  congr 1
  funext h'
  exact gated_apply X0 G1 G2 A Bg L x0 g1 g2 bg a l h0 h1 h2 hb ha hl hL p h'

end Cert.KernelIdeal.PayFinal

end
-- ==== Proof.Walk.lean ====
/-
  The walk over the memory blocks, as numbers. For real arguments, after the grid point n (query tile n / 8, memory
  block n % 8) the four scratch buffers hold, row by row: the row's query; a real mu; the softmax denominator over the
  first n % 8 + 1 memory blocks with exponents shifted by mu; and, column by column, the numerator over the same blocks
  under the same shift. This is an invariant of the walk: the first block of a tile starts from (a real, 0, 0), which are
  the partial sums over no block; every block rescales by e^(mu - mu') and adds its own terms under the new shift mu'.
  At the last block of a tile all eight blocks are in, the shift cancels in the quotient, and the output block is the
  specification's result for that tile's rows.
-/
import proofs.«426381_j5866925326436_3_alg».proof.Proof.Trans
import proofs.«426381_j5866925326436_3_alg».proof.Proof.PayAttn
import proofs.«426381_j5866925326436_3_alg».proof.Proof.PayFinal

set_option maxRecDepth 16384

noncomputable section

namespace Cert.KernelIdeal.Walk

open Idealize.ShloMosaic Idealize.ShloMosaic.TcCoe Idealize.ShloMosaic.ValueIdx Idealize.SL.Sem
open Cert.KernelIdeal Cert.KernelIdeal.Gen Cert.KernelIdeal.Steps Cert.KernelIdeal.Blocks Cert.KernelIdeal.Trans
open Cert.KernelIdeal.PayAttn Cert.KernelIdeal.PayFinal Cert.Retrieval

/-- One step keeps the partial sums: from the sums over the first j blocks under the shift Mu, with block j's keys and
    values in hand, to the sums over the first j + 1 blocks under the step's own new real shift. -/
theorem step (sc : Fin 1024 → Fin 32768 → ℝ) (Vr : Fin 32768 → Fin 1024 → ℝ) (j : ℕ)
    (Q : Fin 1024 → Fin 512 → ℝ) (Kb : Fin 4096 → Fin 512 → ℝ) (Vb : Fin 4096 → Fin 1024 → ℝ)
    (Mu L : Fin 1024 → ℝ) (A : Fin 1024 → Fin 1024 → ℝ)
    (q : Vec Ideal S1024x512 .f32) (kb : Vec Ideal S4096x512 .bf16) (vb : Vec Ideal S4096x1024 .bf16)
    (mm l : Vec Ideal S1024x1 .f32) (a : Vec Ideal S1024x1024 .f32)
    (hq : ∀ p d, q (ix2 p d) = ((Q p d : ℝ) : EReal)) (hk : ∀ n d, kb (ix2 n d) = ((Kb n d : ℝ) : EReal))
    (hv : ∀ n v, vb (ix2 n v) = ((Vb n v : ℝ) : EReal)) (hm : ∀ p, mm (ix2 p (0 : Fin 1)) = ((Mu p : ℝ) : EReal))
    (hl : ∀ p, l (ix2 p (0 : Fin 1)) = ((L p : ℝ) : EReal)) (ha : ∀ p v, a (ix2 p v) = ((A p v : ℝ) : EReal))
    (hsc : ∀ p n, (∑ d : Fin 512, Q p d * Kb n d) = sc p (krow j n))
    (hVb : ∀ n v, Vb n v = Vr (krow j n) v)
    (hL : ∀ p, L p = partDen (sc p) (Mu p) j)
    (hA : ∀ p v, A p v = partNum (sc p) (fun r => Vr r v) (Mu p) j) :
    ∃ Mu' : Fin 1024 → ℝ, (∀ p, stepMax kb q mm (ix2 p (0 : Fin 1)) = ((Mu' p : ℝ) : EReal))
      ∧ (∀ p, stepDen kb q mm l (ix2 p (0 : Fin 1)) = ((partDen (sc p) (Mu' p) (j + 1) : ℝ) : EReal))
      ∧ (∀ p v, stepNum kb vb q mm a (ix2 p v) = ((partNum (sc p) (fun r => Vr r v) (Mu' p) (j + 1) : ℝ) : EReal)) := by
  obtain ⟨Mu', hm'⟩ := stepMax_real Q Kb Mu q kb mm hq hk hm
  refine ⟨Mu', hm', fun p => ?_, fun p v => ?_⟩
  · rw [stepDen_apply Q Kb Mu L q kb mm l hq hk hm hl Mu' hm' p]
    refine congrArg (fun r : ℝ => (r : EReal)) ?_
    simp only [hsc, hL]
    exact partDen_step (sc p) (Mu p) (Mu' p) j
  · rw [stepNum_apply Q Kb Vb Mu A q kb vb mm a hq hk hv hm ha Mu' hm' p v]
    refine congrArg (fun r : ℝ => (r : EReal)) ?_
    simp only [hsc, hVb, hA]
    exact partNum_step (sc p) (fun r => Vr r v) (Mu p) (Mu' p) j

section Args

variable (m : (ℓ : Loc nD τ sig) → Buf (Elt Ideal) ℓ) (c : Dev nD)
  (hs : Fin 4 → Fin 1024 → Fin 1024 → ℝ) (Wq : Fin 512 → Fin 1024 → ℝ) (bq : Fin 512 → ℝ)
  (K : Fin 32768 → Fin 512 → ℝ) (V : Fin 32768 → Fin 1024 → ℝ) (Wg : Fin 1024 → Fin 2048 → ℝ) (bg : Fin 1024 → ℝ)
  (a0 : ∀ b s h, m ((c.tc : Thread nD τ).loc main_arg0) (ix3 b s h) = ((hs b s h : ℝ) : EReal))
  (a1 : ∀ k h, m ((c.tc : Thread nD τ).loc main_arg1) (ix2 k h) = ((Wq k h : ℝ) : EReal))
  (a2 : ∀ k, m ((c.tc : Thread nD τ).loc main_arg2) (ix1 k) = ((bq k : ℝ) : EReal))
  (a3 : ∀ n d, m ((c.tc : Thread nD τ).loc main_arg3) (ix2 n d) = ((K n d : ℝ) : EReal))
  (a4 : ∀ n v, m ((c.tc : Thread nD τ).loc main_arg4) (ix2 n v) = ((V n v : ℝ) : EReal))
  (a5 : ∀ h c', m ((c.tc : Thread nD τ).loc main_arg5) (ix2 h c') = ((Wg h c' : ℝ) : EReal))
  (a6 : ∀ h, m ((c.tc : Thread nD τ).loc main_arg6) (ix1 h) = ((bg h : ℝ) : EReal))

/-- The invariant after grid point n. -/
def Good (n : ℕ) (hn : n < cfg0.N) : Prop :=
  (∀ p k, (outsAt0 m c n hn).2.1 (ix2 p k) = ((query (hs (tileOf n) p) Wq bq k : ℝ) : EReal))
  ∧ ∃ Mu : Fin 1024 → ℝ, (∀ p, (outsAt0 m c n hn).2.2.1 (ix2 p (0 : Fin 1)) = ((Mu p : ℝ) : EReal))
    ∧ (∀ p, (outsAt0 m c n hn).2.2.2.1 (ix2 p (0 : Fin 1))
        = ((partDen (score (hs (tileOf n) p) Wq bq K) (Mu p) (n % 8 + 1) : ℝ) : EReal))
    ∧ (∀ p v, (outsAt0 m c n hn).2.2.2.2 (ix2 p v)
        = ((partNum (score (hs (tileOf n) p) Wq bq K) (fun r => V r v) (Mu p) (n % 8 + 1) : ℝ) : EReal))

include a3 in
/-- The key block of point n, as reals. -/
theorem key_real (n : ℕ) (hn : n < cfg0.N) (r : Fin 4096) (d : Fin 512) :
    keyBlk m c ⟨n, hn⟩ (ix2 r d) = ((K (krow (n % 8) r) d : ℝ) : EReal) := by
  rw [keyBlk_apply m c ⟨n, hn⟩ r d]; exact a3 _ _

include a4 in
theorem val_real (n : ℕ) (hn : n < cfg0.N) (r : Fin 4096) (v : Fin 1024) :
    valBlk m c ⟨n, hn⟩ (ix2 r v) = ((V (krow (n % 8) r) v : ℝ) : EReal) := by
  rw [valBlk_apply m c ⟨n, hn⟩ r v]; exact a4 _ _

include a0 a1 a2 a3 a4 in
/-- The invariant holds after every grid point. -/
theorem good_all (n : ℕ) : ∀ hn : n < cfg0.N, Good m c hs Wq bq K V n hn := by
  induction n using Nat.strong_induction_on with
  | _ n ih =>
  intro hn
  have hN : cfg0.N = 32 := N_0
  by_cases h0 : n % 8 = 0
  · -- the first memory block of a tile: the query tile, then one step from the start values
    have h1 : ¬n % 8 = 7 := by omega
    have eq : (outsAt0 m c n hn).2.1 = queryTile (hsBlk m c ⟨n, hn⟩) (wqBlk m c ⟨n, hn⟩) (bqBlk m c ⟨n, hn⟩) :=
      query_first m c ⟨n, hn⟩ h0 h1
    have em := max_first m c ⟨n, hn⟩ h0 h1
    have el := den_first m c ⟨n, hn⟩ h0 h1
    have ea := num_first m c ⟨n, hn⟩ h0 h1
    dsimp only at em el ea
    have hQ : ∀ p k, queryTile (hsBlk m c ⟨n, hn⟩) (wqBlk m c ⟨n, hn⟩) (bqBlk m c ⟨n, hn⟩) (ix2 p k)
        = ((query (hs (tileOf n) p) Wq bq k : ℝ) : EReal) := fun p k =>
      queryTile_apply (fun p h => hs (tileOf n) p h) Wq bq _ _ _
        (fun p h => (hsBlk_apply m c ⟨n, hn⟩ p h).trans (a0 _ _ _))
        (fun k h => (wqBlk_apply m c ⟨n, hn⟩ k h).trans (a1 _ _))
        (fun k => (bqBlk_apply m c ⟨n, hn⟩ k).trans (a2 _)) p k
    obtain ⟨r0, hr0⟩ := startMax_real
    obtain ⟨Mu', hm', hl', ha'⟩ := step (fun p => score (hs (tileOf n) p) Wq bq K) V (n % 8)
      (fun p d => query (hs (tileOf n) p) Wq bq d) (fun r d => K (krow (n % 8) r) d) (fun r v => V (krow (n % 8) r) v)
      (fun _ => r0) (fun _ => 0) (fun _ _ => 0)
      (queryTile (hsBlk m c ⟨n, hn⟩) (wqBlk m c ⟨n, hn⟩) (bqBlk m c ⟨n, hn⟩)) (keyBlk m c ⟨n, hn⟩) (valBlk m c ⟨n, hn⟩)
      startMax startDen startNum hQ (key_real m c K a3 n hn) (val_real m c V a4 n hn) hr0 startDen_apply startNum_apply
      (fun p r => rfl) (fun r v => rfl)
      (fun p => by rw [h0]; exact (partDen_zero _ _).symm) (fun p v => by rw [h0]; exact (partNum_zero _ _ _).symm)
    refine ⟨fun p k => by rw [eq]; exact hQ p k, Mu', fun p => by rw [em]; exact hm' p, fun p => by rw [el]; exact hl' p,
      fun p v => by rw [ea]; exact ha' p v⟩
  · -- any later block: one step from what the point before left
    have hpos : 0 < n := Nat.pos_of_ne_zero (by rintro rfl; exact h0 rfl)
    have hn' : n - 1 < cfg0.N := by omega
    obtain ⟨gq, Mu, gm, gl, ga⟩ := ih (n - 1) (by omega) hn'
    have htile : tileOf (n - 1) = tileOf n := by
      unfold tileOf; apply Fin.ext; show (n - 1) / 8 % 4 = n / 8 % 4; omega
    have hblk : (n - 1) % 8 + 1 = n % 8 := by omega
    rw [htile] at gq gl ga
    rw [hblk] at gl ga
    have eq : (outsAt0 m c n hn).2.1 = (outsAt0 m c (n - 1) hn').2.1 := by
      by_cases h1 : n % 8 = 7
      · exact query_last m c ⟨n, hn⟩ h0 h1
      · exact query_mid m c ⟨n, hn⟩ h0 h1
    have em : (outsAt0 m c n hn).2.2.1
        = stepMax (keyBlk m c ⟨n, hn⟩) (outsAt0 m c (n - 1) hn').2.1 (outsAt0 m c (n - 1) hn').2.2.1 := by
      by_cases h1 : n % 8 = 7
      · exact max_last m c ⟨n, hn⟩ h0 h1
      · exact max_mid m c ⟨n, hn⟩ h0 h1
    have el : (outsAt0 m c n hn).2.2.2.1
        = stepDen (keyBlk m c ⟨n, hn⟩) (outsAt0 m c (n - 1) hn').2.1 (outsAt0 m c (n - 1) hn').2.2.1
            (outsAt0 m c (n - 1) hn').2.2.2.1 := by
      by_cases h1 : n % 8 = 7
      · exact den_last m c ⟨n, hn⟩ h0 h1
      · exact den_mid m c ⟨n, hn⟩ h0 h1
    have ea : (outsAt0 m c n hn).2.2.2.2
        = stepNum (keyBlk m c ⟨n, hn⟩) (valBlk m c ⟨n, hn⟩) (outsAt0 m c (n - 1) hn').2.1 (outsAt0 m c (n - 1) hn').2.2.1
            (outsAt0 m c (n - 1) hn').2.2.2.2 := by
      by_cases h1 : n % 8 = 7
      · exact num_last m c ⟨n, hn⟩ h0 h1
      · exact num_mid m c ⟨n, hn⟩ h0 h1
    obtain ⟨Mu', hm', hl', ha'⟩ := step (fun p => score (hs (tileOf n) p) Wq bq K) V (n % 8)
      (fun p d => query (hs (tileOf n) p) Wq bq d) (fun r d => K (krow (n % 8) r) d) (fun r v => V (krow (n % 8) r) v)
      Mu (fun p => partDen (score (hs (tileOf n) p) Wq bq K) (Mu p) (n % 8))
      (fun p v => partNum (score (hs (tileOf n) p) Wq bq K) (fun r => V r v) (Mu p) (n % 8))
      (outsAt0 m c (n - 1) hn').2.1 (keyBlk m c ⟨n, hn⟩) (valBlk m c ⟨n, hn⟩)
      (outsAt0 m c (n - 1) hn').2.2.1 (outsAt0 m c (n - 1) hn').2.2.2.1 (outsAt0 m c (n - 1) hn').2.2.2.2
      gq (key_real m c K a3 n hn) (val_real m c V a4 n hn) gm gl ga
      (fun p r => rfl) (fun r v => rfl) (fun p => rfl) (fun p v => rfl)
    refine ⟨fun p k => by rw [eq]; exact gq p k, Mu', fun p => by rw [em]; exact hm' p, fun p => by rw [el]; exact hl' p,
      fun p v => by rw [ea]; exact ha' p v⟩

include a0 a1 a2 a3 a4 a5 a6 in
/-- At the last memory block of a tile the output block is the specification's result for the tile's rows: all eight
    blocks are in, so the quotient of numerator and denominator is the softmax mean whatever the shift; the gate's two
    halves are the two halves of the weights' columns. -/
theorem out_good (n : ℕ) (hn : n < cfg0.N) (h7 : n % 8 = 7) (p h : Fin 1024) :
    (outsAt0 m c n hn).1 (ix2 p h)
      = result hs Wq bq K V Wg bg (fun h' => m ((c.tc : Thread nD τ).loc main_arg7) (ix1 h')) (fun h' => m ((c.tc : Thread nD τ).loc main_arg8) (ix1 h'))
          (tileOf n) p h := by
  have hN : cfg0.N = 32 := N_0
  have h0 : ¬n % 8 = 0 := by omega
  have h8 : n % 8 + 1 = 8 := by omega
  obtain ⟨gq, Mu, gm, gl, ga⟩ := good_all m c hs Wq bq K V a0 a1 a2 a3 a4 n hn
  rw [h8] at gl ga
  have eo := out_last m c ⟨n, hn⟩ h0 h7
  rw [← num_last m c ⟨n, hn⟩ h0 h7, ← den_last m c ⟨n, hn⟩ h0 h7] at eo
  have eo' : (outsAt0 m c n hn).1 = finish (hsBlk m c ⟨n, hn⟩) (g1Blk m c ⟨n, hn⟩) (g2Blk m c ⟨n, hn⟩) (bgBlk m c ⟨n, hn⟩)
      (gamBlk m c ⟨n, hn⟩) (betBlk m c ⟨n, hn⟩) (outsAt0 m c n hn).2.2.2.2 (outsAt0 m c n hn).2.2.2.1 := eo
  rw [eo']
  rw [finish_apply (fun p h => hs (tileOf n) p h) (fun h c' => Wg h (loCol c')) (fun h c' => Wg h (hiCol c'))
    (fun p v => partNum (score (hs (tileOf n) p) Wq bq K) (fun r => V r v) (Mu p) 8) bg
    (fun p => partDen (score (hs (tileOf n) p) Wq bq K) (Mu p) 8) _ _ _ _ _ _ _ _
    (fun p h => (hsBlk_apply m c ⟨n, hn⟩ p h).trans (a0 _ _ _))
    (fun h c' => (g1Blk_apply m c ⟨n, hn⟩ h c').trans (a5 _ _))
    (fun h c' => (g2Blk_apply m c ⟨n, hn⟩ h c').trans (a5 _ _))
    (fun h => (bgBlk_apply m c ⟨n, hn⟩ h).trans (a6 _)) ga gl
    (fun p => (partDen_pos _ _ 8 (by norm_num)).ne') p h]
  unfold result
  have hx : (fun h' : Fin 1024 => ((hs (tileOf n) p h' + (((∑ c' : Fin 1024, hs (tileOf n) p c' * Wg h' (loCol c'))
      + (∑ c' : Fin 1024, (partNum (score (hs (tileOf n) p) Wq bq K) (fun r => V r c') (Mu p) 8
          / partDen (score (hs (tileOf n) p) Wq bq K) (Mu p) 8) * Wg h' (hiCol c'))) + bg h') : ℝ) : EReal))
      = fun h' : Fin 1024 => ((gated (hs (tileOf n) p) Wq bq K V Wg bg h' : ℝ) : EReal) := by
    funext h'
    refine congrArg (fun r : ℝ => (r : EReal)) ?_
    unfold gated retrieved
    simp only [part_ratio]
  have hg : (fun h' : Fin 1024 => gamBlk m c ⟨n, hn⟩ (ix2 (0 : Fin 1) h')) = fun h' => m ((c.tc : Thread nD τ).loc main_arg7) (ix1 h') :=
    funext fun h' => gamBlk_apply m c ⟨n, hn⟩ h'
  have hb : (fun h' : Fin 1024 => betBlk m c ⟨n, hn⟩ (ix2 (0 : Fin 1) h')) = fun h' => m ((c.tc : Thread nD τ).loc main_arg8) (ix1 h') :=
    funext fun h' => betBlk_apply m c ⟨n, hn⟩ h'
  rw [hx, hg, hb]

end Args

end Cert.KernelIdeal.Walk

end
-- ==== Proof.Final.lean ====
/-
  From the output blocks to the program's result. The output window writes its block back only after a tile's last
  memory block; the four written blocks are the four row tiles of the 4096 x 1024 result array and cover it; the host
  line after the call reshapes that array to 4 x 1024 x 1024, so entry (b, s, h) of the program's result is entry (s, h)
  of the block written at tile b. Hence: if every tile's last-point output block agrees with a target array, the
  program runs, ends with its result buffer at the target, and leaves its arguments unchanged.
-/
import proofs.«426381_j5866925326436_3_alg».proof.Proof.Gen.KernelIdeal.Frame
import proofs.«426381_j5866925326436_3_alg».proof.Proof.Gen.KernelIdeal.Points
import proofs.«426381_j5866925326436_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.Retrieval

/-- The 4096 x 1024 array whose row r is row (r mod 1024) of batch (r / 1024) of a 4 x 1024 x 1024 array: the inverse of
    the reshape, total in both coordinates. -/
private def rowsOf (Rc : S4x1024x1024.Idx → Elt Ideal .f32) : S4096x1024.Idx → Elt Ideal .f32 :=
  fun i => Rc (ix3 (⟨(i 0).val / 1024 % 4, Nat.mod_lt _ (by norm_num)⟩ : Fin 4)
    (⟨(i 0).val % 1024, Nat.mod_lt _ (by norm_num)⟩ : Fin 1024) (⟨(i 1).val % 1024, Nat.mod_lt _ (by norm_num)⟩ : Fin 1024))

/-- The output window's block index at a grid point: the point's tile on the rows, 0 on the columns. -/
private theorem idx_facts : ∀ t : Fin cfg0.N, win0_10.index t (0 : Fin 2) = t.val / 8 ∧ win0_10.index t (1 : Fin 2) = 0 :=
  (by decide +kernel : ∀ t : Fin grid0.N, _)

/-- What a writing point writes back is its block of the rows of the target. -/
private theorem flushed_eq (m : (ℓ : Loc nD τ sig) → Buf (Elt Ideal) ℓ)
    (R : (c : Dev nD) → Buf (Elt Ideal) ((c.tc : Thread nD τ).loc main_v13))
    (hR : ∀ (c : Dev nD) (t : Fin cfg0.N), t.val % 8 = 7 → ∀ p h : Fin 1024,
      (outsAt0 m c t.val t.isLt).1 (ix2 p h) = R c (ix3 (tileOf t.val) p h))
    (c : Dev nD) (t : Fin cfg0.N) (hf : (cfg0.win 10).flush t = true) :
    (dats m 0 c).flushed 10 t = ((cfg0.win 10).blk t).view.read (Elt Ideal) (rowsOf (R c)) := by
  have h7 : t.val % 8 = 7 := (flush0_10 t).mp hf
  show (cfg0.win 10).cut (grid0.coords t) ((dats m 0 c).after 10 t) = _
  rw [after0_10]
  obtain ⟨e0, e1⟩ := idx_facts t
  funext j
  have hj0 : (j 0).val < 1024 := (j 0).isLt
  have hj1 : (j 1).val < 1024 := (j 1).isLt
  show (outsAt0 m c t.val t.isLt).1 ((cfg0.win 10).xinj (grid0.coords t) j) = rowsOf (R c) (((cfg0.win 10).blk t).view.emb j)
  have hx : (cfg0.win 10).xinj (grid0.coords t) j = ix2 (⟨(j 0).val, hj0⟩ : Fin 1024) (⟨(j 1).val, hj1⟩ : Fin 1024) := by
    funext a; match a with | ⟨0, _⟩ => rfl | ⟨1, _⟩ => rfl
  refine (congrArg _ hx).trans ((hR c t h7 _ _).trans ?_)
  unfold rowsOf
  refine congrArg (R c) ?_
  funext a; apply Fin.ext
  match a with
  | ⟨0, _⟩ => show (t.val / 8) % 4 = (win0_10.index t (0 : Fin 2) * 1024 + 1 * (j 0).val) / 1024 % 4; omega
  | ⟨1, _⟩ => show (j 0).val = (win0_10.index t (0 : Fin 2) * 1024 + 1 * (j 0).val) % 1024; omega
  | ⟨2, _⟩ => show (j 1).val = (win0_10.index t (1 : Fin 2) * 1024 + 1 * (j 1).val) % 1024; omega

/-- An index of the array is in a point's block iff each coordinate is in the block's range on its axis. -/
private theorem mem_blk (t : Fin cfg0.N) (i : S4096x1024.Idx) :
    i ∈ ((cfg0.win 10).blk t).view.set ↔ ∀ a : Fin 2, win0_10.index t a * S1024x1024.size a ≤ (i a).val
      ∧ (i a).val < win0_10.index t a * S1024x1024.size a + S1024x1024.size a := by
  show i ∈ ((View.whole main_v12).slice (win0_10.rect t)).set ↔ _
  rw [View.set_slice_whole, Rect.mem_set_unit]
  exact Iff.rfl

/-- Every index of the array is in the block of a writing point: row r is covered by the last point of tile r / 1024. -/
private theorem cover (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 32 := N_0
  obtain ⟨t, ht⟩ : ∃ t : Fin cfg0.N, t.val = 8 * ((i 0).val / 1024) + 7 :=
    ⟨⟨8 * ((i 0).val / 1024) + 7, by rw [hN]; omega⟩, rfl⟩
  obtain ⟨e0, e1⟩ := idx_facts t
  refine ⟨t, (flush0_10 t).mpr (by omega), ?_⟩
  rw [mem_blk]
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 1024 ≤ (i 1).val ∧ (i 1).val < win0_10.index t (1 : Fin 2) * 1024 + 1024
    omega

/-- So the output array ends holding the rows of the target. -/
private theorem final (m : (ℓ : Loc nD τ sig) → Buf (Elt Ideal) ℓ)
    (R : (c : Dev nD) → Buf (Elt Ideal) ((c.tc : Thread nD τ).loc main_v13))
    (hR : ∀ (c : Dev nD) (t : Fin cfg0.N), t.val % 8 = 7 → ∀ p h : Fin 1024,
      (outsAt0 m c t.val t.isLt).1 (ix2 p h) = R c (ix3 (tileOf t.val) p h))
    (c : Dev nD) : (dats m 0 c).arrAt 10 cfg0.N = rowsOf (R c) :=
  (dats m 0 c).arrAt_eq_of_cover 10 (rowsOf (R c)) (flushed_eq m R hR c) cover

/-- The host line after the call: the result buffer is the reshape of the output array, and the reshape of the rows of the
    target is the target (entry (b, s, h) has the row-major position of entry (1024 b + s, h)). -/
private theorem tail_eq (m : (ℓ : Loc nD τ sig) → Buf (Elt Ideal) ℓ)
    (R : (c : Dev nD) → Buf (Elt Ideal) ((c.tc : Thread nD τ).loc main_v13))
    (hR : ∀ (c : Dev nD) (t : Fin cfg0.N), t.val % 8 = 7 → ∀ p h : Fin 1024,
      (outsAt0 m c t.val t.isLt).1 (ix2 p h) = R c (ix3 (tileOf t.val) p h))
    (c : Dev nD) : Pipeline.afterTail₀ cfgs (dats m) 0 (V0 m) [hostOps1] c main_v13 = R c := by
  unfold Pipeline.afterTail₀
  show StableHlo.after hostOps1 _ (Proc.devRef .tc main_v13) = _
  after_results
  have hw : Pipeline.withArrays (cfgs 0).spec c (V0 m c) (fun w => (dats m 0 c).arrAt w (cfgs 0).N)
      (Proc.devRef .tc main_v12) = rowsOf (R c) :=
    (Pipeline.withArrays_arr spec0 launch0.win.arr_inj c _ _ 10).trans (final m R hR c)
  rw [hw]
  funext i
  show shapeCast S4x1024x1024 (rowsOf (R c)) shapeCasts_S4096x1024_S4x1024x1024 i = R c i
  obtain ⟨b, s, h, rfl⟩ : ∃ (b : Fin 4) (s h : Fin 1024), i = ix3 b s h := ⟨_, _, _, eq_ix3 i⟩
  have hb : b.val < 4 := b.isLt
  have hs : s.val < 1024 := s.isLt
  have hh : h.val < 1024 := h.isLt
  refine (shapeCast_apply (rowsOf (R c)) _ (ix3 b s h)
    (ix2 (⟨b.val * 1024 + s.val, by omega⟩ : Fin 4096) h) ?_).trans ?_
  · rw [Shape.rowMajor_val_two, Shape.rowMajor_val_three]
    show (b.val * 1024 + s.val) * 1024 + h.val = (b.val * 1024 + s.val) * 1024 + h.val
    rfl
  · unfold rowsOf
    refine congrArg (R c) ?_
    funext a; apply Fin.ext
    match a with
    | ⟨0, _⟩ => show (b.val * 1024 + s.val) / 1024 % 4 = b.val; omega
    | ⟨1, _⟩ => show (b.val * 1024 + s.val) % 1024 = s.val; omega
    | ⟨2, _⟩ => show h.val % 1024 = h.val; omega

theorem run_of_blocks (m : (ℓ : Loc nD τ sig) → Buf (Elt Ideal) ℓ) (ρ : Dev nD → PrngReg)
    (R : (c : Dev nD) → Buf (Elt Ideal) ((c.tc : Thread nD τ).loc main_v13))
    (hR : ∀ (c : Dev nD) (t : Fin cfg0.N), t.val % 8 = 7 → ∀ p h : Fin 1024,
      (outsAt0 m c t.val t.isLt).1 (ix2 p h) = R c (ix3 (tileOf t.val) p h)) :
    θ_run defs (onTc (τ := τ) (main (F := Ideal))) ⟨m, fun _ => 0, ρ⟩ (fun r => ∀ c : Dev nD,
      r.2.mem ((c.tc : Thread nD τ).loc main_v13) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v13 (Pipeline.mem_restRefs_of main_v13 (by decide) (by decide))).trans (tail_eq m R hR c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Final

end
-- ==== Proof.Finite.lean ====
/-
  The precondition says every entry of every argument is finite: its absolute value is below plus infinity. Over the
  extended reals that makes every entry a real number.
-/
import proofs.«426381_j5866925326436_3_alg».proof.Pre_finite_inputs
import proofs.«426381_j5866925326436_3_alg».proof.Proof.Gen.Pre_finite_inputs
import Idealize.ShloMosaic.PureOps.Ideal.Laws
import Idealize.ShloMosaic.Lib.ReduceAll
import Idealize.ShloMosaic.Lib.ValueIdx

noncomputable section

namespace Cert.Retrieval.Finite

open Idealize.ShloMosaic Cert.Pre_finite_inputs Cert.Pre_finite_inputs.Gen

/-- The shape of a scalar has exactly one index. -/
private instance subsingleton_scalar_idx : Subsingleton S_.Idx := ⟨fun a b => funext fun d => d.elim0⟩

/-- The word 0x7F800000 denotes plus infinity: exponent all ones, significand zero, sign clear. -/
private theorem inf_word : Ideal.ofBits .f32 0x7F800000#32 = (⊤ : EReal) := by
  simp [Ideal.ofBits, Ideal.ieee]

/-- An extended real whose absolute value, the larger of x and -x, is strictly below plus infinity is a real number:
    at minus infinity and at plus infinity that larger one is plus infinity itself. -/
private theorem real_of_abs_lt_top (x : EReal) (h : max x (-x) < ⊤) : ∃ r : ℝ, x = ((r : ℝ) : EReal) := by
  induction x using EReal.rec with
  | bot => exact absurd h (by simp)
  | top => exact absurd h (by simp)
  | coe r => exact ⟨r, rfl⟩

/-- One argument, at any shape: if the conjunction over all axes of the elementwise test |x| < +∞ is the all-ones word,
    then the test holds at every index, so every entry is a real number. -/
private theorem reals_of_all {S : Shape} {axes : List (Fin S.rank)} (a : FVec Ideal S .f32)
    (hb : S_.BroadcastsInDim S (![] : Fin 0 → Fin S.rank)) (hr : S.ReducesTo axes S_) (hu : 0 < S_.numel)
    (h : Host.reduce IntOp.andi
          (cmpf .olt (Host.absf a) (broadcastInDim S ![] hb (constant S_ .f32 0x7F800000#32)))
          (constantI S_ 1 1#1) hr hu ValueIdx.ix0 = 1#1) :
    ∀ i, ∃ r : ℝ, a i = ((r : ℝ) : EReal) := by
  intro i
  have e := Host.reduce_andi_all _ _ hr hu ValueIdx.ix0 h i
  have e' : Ideal.cmp .olt (max (a i) (-(a i))) (Ideal.ofBits .f32 0x7F800000#32) = 1#1 := e
  rw [inf_word] at e'
  refine real_of_abs_lt_top (a i) ?_
  by_contra hn
  have hz : Ideal.cmp .olt (max (a i) (-(a i))) ⊤ = 0#1 := by simp [Ideal.cmp, hn]
  rw [hz] at e'
  exact absurd e' (by decide)

theorem reals_of_finite (a0 : FVec Ideal S4x1024x1024 .f32) (a1 : FVec Ideal S512x1024 .f32) (a2 : FVec Ideal S512 .f32) (a3 : FVec Ideal S32768x512 .f32) (a4 : FVec Ideal S32768x1024 .f32) (a5 : FVec Ideal S1024x2048 .f32) (a6 : FVec Ideal S1024 .f32) (a7 : FVec Ideal S1024 .f32) (a8 : FVec Ideal S1024 .f32)
    (h : Cert.Pre_finite_inputs.fn (F := Ideal) a0 a1 a2 a3 a4 a5 a6 a7 a8 = fun _ => 1#1) :
    (∀ i, ∃ r : ℝ, a0 i = ((r : ℝ) : EReal))
    ∧ (∀ i, ∃ r : ℝ, a1 i = ((r : ℝ) : EReal))
    ∧ (∀ i, ∃ r : ℝ, a2 i = ((r : ℝ) : EReal))
    ∧ (∀ i, ∃ r : ℝ, a3 i = ((r : ℝ) : EReal))
    ∧ (∀ i, ∃ r : ℝ, a4 i = ((r : ℝ) : EReal))
    ∧ (∀ i, ∃ r : ℝ, a5 i = ((r : ℝ) : EReal))
    ∧ (∀ i, ∃ r : ℝ, a6 i = ((r : ℝ) : EReal))
    ∧ (∀ i, ∃ r : ℝ, a7 i = ((r : ℝ) : EReal))
    ∧ (∀ i, ∃ r : ℝ, a8 i = ((r : ℝ) : EReal)) := by
  have h0 := congrFun h ValueIdx.ix0
  dsimp only [fn, fn_part1, fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all a0 _ _ _ e0, reals_of_all a1 _ _ _ e1, reals_of_all a2 _ _ _ e2, reals_of_all a3 _ _ _ e3,
    reals_of_all a4 _ _ _ e4, reals_of_all a5 _ _ _ e5, reals_of_all a6 _ _ _ e6, reals_of_all a7 _ _ _ e7,
    reals_of_all a8 _ _ _ e8⟩

end Cert.Retrieval.Finite

end
-- ==== Proof.RefStages.lean ====
/-
  The reference's run, read back: the fold of its fifty-five host operations over the launch contents, at the result
  buffer, is the last stage of the staged reading (each stage one operation applied to earlier stages). Proved in
  stretches of a few operations: after a stretch, each buffer it wrote holds its stage and every buffer written before
  is untouched.
-/
import proofs.«426381_j5866925326436_3_alg».proof.Proof.RefRun
import proofs.«426381_j5866925326436_3_alg».proof.Proof.RefReadGen

noncomputable section

namespace Cert.ReferenceIdeal.RefStages

open Cert.ReferenceIdeal Cert.ReferenceIdeal.Gen Cert.ReferenceIdeal.RefRun Cert.ReferenceIdeal.Stages Idealize.ShloMosaic Idealize.ShloMosaic.TcCoe Idealize.SL.Sem Idealize.ShloMosaic.StableHlo

variable {F : FTy → Type} [FloatOps F]

/-- Running two lines one after the other is running their concatenation: by induction on the first line, each
    operation of it being applied to the contents before the rest runs. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations 1 to 5 of the program, in order. -/
private abbrev s1 : List (HloOp τ sig (Elt F)) :=
  [ binary main_arg0 main_arg1 main_v0 ((fun l r => Host.dotGeneral dot_S4x1024x1024_S512x1024_S4x1024x512_2_1_01_0_n_n none l r) : (⟨S4x1024x1024, .f32⟩ : BufTy).Contents (Elt F) → (⟨S512x1024, .f32⟩ : BufTy).Contents (Elt F) → (⟨S4x1024x512, .f32⟩ : BufTy).Contents (Elt F)),
    unary main_arg2 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S4x1024x512 ![0, 1, 2] bcast_S1x1x512_S4x1024x512_0_1_2 : (⟨S1x1x512, .f32⟩ : BufTy).Contents (Elt F) → (⟨S4x1024x512, .f32⟩ : BufTy).Contents (Elt F)),
    binary main_v0 main_v2 main_v3 (addf : (⟨S4x1024x512, .f32⟩ : BufTy).Contents (Elt F) → (⟨S4x1024x512, .f32⟩ : BufTy).Contents (Elt F) → (⟨S4x1024x512, .f32⟩ : BufTy).Contents (Elt F)),
    binary main_v3 main_arg3 main_v4 ((fun l r => Host.dotGeneral dot_S4x1024x512_S32768x512_S4x1024x32768_2_1_01_0_n_n none l r) : (⟨S4x1024x512, .f32⟩ : BufTy).Contents (Elt F) → (⟨S32768x512, .f32⟩ : BufTy).Contents (Elt F) → (⟨S4x1024x32768, .f32⟩ : BufTy).Contents (Elt F)) ]

/-- After operations 1 to 5, from any contents holding the stages read from before: each buffer written here and read
    later holds its stage, and each earlier buffer read later is untouched. -/
private theorem step1 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    : after (s1 (F := F)) V (Proc.devRef .tc main_arg0) = x0
      ∧ after (s1 (F := F)) V (Proc.devRef .tc main_arg4) = x4
      ∧ after (s1 (F := F)) V (Proc.devRef .tc main_arg5) = x5
      ∧ after (s1 (F := F)) V (Proc.devRef .tc main_arg6) = x6
      ∧ after (s1 (F := F)) V (Proc.devRef .tc main_arg7) = x7
      ∧ after (s1 (F := F)) V (Proc.devRef .tc main_arg8) = x8
      ∧ after (s1 (F := F)) V (Proc.devRef .tc main_v4) = val_main_v4 (F := F) x0 x1 x2 x3 := by
  refine ⟨?_, ?_, ?_, ?_, ?_, ?_, ?_⟩
  · unfold s1; after_results; exact h_main_arg0
  · unfold s1; after_results; exact h_main_arg4
  · unfold s1; after_results; exact h_main_arg5
  · unfold s1; after_results; exact h_main_arg6
  · unfold s1; after_results; exact h_main_arg7
  · unfold s1; after_results; exact h_main_arg8
  · unfold s1; after_results; rw [h_main_arg0, h_main_arg1, h_main_arg2, h_main_arg3]; unfold val_main_v4 val_main_v3 val_main_v2 val_main_v1 val_main_v0; rfl

/-- Operations 6 to 13 of the program, in order. -/
private abbrev s2 : List (HloOp τ sig (Elt F)) :=
  [ nullary main_cst (constant S_ .f32 0xFF800000#32),
    binary main_v4 main_cst main_v5 ((fun x v => Host.reduce FloatOps.maximumf x v reducesTo_S4x1024x32768_S4x1024_d2 h_S_) : (⟨S4x1024x32768, .f32⟩ : BufTy).Contents (Elt F) → (⟨S_, .f32⟩ : BufTy).Contents (Elt F) → (⟨S4x1024, .f32⟩ : BufTy).Contents (Elt F)),
    nullary main_cst_0 (constant S_ .f32 0xFF800000#32),
    unary main_cst_0 main_v6 (broadcastInDim S4x1024 ![] bcast_S_S4x1024 : (⟨S_, .f32⟩ : BufTy).Contents (Elt F) → (⟨S4x1024, .f32⟩ : BufTy).Contents (Elt F)),
    binary main_v6 main_v5 main_v7 (maximumf : (⟨S4x1024, .f32⟩ : BufTy).Contents (Elt F) → (⟨S4x1024, .f32⟩ : BufTy).Contents (Elt F) → (⟨S4x1024, .f32⟩ : BufTy).Contents (Elt F)),
    unary main_v7 main_v8 (broadcastInDim S4x1024x1 ![0, 1] bcast_S4x1024_S4x1024x1_0_1 : (⟨S4x1024, .f32⟩ : BufTy).Contents (Elt F) → (⟨S4x1024x1, .f32⟩ : BufTy).Contents (Elt F)),
    unary main_v8 main_v9 (broadcastInDim S4x1024x32768 ![0, 1, 2] bcast_S4x1024x1_S4x1024x32768_0_1_2 : (⟨S4x1024x1, .f32⟩ : BufTy).Contents (Elt F) → (⟨S4x1024x32768, .f32⟩ : BufTy).Contents (Elt F)),
    binary main_v4 main_v9 main_v10 (subf : (⟨S4x1024x32768, .f32⟩ : BufTy).Contents (Elt F) → (⟨S4x1024x32768, .f32⟩ : BufTy).Contents (Elt F) → (⟨S4x1024x32768, .f32⟩ : BufTy).Contents (Elt F)) ]

/-- After operations 6 to 13, from any contents holding the stages read from before: each buffer written here and read
    later holds its stage, and each earlier buffer read later is untouched. -/
private theorem step2 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg0 : V (Proc.devRef .tc main_arg0) = x0)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_v4 : V (Proc.devRef .tc main_v4) = val_main_v4 (F := F) x0 x1 x2 x3)
    : after (s2 (F := F)) V (Proc.devRef .tc main_arg0) = x0
      ∧ after (s2 (F := F)) V (Proc.devRef .tc main_arg4) = x4
      ∧ after (s2 (F := F)) V (Proc.devRef .tc main_arg5) = x5
      ∧ after (s2 (F := F)) V (Proc.devRef .tc main_arg6) = x6
      ∧ after (s2 (F := F)) V (Proc.devRef .tc main_arg7) = x7
      ∧ after (s2 (F := F)) V (Proc.devRef .tc main_arg8) = x8
      ∧ after (s2 (F := F)) V (Proc.devRef .tc main_v10) = val_main_v10 (F := F) x0 x1 x2 x3 := by
  refine ⟨?_, ?_, ?_, ?_, ?_, ?_, ?_⟩
  · unfold s2; after_results; exact h_main_arg0
  · unfold s2; after_results; exact h_main_arg4
  · unfold s2; after_results; exact h_main_arg5
  · unfold s2; after_results; exact h_main_arg6
  · unfold s2; after_results; exact h_main_arg7
  · unfold s2; after_results; exact h_main_arg8
  · unfold s2; after_results; rw [h_main_v4]; unfold val_main_v10 val_main_v9 val_main_v8 val_main_v7 val_main_v6 val_main_cst_0 val_main_v5 val_main_cst; rfl

/-- Operations 14 to 20 of the program, in order. -/
private abbrev s3 : List (HloOp τ sig (Elt F)) :=
  [ unary main_v10 main_v11 (Host.exp : (⟨S4x1024x32768, .f32⟩ : BufTy).Contents (Elt F) → (⟨S4x1024x32768, .f32⟩ : BufTy).Contents (Elt F)),
    nullary main_cst_1 (constant S_ .f32 0x00000000#32),
    binary main_v11 main_cst_1 main_v12 ((fun x v => Host.reduceAdd x v reducesTo_S4x1024x32768_S4x1024_d2 h_S_) : (⟨S4x1024x32768, .f32⟩ : BufTy).Contents (Elt F) → (⟨S_, .f32⟩ : BufTy).Contents (Elt F) → (⟨S4x1024, .f32⟩ : BufTy).Contents (Elt F)),
    unary main_v12 main_v13 (broadcastInDim S4x1024x1 ![0, 1] bcast_S4x1024_S4x1024x1_0_1 : (⟨S4x1024, .f32⟩ : BufTy).Contents (Elt F) → (⟨S4x1024x1, .f32⟩ : BufTy).Contents (Elt F)),
    unary main_v13 main_v14 (broadcastInDim S4x1024x32768 ![0, 1, 2] bcast_S4x1024x1_S4x1024x32768_0_1_2 : (⟨S4x1024x1, .f32⟩ : BufTy).Contents (Elt F) → (⟨S4x1024x32768, .f32⟩ : BufTy).Contents (Elt F)),
    binary main_v11 main_v14 main_v15 (Host.divf : (⟨S4x1024x32768, .f32⟩ : BufTy).Contents (Elt F) → (⟨S4x1024x32768, .f32⟩ : BufTy).Contents (Elt F) → (⟨S4x1024x32768, .f32⟩ : BufTy).Contents (Elt F)),
    binary main_v15 main_arg4 main_v16 ((fun l r => Host.dotGeneral dot_S4x1024x32768_S32768x1024_S4x1024x1024_2_0_01_1_n_n none l r) : (⟨S4x1024x32768, .f32⟩ : BufTy).Contents (Elt F) → (⟨S32768x1024, .f32⟩ : BufTy).Contents (Elt F) → (⟨S4x1024x1024, .f32⟩ : BufTy).Contents (Elt F)) ]

/-- After operations 14 to 20, from any contents holding the stages read from before: each buffer written here and read
    later holds its stage, and each earlier buffer read later is untouched. -/
private theorem step3 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg0 : V (Proc.devRef .tc main_arg0) = x0)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_v10 : V (Proc.devRef .tc main_v10) = val_main_v10 (F := F) x0 x1 x2 x3)
    : after (s3 (F := F)) V (Proc.devRef .tc main_arg0) = x0
      ∧ after (s3 (F := F)) V (Proc.devRef .tc main_arg5) = x5
      ∧ after (s3 (F := F)) V (Proc.devRef .tc main_arg6) = x6
      ∧ after (s3 (F := F)) V (Proc.devRef .tc main_arg7) = x7
      ∧ after (s3 (F := F)) V (Proc.devRef .tc main_arg8) = x8
      ∧ after (s3 (F := F)) V (Proc.devRef .tc main_v16) = val_main_v16 (F := F) x0 x1 x2 x3 x4 := by
  refine ⟨?_, ?_, ?_, ?_, ?_, ?_⟩
  · unfold s3; after_results; exact h_main_arg0
  · unfold s3; after_results; exact h_main_arg5
  · unfold s3; after_results; exact h_main_arg6
  · unfold s3; after_results; exact h_main_arg7
  · unfold s3; after_results; exact h_main_arg8
  · unfold s3; after_results; rw [h_main_v10, h_main_arg4]; unfold val_main_v16 val_main_v15 val_main_v14 val_main_v13 val_main_v12 val_main_cst_1 val_main_v11; rfl

/-- Operations 21 to 26 of the program, in order. -/
private abbrev s4 : List (HloOp τ sig (Elt F)) :=
  [ binary main_arg0 main_v16 main_v17 ((fun a b => concatenate S4x1024x2048 2 [⟨S4x1024x1024, a⟩, ⟨S4x1024x1024, b⟩] concatenates_S4x1024x1024_S4x1024x1024_S4x1024x2048_d2) : (⟨S4x1024x1024, .f32⟩ : BufTy).Contents (Elt F) → (⟨S4x1024x1024, .f32⟩ : BufTy).Contents (Elt F) → (⟨S4x1024x2048, .f32⟩ : BufTy).Contents (Elt F)),
    binary main_v17 main_arg5 main_v18 ((fun l r => Host.dotGeneral dot_S4x1024x2048_S1024x2048_S4x1024x1024_2_1_01_0_n_n none l r) : (⟨S4x1024x2048, .f32⟩ : BufTy).Contents (Elt F) → (⟨S1024x2048, .f32⟩ : BufTy).Contents (Elt F) → (⟨S4x1024x1024, .f32⟩ : BufTy).Contents (Elt F)),
    unary main_arg6 main_v19 (broadcastInDim S1x1x1024 ![2] bcast_S1024_S1x1x1024_2 : (⟨S1024, .f32⟩ : BufTy).Contents (Elt F) → (⟨S1x1x1024, .f32⟩ : BufTy).Contents (Elt F)),
    unary main_v19 main_v20 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    binary main_v18 main_v20 main_v21 (addf : (⟨S4x1024x1024, .f32⟩ : BufTy).Contents (Elt F) → (⟨S4x1024x1024, .f32⟩ : BufTy).Contents (Elt F) → (⟨S4x1024x1024, .f32⟩ : BufTy).Contents (Elt F)),
    binary main_arg0 main_v21 main_v22 (addf : (⟨S4x1024x1024, .f32⟩ : BufTy).Contents (Elt F) → (⟨S4x1024x1024, .f32⟩ : BufTy).Contents (Elt F) → (⟨S4x1024x1024, .f32⟩ : BufTy).Contents (Elt F)) ]

/-- After operations 21 to 26, from any contents holding the stages read from before: each buffer written here and read
    later holds its stage, and each earlier buffer read later is untouched. -/
private theorem step4 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg0 : V (Proc.devRef .tc main_arg0) = x0)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_v16 : V (Proc.devRef .tc main_v16) = val_main_v16 (F := F) x0 x1 x2 x3 x4)
    : after (s4 (F := F)) V (Proc.devRef .tc main_arg7) = x7
      ∧ after (s4 (F := F)) V (Proc.devRef .tc main_arg8) = x8
      ∧ after (s4 (F := F)) V (Proc.devRef .tc main_v22) = val_main_v22 (F := F) x0 x1 x2 x3 x4 x5 x6 := by
  refine ⟨?_, ?_, ?_⟩
  · unfold s4; after_results; exact h_main_arg7
  · unfold s4; after_results; exact h_main_arg8
  · unfold s4; after_results; rw [h_main_arg0, h_main_v16, h_main_arg5, h_main_arg6]; unfold val_main_v22 val_main_v21 val_main_v20 val_main_v19 val_main_v18 val_main_v17; rfl

/-- Operations 27 to 34 of the program, in order. -/
private abbrev s5 : List (HloOp τ sig (Elt F)) :=
  [ nullary main_cst_2 (constant S_ .f32 0x00000000#32),
    binary main_v22 main_cst_2 main_v23 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    unary main_v23 main_v24 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_3 (constant S_ .f32 0x44800000#32),
    unary main_cst_3 main_v25 (broadcastInDim S4x1024x1 ![] bcast_S_S4x1024x1 : (⟨S_, .f32⟩ : BufTy).Contents (Elt F) → (⟨S4x1024x1, .f32⟩ : BufTy).Contents (Elt F)),
    binary main_v24 main_v25 main_v26 (Host.divf : (⟨S4x1024x1, .f32⟩ : BufTy).Contents (Elt F) → (⟨S4x1024x1, .f32⟩ : BufTy).Contents (Elt F) → (⟨S4x1024x1, .f32⟩ : BufTy).Contents (Elt F)),
    unary main_v26 main_v27 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    binary main_v22 main_v27 main_v28 (subf : (⟨S4x1024x1024, .f32⟩ : BufTy).Contents (Elt F) → (⟨S4x1024x1024, .f32⟩ : BufTy).Contents (Elt F) → (⟨S4x1024x1024, .f32⟩ : BufTy).Contents (Elt F)) ]

/-- After operations 27 to 34, from any contents holding the stages read from before: each buffer written here and read
    later holds its stage, and each earlier buffer read later is untouched. -/
private theorem step5 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg7 : V (Proc.devRef .tc main_arg7) = x7)
    (h_main_arg8 : V (Proc.devRef .tc main_arg8) = x8)
    (h_main_v22 : V (Proc.devRef .tc main_v22) = val_main_v22 (F := F) x0 x1 x2 x3 x4 x5 x6)
    : after (s5 (F := F)) V (Proc.devRef .tc main_arg7) = x7
      ∧ after (s5 (F := F)) V (Proc.devRef .tc main_arg8) = x8
      ∧ after (s5 (F := F)) V (Proc.devRef .tc main_v22) = val_main_v22 (F := F) x0 x1 x2 x3 x4 x5 x6
      ∧ after (s5 (F := F)) V (Proc.devRef .tc main_v26) = val_main_v26 (F := F) x0 x1 x2 x3 x4 x5 x6
      ∧ after (s5 (F := F)) V (Proc.devRef .tc main_v28) = val_main_v28 (F := F) x0 x1 x2 x3 x4 x5 x6 := by
  refine ⟨?_, ?_, ?_, ?_, ?_⟩
  · unfold s5; after_results; exact h_main_arg7
  · unfold s5; after_results; exact h_main_arg8
  · unfold s5; after_results; exact h_main_v22
  · unfold s5; after_results; rw [h_main_v22]; unfold val_main_v26 val_main_v25 val_main_cst_3 val_main_v24 val_main_v23 val_main_cst_2; rfl
  · unfold s5; after_results; rw [h_main_v22]; unfold val_main_v28 val_main_v27 val_main_v26 val_main_v25 val_main_cst_3 val_main_v24 val_main_v23 val_main_cst_2; rfl

/-- Operations 35 to 43 of the program, in order. -/
private abbrev s6 : List (HloOp τ sig (Elt F)) :=
  [ binary main_v28 main_v28 main_v29 (mulf : (⟨S4x1024x1024, .f32⟩ : BufTy).Contents (Elt F) → (⟨S4x1024x1024, .f32⟩ : BufTy).Contents (Elt F) → (⟨S4x1024x1024, .f32⟩ : BufTy).Contents (Elt F)),
    nullary main_cst_4 (constant S_ .f32 0x00000000#32),
    binary main_v29 main_cst_4 main_v30 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    unary main_v30 main_v31 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_5 (constant S_ .f32 0x44800000#32),
    unary main_cst_5 main_v32 (broadcastInDim S4x1024x1 ![] bcast_S_S4x1024x1 : (⟨S_, .f32⟩ : BufTy).Contents (Elt F) → (⟨S4x1024x1, .f32⟩ : BufTy).Contents (Elt F)),
    binary main_v31 main_v32 main_v33 (Host.divf : (⟨S4x1024x1, .f32⟩ : BufTy).Contents (Elt F) → (⟨S4x1024x1, .f32⟩ : BufTy).Contents (Elt F) → (⟨S4x1024x1, .f32⟩ : BufTy).Contents (Elt F)),
    unary main_v26 main_v34 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    binary main_v22 main_v34 main_v35 (subf : (⟨S4x1024x1024, .f32⟩ : BufTy).Contents (Elt F) → (⟨S4x1024x1024, .f32⟩ : BufTy).Contents (Elt F) → (⟨S4x1024x1024, .f32⟩ : BufTy).Contents (Elt F)) ]

/-- After operations 35 to 43, from any contents holding the stages read from before: each buffer written here and read
    later holds its stage, and each earlier buffer read later is untouched. -/
private theorem step6 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg7 : V (Proc.devRef .tc main_arg7) = x7)
    (h_main_arg8 : V (Proc.devRef .tc main_arg8) = x8)
    (h_main_v22 : V (Proc.devRef .tc main_v22) = val_main_v22 (F := F) x0 x1 x2 x3 x4 x5 x6)
    (h_main_v26 : V (Proc.devRef .tc main_v26) = val_main_v26 (F := F) x0 x1 x2 x3 x4 x5 x6)
    (h_main_v28 : V (Proc.devRef .tc main_v28) = val_main_v28 (F := F) x0 x1 x2 x3 x4 x5 x6)
    : after (s6 (F := F)) V (Proc.devRef .tc main_arg7) = x7
      ∧ after (s6 (F := F)) V (Proc.devRef .tc main_arg8) = x8
      ∧ after (s6 (F := F)) V (Proc.devRef .tc main_v33) = val_main_v33 (F := F) x0 x1 x2 x3 x4 x5 x6
      ∧ after (s6 (F := F)) V (Proc.devRef .tc main_v35) = val_main_v35 (F := F) x0 x1 x2 x3 x4 x5 x6 := by
  refine ⟨?_, ?_, ?_, ?_⟩
  · unfold s6; after_results; exact h_main_arg7
  · unfold s6; after_results; exact h_main_arg8
  · unfold s6; after_results; rw [h_main_v28]; unfold val_main_v33 val_main_v32 val_main_cst_5 val_main_v31 val_main_v30 val_main_cst_4 val_main_v29; rfl
  · unfold s6; after_results; rw [h_main_v22, h_main_v26]; unfold val_main_v35 val_main_v34; rfl

/-- Operations 44 to 49 of the program, in order. -/
private abbrev s7 : List (HloOp τ sig (Elt F)) :=
  [ nullary main_cst_6 (constant S_ .f32 0x3727C5AC#32),
    unary main_cst_6 main_v36 (broadcastInDim S4x1024x1 ![] bcast_S_S4x1024x1 : (⟨S_, .f32⟩ : BufTy).Contents (Elt F) → (⟨S4x1024x1, .f32⟩ : BufTy).Contents (Elt F)),
    binary main_v33 main_v36 main_v37 (addf : (⟨S4x1024x1, .f32⟩ : BufTy).Contents (Elt F) → (⟨S4x1024x1, .f32⟩ : BufTy).Contents (Elt F) → (⟨S4x1024x1, .f32⟩ : BufTy).Contents (Elt F)),
    unary main_v37 main_v38 (Host.rsqrt : (⟨S4x1024x1, .f32⟩ : BufTy).Contents (Elt F) → (⟨S4x1024x1, .f32⟩ : BufTy).Contents (Elt F)),
    unary main_v38 main_v39 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    binary main_v35 main_v39 main_v40 (mulf : (⟨S4x1024x1024, .f32⟩ : BufTy).Contents (Elt F) → (⟨S4x1024x1024, .f32⟩ : BufTy).Contents (Elt F) → (⟨S4x1024x1024, .f32⟩ : BufTy).Contents (Elt F)) ]

/-- After operations 44 to 49, from any contents holding the stages read from before: each buffer written here and read
    later holds its stage, and each earlier buffer read later is untouched. -/
private theorem step7 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg7 : V (Proc.devRef .tc main_arg7) = x7)
    (h_main_arg8 : V (Proc.devRef .tc main_arg8) = x8)
    (h_main_v33 : V (Proc.devRef .tc main_v33) = val_main_v33 (F := F) x0 x1 x2 x3 x4 x5 x6)
    (h_main_v35 : V (Proc.devRef .tc main_v35) = val_main_v35 (F := F) x0 x1 x2 x3 x4 x5 x6)
    : after (s7 (F := F)) V (Proc.devRef .tc main_arg7) = x7
      ∧ after (s7 (F := F)) V (Proc.devRef .tc main_arg8) = x8
      ∧ after (s7 (F := F)) V (Proc.devRef .tc main_v40) = val_main_v40 (F := F) x0 x1 x2 x3 x4 x5 x6 := by
  refine ⟨?_, ?_, ?_⟩
  · unfold s7; after_results; exact h_main_arg7
  · unfold s7; after_results; exact h_main_arg8
  · unfold s7; after_results; rw [h_main_v35, h_main_v33]; unfold val_main_v40 val_main_v39 val_main_v38 val_main_v37 val_main_v36 val_main_cst_6; rfl

/-- Operations 50 to 55 of the program, in order. -/
private abbrev s8 : List (HloOp τ sig (Elt F)) :=
  [ unary main_arg7 main_v41 (broadcastInDim S1x1x1024 ![2] bcast_S1024_S1x1x1024_2 : (⟨S1024, .f32⟩ : BufTy).Contents (Elt F) → (⟨S1x1x1024, .f32⟩ : BufTy).Contents (Elt F)),
    unary main_v41 main_v42 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    binary main_v40 main_v42 main_v43 (mulf : (⟨S4x1024x1024, .f32⟩ : BufTy).Contents (Elt F) → (⟨S4x1024x1024, .f32⟩ : BufTy).Contents (Elt F) → (⟨S4x1024x1024, .f32⟩ : BufTy).Contents (Elt F)),
    unary main_arg8 main_v44 (broadcastInDim S1x1x1024 ![2] bcast_S1024_S1x1x1024_2 : (⟨S1024, .f32⟩ : BufTy).Contents (Elt F) → (⟨S1x1x1024, .f32⟩ : BufTy).Contents (Elt F)),
    unary main_v44 main_v45 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    binary main_v43 main_v45 main_v46 (addf : (⟨S4x1024x1024, .f32⟩ : BufTy).Contents (Elt F) → (⟨S4x1024x1024, .f32⟩ : BufTy).Contents (Elt F) → (⟨S4x1024x1024, .f32⟩ : BufTy).Contents (Elt F)) ]

/-- After operations 50 to 55, from any contents holding the stages read from before: each buffer written here and read
    later holds its stage, and each earlier buffer read later is untouched. -/
private theorem step8 (V : Valuation τ sig (Elt F)) (x0 : (⟨S4x1024x1024, .f32⟩ : BufTy).Contents (Elt F)) (x1 : (⟨S512x1024, .f32⟩ : BufTy).Contents (Elt F)) (x2 : (⟨S512, .f32⟩ : BufTy).Contents (Elt F)) (x3 : (⟨S32768x512, .f32⟩ : BufTy).Contents (Elt F)) (x4 : (⟨S32768x1024, .f32⟩ : BufTy).Contents (Elt F)) (x5 : (⟨S1024x2048, .f32⟩ : BufTy).Contents (Elt F)) (x6 : (⟨S1024, .f32⟩ : BufTy).Contents (Elt F)) (x7 : (⟨S1024, .f32⟩ : BufTy).Contents (Elt F)) (x8 : (⟨S1024, .f32⟩ : BufTy).Contents (Elt F))
    (h_main_arg7 : V (Proc.devRef .tc main_arg7) = x7)
    (h_main_arg8 : V (Proc.devRef .tc main_arg8) = x8)
    (h_main_v40 : V (Proc.devRef .tc main_v40) = val_main_v40 (F := F) x0 x1 x2 x3 x4 x5 x6)
    : after (s8 (F := F)) V (Proc.devRef .tc main_v46) = val_main_v46 (F := F) x0 x1 x2 x3 x4 x5 x6 x7 x8 := by
  unfold s8; after_results; rw [h_main_v40, h_main_arg7, h_main_arg8]; unfold val_main_v46 val_main_v45 val_main_v44 val_main_v43 val_main_v42 val_main_v41; rfl
set_option maxRecDepth 8192 in
/-- The program's operations are the stretches one after the other. -/
private theorem ops_split : ops (F := F) = s1 (F := F) ++ (s2 (F := F) ++ (s3 (F := F) ++ (s4 (F := F) ++ (s5 (F := F) ++ (s6 (F := F) ++ (s7 (F := F) ++ (s8 (F := F)))))))) := rfl

theorem after_eq (m : (ℓ : Loc nD τ sig) → Buf (Elt F) ℓ) (c : Dev nD) :
    after (ops (F := F)) (launchContents m c) (Proc.devRef .tc main_v46)
      = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_split, after_app, after_app, after_app, after_app, after_app, after_app, after_app]
  obtain ⟨a1_main_arg0, a1_main_arg4, a1_main_arg5, a1_main_arg6, a1_main_arg7, a1_main_arg8, a1_main_v4⟩ := step1 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) rfl rfl rfl rfl rfl rfl rfl rfl rfl
  obtain ⟨a2_main_arg0, a2_main_arg4, a2_main_arg5, a2_main_arg6, a2_main_arg7, a2_main_arg8, a2_main_v10⟩ := step2 (after (s1 (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a1_main_arg0 a1_main_arg4 a1_main_arg5 a1_main_arg6 a1_main_arg7 a1_main_arg8 a1_main_v4
  obtain ⟨a3_main_arg0, a3_main_arg5, a3_main_arg6, a3_main_arg7, a3_main_arg8, a3_main_v16⟩ := step3 (after (s2 (F := F)) (after (s1 (F := F)) (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a2_main_arg0 a2_main_arg4 a2_main_arg5 a2_main_arg6 a2_main_arg7 a2_main_arg8 a2_main_v10
  obtain ⟨a4_main_arg7, a4_main_arg8, a4_main_v22⟩ := step4 (after (s3 (F := F)) (after (s2 (F := F)) (after (s1 (F := F)) (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a3_main_arg0 a3_main_arg5 a3_main_arg6 a3_main_arg7 a3_main_arg8 a3_main_v16
  obtain ⟨a5_main_arg7, a5_main_arg8, a5_main_v22, a5_main_v26, a5_main_v28⟩ := step5 (after (s4 (F := F)) (after (s3 (F := F)) (after (s2 (F := F)) (after (s1 (F := F)) (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a4_main_arg7 a4_main_arg8 a4_main_v22
  obtain ⟨a6_main_arg7, a6_main_arg8, a6_main_v33, a6_main_v35⟩ := step6 (after (s5 (F := F)) (after (s4 (F := F)) (after (s3 (F := F)) (after (s2 (F := F)) (after (s1 (F := F)) (launchContents m c)))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a5_main_arg7 a5_main_arg8 a5_main_v22 a5_main_v26 a5_main_v28
  obtain ⟨a7_main_arg7, a7_main_arg8, a7_main_v40⟩ := step7 (after (s6 (F := F)) (after (s5 (F := F)) (after (s4 (F := F)) (after (s3 (F := F)) (after (s2 (F := F)) (after (s1 (F := F)) (launchContents m c))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a6_main_arg7 a6_main_arg8 a6_main_v33 a6_main_v35
  exact step8 (after (s7 (F := F)) (after (s6 (F := F)) (after (s5 (F := F)) (after (s4 (F := F)) (after (s3 (F := F)) (after (s2 (F := F)) (after (s1 (F := F)) (launchContents m c)))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a7_main_arg7 a7_main_arg8 a7_main_v40

end Cert.ReferenceIdeal.RefStages

end
-- ==== Proof.RefRead.lean ====
/-
  The reference, read at an index, is the specification: its softmax subtracts the row's true maximum (a real, since the
  scores are) before exponentiating and normalises the weights before the weighted sum, which is the unshifted mean; its
  gate contracts over the 2048 concatenated columns, which is the sum over the two halves; its layer norm is the
  specification's, word for word.
-/
import proofs.«426381_j5866925326436_3_alg».proof.Proof.RefReadGen
import proofs.«426381_j5866925326436_3_alg».proof.Proof.Spec
import proofs.«426381_j5866925326436_3_alg».proof.Proof.Algebra

noncomputable section

namespace Cert.ReferenceIdeal.RefRead

open Idealize.ShloMosaic Idealize.ShloMosaic.ValueIdx Cert.ReferenceIdeal Cert.ReferenceIdeal.Gen Cert.ReferenceIdeal.Stages Cert.Retrieval

/-! ## The softmax side: query, scores, weights, the retrieved row -/

section Softmax

variable {hs : Fin 4 → Fin 1024 → Fin 1024 → ℝ} {Wq : Fin 512 → Fin 1024 → ℝ} {bq : Fin 512 → ℝ}
  {K : Fin 32768 → Fin 512 → ℝ} {V : Fin 32768 → Fin 1024 → ℝ} {Wg : Fin 1024 → Fin 2048 → ℝ} {bg : Fin 1024 → ℝ}
  {x0 : (⟨S4x1024x1024, .f32⟩ : BufTy).Contents (Elt Ideal)} {x1 : (⟨S512x1024, .f32⟩ : BufTy).Contents (Elt Ideal)}
  {x2 : (⟨S512, .f32⟩ : BufTy).Contents (Elt Ideal)} {x3 : (⟨S32768x512, .f32⟩ : BufTy).Contents (Elt Ideal)}
  {x4 : (⟨S32768x1024, .f32⟩ : BufTy).Contents (Elt Ideal)} {x5 : (⟨S1024x2048, .f32⟩ : BufTy).Contents (Elt Ideal)}
  {x6 : (⟨S1024, .f32⟩ : BufTy).Contents (Elt Ideal)}
  (h0 : ∀ b s h, x0 (ix3 b s h) = ((hs b s h : ℝ) : EReal)) (h1 : ∀ k h, x1 (ix2 k h) = ((Wq k h : ℝ) : EReal))
  (h2 : ∀ k, x2 (ix1 k) = ((bq k : ℝ) : EReal)) (h3 : ∀ n d, x3 (ix2 n d) = ((K n d : ℝ) : EReal))
  (h4 : ∀ n v, x4 (ix2 n v) = ((V n v : ℝ) : EReal)) (h5 : ∀ h c, x5 (ix2 h c) = ((Wg h c : ℝ) : EReal))
  (h6 : ∀ h, x6 (ix1 h) = ((bg h : ℝ) : EReal))

include h0 h1 h2

/-- The query: the contraction of the hidden row with a row of the query weights, plus the bias, all reals. -/
private theorem v3_eq (b : Fin 4) (s : Fin 1024) (k : Fin 512) :
    val_main_v3 (F := Ideal) x0 x1 x2 (ix3 b s k) = ((query (hs b s) Wq bq k : ℝ) : EReal) := by
  rw [val_main_v3_apply, val_main_v0_apply, val_main_v2_apply, val_main_v1_apply]
  have e1 : ∀ k' : Fin 1024, lidx_main_v0 (ix3 b s k) k' = ix3 b s k' := fun k' => funext fun a => Fin.ext (by match a with | ⟨0, _⟩ => rfl | ⟨1, _⟩ => rfl | ⟨2, _⟩ => rfl)
  have e2 : ∀ k' : Fin 1024, ridx_main_v0 (ix3 b s k) k' = ix2 k k' := fun k' => funext fun a => Fin.ext (by match a with | ⟨0, _⟩ => rfl | ⟨1, _⟩ => rfl)
  have e3 : idx_main_v1 (idx_main_v2 (ix3 b s k)) = ix1 k := funext fun a => Fin.ext (by match a with | ⟨0, _⟩ => rfl)
  simp only [e1, e2, e3, h0, h1, h2, Ideal.addf_def]
  unfold query
  rw [EReal.coe_add, ← coe_sum]
  simp only [EReal.coe_mul]

include h3

/-- The score against a memory row: the contraction of the query with the key row. -/
private theorem v4_eq (b : Fin 4) (s : Fin 1024) (n : Fin 32768) :
    val_main_v4 (F := Ideal) x0 x1 x2 x3 (ix3 b s n) = ((score (hs b s) Wq bq K n : ℝ) : EReal) := by
  rw [val_main_v4_apply]
  have e1 : ∀ k : Fin 512, lidx_main_v4 (ix3 b s n) k = ix3 b s k := fun k => funext fun a => Fin.ext (by match a with | ⟨0, _⟩ => rfl | ⟨1, _⟩ => rfl | ⟨2, _⟩ => rfl)
  have e2 : ∀ k : Fin 512, ridx_main_v4 (ix3 b s n) k = ix2 n k := fun k => funext fun a => Fin.ext (by match a with | ⟨0, _⟩ => rfl | ⟨1, _⟩ => rfl)
  simp only [e1, e2, v3_eq h0 h1 h2 b s, h3]
  unfold score
  rw [← coe_sum]
  simp only [EReal.coe_mul]

/-- The row maximum is a real: the reduce is the fold of max from minus infinity over the 32768 scores, which are reals,
    and the outer maximum with minus infinity changes nothing. -/
private theorem v7_real (b : Fin 4) (s : Fin 1024) :
    ∃ M : ℝ, val_main_v7 (F := Ideal) x0 x1 x2 x3 (ix2 b s) = ((M : ℝ) : EReal) := by
  have hR : S4x1024x32768.Reduces [2] S4x1024 := by decide
  obtain ⟨r, hr⟩ := fold_max_real (n := 32768) (by norm_num) (fun n => score (hs b s) Wq bq K n)
  refine ⟨r, ?_⟩
  have hf : (val_main_v4 (F := Ideal) x0 x1 x2 x3 ∘ hR.lift (ix2 b s))
      = fun n : Fin 32768 => ((score (hs b s) Wq bq K n : ℝ) : EReal) := funext fun n => by
    have e : hR.lift (ix2 b s) n = ix3 b s n := funext fun a => Fin.ext (by match a with | ⟨0, _⟩ => rfl | ⟨1, _⟩ => rfl | ⟨2, _⟩ => rfl)
    show val_main_v4 (F := Ideal) x0 x1 x2 x3 (hR.lift (ix2 b s) n) = _
    rw [e]
    exact v4_eq h0 h1 h2 h3 b s n
  have hbot : Ideal.ofBits .f32 0xFF800000#32 = (⊥ : EReal) := by simp [Ideal.ofBits, Ideal.ieee]
  rw [val_main_v7_apply, val_main_v6_apply, val_main_cst_0_apply]
  unfold val_main_v5
  rw [Host.reduce_eq_fold_single FloatOps.maximumf _ _ reducesTo_S4x1024x32768_S4x1024_d2 hR h_S_, val_main_cst_apply, hf,
    Ideal.ofBits_def, hbot]
  show max (⊥ : EReal) (Finset.univ.fold max (⊥ : EReal) fun n : Fin 32768 => ((score (hs b s) Wq bq K n : ℝ) : EReal)) = _
  rw [hr]
  exact max_eq_right bot_le

/-- The shifted exponential of a score, for any real value M of the row maximum. -/
private theorem v11_eq (b : Fin 4) (s : Fin 1024) (M : ℝ) (hM : val_main_v7 (F := Ideal) x0 x1 x2 x3 (ix2 b s) = ((M : ℝ) : EReal))
    (n : Fin 32768) :
    val_main_v11 (F := Ideal) x0 x1 x2 x3 (ix3 b s n) = ((Real.exp (score (hs b s) Wq bq K n - M) : ℝ) : EReal) := by
  rw [val_main_v11_apply, val_main_v10_apply, val_main_v9_apply, val_main_v8_apply]
  have e : idx_main_v8 (idx_main_v9 (ix3 b s n)) = ix2 b s := funext fun a => Fin.ext (by match a with | ⟨0, _⟩ => rfl | ⟨1, _⟩ => rfl)
  rw [e, hM, v4_eq h0 h1 h2 h3 b s n, Ideal.subf_def, Ideal.hostUnary_exp_def, ← EReal.coe_sub, Ideal.exp_coe]

/-- The softmax denominator: the sum from zero of the shifted exponentials, a real. -/
private theorem v12_eq (b : Fin 4) (s : Fin 1024) (M : ℝ) (hM : val_main_v7 (F := Ideal) x0 x1 x2 x3 (ix2 b s) = ((M : ℝ) : EReal)) :
    val_main_v12 (F := Ideal) x0 x1 x2 x3 (ix2 b s)
      = ((∑ n : Fin 32768, Real.exp (score (hs b s) Wq bq K n - M) : ℝ) : EReal) := by
  rw [val_main_v12_apply, val_main_cst_1_apply]
  have e : ∀ k : Fin 32768, idx_main_v12 (ix2 b s) k = ix3 b s k := fun k => funext fun a => Fin.ext (by match a with | ⟨0, _⟩ => rfl | ⟨1, _⟩ => rfl | ⟨2, _⟩ => rfl)
  simp only [e, v11_eq h0 h1 h2 h3 b s M hM, Ideal.ofBits_def, Ideal.ofBits_zero_f32, zero_add, coe_sum]

/-- The softmax weight: a quotient of reals with a positive divisor. -/
private theorem v15_eq (b : Fin 4) (s : Fin 1024) (M : ℝ) (hM : val_main_v7 (F := Ideal) x0 x1 x2 x3 (ix2 b s) = ((M : ℝ) : EReal))
    (n : Fin 32768) :
    val_main_v15 (F := Ideal) x0 x1 x2 x3 (ix3 b s n)
      = ((Real.exp (score (hs b s) Wq bq K n - M) / ∑ m : Fin 32768, Real.exp (score (hs b s) Wq bq K m - M) : ℝ) : EReal) := by
  have hpos : (0 : ℝ) < ∑ m : Fin 32768, Real.exp (score (hs b s) Wq bq K m - M) :=
    Finset.sum_pos (fun m _ => Real.exp_pos _) ⟨⟨0, by norm_num⟩, Finset.mem_univ _⟩
  rw [val_main_v15_apply, val_main_v14_apply, val_main_v13_apply]
  have e : idx_main_v13 (idx_main_v14 (ix3 b s n)) = ix2 b s := funext fun a => Fin.ext (by match a with | ⟨0, _⟩ => rfl | ⟨1, _⟩ => rfl)
  rw [e, v11_eq h0 h1 h2 h3 b s M hM n, v12_eq h0 h1 h2 h3 b s M hM, Ideal.hostDivf_def, div_coe_coe _ _ hpos.ne']

include h4

/-- The retrieved row: the weights against a value column; the shift cancels. -/
private theorem v16_eq (b : Fin 4) (s : Fin 1024) (v : Fin 1024) :
    val_main_v16 (F := Ideal) x0 x1 x2 x3 x4 (ix3 b s v) = ((retrieved (hs b s) Wq bq K V v : ℝ) : EReal) := by
  obtain ⟨M, hM⟩ := v7_real h0 h1 h2 h3 b s
  rw [val_main_v16_apply]
  have e1 : ∀ k : Fin 32768, lidx_main_v16 (ix3 b s v) k = ix3 b s k := fun k => funext fun a => Fin.ext (by match a with | ⟨0, _⟩ => rfl | ⟨1, _⟩ => rfl | ⟨2, _⟩ => rfl)
  have e2 : ∀ k : Fin 32768, ridx_main_v16 (ix3 b s v) k = ix2 k v := fun k => funext fun a => Fin.ext (by match a with | ⟨0, _⟩ => rfl | ⟨1, _⟩ => rfl)
  simp only [e1, e2, v15_eq h0 h1 h2 h3 b s M hM, h4]
  unfold retrieved
  rw [← softmax_shift (score (hs b s) Wq bq K) (fun m => V m v) M, ← coe_sum]
  simp only [EReal.coe_mul]

end Softmax

/-! ## The gate: the concatenated row against the gate weights, the bias and the residual -/

section Gate

variable {hs : Fin 4 → Fin 1024 → Fin 1024 → ℝ} {Wq : Fin 512 → Fin 1024 → ℝ} {bq : Fin 512 → ℝ}
  {K : Fin 32768 → Fin 512 → ℝ} {V : Fin 32768 → Fin 1024 → ℝ} {Wg : Fin 1024 → Fin 2048 → ℝ} {bg : Fin 1024 → ℝ}
  {x0 : (⟨S4x1024x1024, .f32⟩ : BufTy).Contents (Elt Ideal)} {x1 : (⟨S512x1024, .f32⟩ : BufTy).Contents (Elt Ideal)}
  {x2 : (⟨S512, .f32⟩ : BufTy).Contents (Elt Ideal)} {x3 : (⟨S32768x512, .f32⟩ : BufTy).Contents (Elt Ideal)}
  {x4 : (⟨S32768x1024, .f32⟩ : BufTy).Contents (Elt Ideal)} {x5 : (⟨S1024x2048, .f32⟩ : BufTy).Contents (Elt Ideal)}
  {x6 : (⟨S1024, .f32⟩ : BufTy).Contents (Elt Ideal)}
  (h0 : ∀ b s h, x0 (ix3 b s h) = ((hs b s h : ℝ) : EReal)) (h1 : ∀ k h, x1 (ix2 k h) = ((Wq k h : ℝ) : EReal))
  (h2 : ∀ k, x2 (ix1 k) = ((bq k : ℝ) : EReal)) (h3 : ∀ n d, x3 (ix2 n d) = ((K n d : ℝ) : EReal))
  (h4 : ∀ n v, x4 (ix2 n v) = ((V n v : ℝ) : EReal)) (h5 : ∀ h c, x5 (ix2 h c) = ((Wg h c : ℝ) : EReal))
  (h6 : ∀ h, x6 (ix1 h) = ((bg h : ℝ) : EReal))

/-- A sum of extended reals over the 2048 gate columns is the sum over its two halves. -/
private theorem sum_halves_ereal (f : Fin 2048 → EReal) :
    (∑ c : Fin 2048, f c) = (∑ c : Fin 1024, f (loCol c)) + ∑ c : Fin 1024, f (hiCol c) :=
  Fin.sum_univ_add (a := 1024) (b := 1024) f

include h0

/-- The concatenated row at a column of the first half is the hidden row there. -/
private theorem v17_lo (b : Fin 4) (s : Fin 1024) (c : Fin 1024) :
    val_main_v17 (F := Ideal) x0 x1 x2 x3 x4 (ix3 b s (loCol c)) = ((hs b s c : ℝ) : EReal) := by
  unfold val_main_v17
  generalize val_main_v16 (F := Ideal) x0 x1 x2 x3 x4 = y
  exact (concatenate_pair_apply_left (2 : Fin S4x1024x2048.rank) x0 y
    concatenates_S4x1024x1024_S4x1024x1024_S4x1024x2048_d2 (ix3 b s (loCol c)) rfl (ix3 b s c)
    (fun a => by match a with | ⟨0, _⟩ => rfl | ⟨1, _⟩ => rfl | ⟨2, _⟩ => rfl)).trans (h0 b s c)

include h1 h2 h3 h4

/-- The concatenated row at a column of the second half is the retrieved row at that column less 1024. -/
private theorem v17_hi (b : Fin 4) (s : Fin 1024) (c : Fin 1024) :
    val_main_v17 (F := Ideal) x0 x1 x2 x3 x4 (ix3 b s (hiCol c)) = ((retrieved (hs b s) Wq bq K V c : ℝ) : EReal) := by
  have hy := v16_eq h0 h1 h2 h3 h4 b s c
  unfold val_main_v17
  generalize val_main_v16 (F := Ideal) x0 x1 x2 x3 x4 = y at hy ⊢
  refine (concatenate_pair_apply_right (2 : Fin S4x1024x2048.rank) x0 y
    concatenates_S4x1024x1024_S4x1024x1024_S4x1024x2048_d2 (ix3 b s (hiCol c)) rfl rfl (ix3 b s c)
    (fun a ha => by
      match a, ha with
      | ⟨0, _⟩, _ => rfl
      | ⟨1, _⟩, _ => rfl
      | ⟨2, _⟩, ha => exact absurd (Fin.ext rfl) ha) ?_).trans hy
  show c.val + 1024 = 1024 + c.val
  omega

include h5 h6

/-- The gated residual row: the contraction over the 2048 columns splits into the two halves. -/
private theorem v22_eq (b : Fin 4) (s : Fin 1024) (h : Fin 1024) :
    val_main_v22 (F := Ideal) x0 x1 x2 x3 x4 x5 x6 (ix3 b s h)
      = ((gated (hs b s) Wq bq K V Wg bg h : ℝ) : EReal) := by
  rw [val_main_v22_apply, val_main_v21_apply, val_main_v18_apply, val_main_v20_apply, val_main_v19_apply]
  have e1 : ∀ k : Fin 2048, lidx_main_v18 (ix3 b s h) k = ix3 b s k := fun k => funext fun a => Fin.ext (by match a with | ⟨0, _⟩ => rfl | ⟨1, _⟩ => rfl | ⟨2, _⟩ => rfl)
  have e2 : ∀ k : Fin 2048, ridx_main_v18 (ix3 b s h) k = ix2 h k := fun k => funext fun a => Fin.ext (by match a with | ⟨0, _⟩ => rfl | ⟨1, _⟩ => rfl)
  have e3 : idx_main_v19 (idx_main_v20 (ix3 b s h)) = ix1 h := funext fun a => Fin.ext (by match a with | ⟨0, _⟩ => rfl)
  simp only [e1, e2, e3, h0, h5, h6, Ideal.addf_def]
  rw [sum_halves_ereal]
  simp only [v17_lo h0 b s, v17_hi h0 h1 h2 h3 h4 b s]
  unfold gated
  rw [EReal.coe_add, EReal.coe_add, EReal.coe_add, ← coe_sum, ← coe_sum]
  simp only [EReal.coe_mul]

end Gate

/-! ## The layer norm: word for word the specification's, over any row -/

section LayerNorm

variable (x0 : (⟨S4x1024x1024, .f32⟩ : BufTy).Contents (Elt Ideal)) (x1 : (⟨S512x1024, .f32⟩ : BufTy).Contents (Elt Ideal))
  (x2 : (⟨S512, .f32⟩ : BufTy).Contents (Elt Ideal)) (x3 : (⟨S32768x512, .f32⟩ : BufTy).Contents (Elt Ideal))
  (x4 : (⟨S32768x1024, .f32⟩ : BufTy).Contents (Elt Ideal)) (x5 : (⟨S1024x2048, .f32⟩ : BufTy).Contents (Elt Ideal))
  (x6 : (⟨S1024, .f32⟩ : BufTy).Contents (Elt Ideal)) (b : Fin 4) (s : Fin 1024) (x : Fin 1024 → EReal)
  (hx : ∀ h' : Fin 1024, val_main_v22 (F := Ideal) x0 x1 x2 x3 x4 x5 x6 (ix3 b s h') = x h')

include hx

/-- The mean: the row's sum from zero, divided by the word 1024. -/
private theorem ln_mean :
    val_main_v26 (F := Ideal) x0 x1 x2 x3 x4 x5 x6 (ix3 b s (0 : Fin 1))
      = Ideal.div (∑ k : Fin 1024, x k) (Ideal.ofBits .f32 0x44800000#32) := by
  rw [val_main_v26_apply, val_main_v24_apply, val_main_v25_apply, val_main_cst_3_apply, val_main_v23_apply,
    val_main_cst_2_apply]
  have e : ∀ k : Fin 1024, idx_main_v23 (idx_main_v24 (ix3 b s (0 : Fin 1))) k = ix3 b s k :=
    fun k => funext fun a => Fin.ext (by match a with | ⟨0, _⟩ => rfl | ⟨1, _⟩ => rfl | ⟨2, _⟩ => rfl)
  simp only [e, hx, Ideal.hostDivf_def, Ideal.ofBits_def, Ideal.ofBits_zero_f32, zero_add]

/-- The centred row, as the variance reads it. -/
private theorem ln_center (h : Fin 1024) :
    val_main_v28 (F := Ideal) x0 x1 x2 x3 x4 x5 x6 (ix3 b s h)
      = x h - Ideal.div (∑ k : Fin 1024, x k) (Ideal.ofBits .f32 0x44800000#32) := by
  rw [val_main_v28_apply, val_main_v27_apply]
  have e : idx_main_v27 (ix3 b s h) = ix3 b s (0 : Fin 1) := funext fun a => Fin.ext (by match a with | ⟨0, _⟩ => rfl | ⟨1, _⟩ => rfl | ⟨2, _⟩ => rfl)
  rw [e, ln_mean x0 x1 x2 x3 x4 x5 x6 b s x hx, hx, Ideal.subf_def]

/-- The centred row, as the normalisation reads it (a second broadcast of the same mean). -/
private theorem ln_center' (h : Fin 1024) :
    val_main_v35 (F := Ideal) x0 x1 x2 x3 x4 x5 x6 (ix3 b s h)
      = x h - Ideal.div (∑ k : Fin 1024, x k) (Ideal.ofBits .f32 0x44800000#32) := by
  rw [val_main_v35_apply, val_main_v34_apply]
  have e : idx_main_v34 (ix3 b s h) = ix3 b s (0 : Fin 1) := funext fun a => Fin.ext (by match a with | ⟨0, _⟩ => rfl | ⟨1, _⟩ => rfl | ⟨2, _⟩ => rfl)
  rw [e, ln_mean x0 x1 x2 x3 x4 x5 x6 b s x hx, hx, Ideal.subf_def]

/-- The variance: the sum from zero of the squares of the centred row, divided by the word 1024. -/
private theorem ln_var :
    val_main_v33 (F := Ideal) x0 x1 x2 x3 x4 x5 x6 (ix3 b s (0 : Fin 1))
      = Ideal.div (∑ k : Fin 1024, (x k - Ideal.div (∑ k : Fin 1024, x k) (Ideal.ofBits .f32 0x44800000#32))
          * (x k - Ideal.div (∑ k : Fin 1024, x k) (Ideal.ofBits .f32 0x44800000#32))) (Ideal.ofBits .f32 0x44800000#32) := by
  rw [val_main_v33_apply, val_main_v31_apply, val_main_v32_apply, val_main_cst_5_apply, val_main_v30_apply,
    val_main_cst_4_apply]
  have e : ∀ k : Fin 1024, idx_main_v30 (idx_main_v31 (ix3 b s (0 : Fin 1))) k = ix3 b s k :=
    fun k => funext fun a => Fin.ext (by match a with | ⟨0, _⟩ => rfl | ⟨1, _⟩ => rfl | ⟨2, _⟩ => rfl)
  simp only [e, val_main_v29_apply, ln_center x0 x1 x2 x3 x4 x5 x6 b s x hx, Ideal.hostDivf_def, Ideal.mulf_def,
    Ideal.ofBits_def, Ideal.ofBits_zero_f32, zero_add]

/-- The last stage is the specification's layer norm of the row, gamma and beta entering through two broadcasts. -/
private theorem ln_all (x7 x8 : (⟨S1024, .f32⟩ : BufTy).Contents (Elt Ideal)) (h : Fin 1024) :
    val_main_v46 (F := Ideal) x0 x1 x2 x3 x4 x5 x6 x7 x8 (ix3 b s h)
      = layerNorm x (fun h' => x7 (ix1 h')) (fun h' => x8 (ix1 h')) h := by
  rw [val_main_v46_apply, val_main_v43_apply, val_main_v45_apply, val_main_v44_apply, val_main_v42_apply,
    val_main_v41_apply, val_main_v40_apply, val_main_v39_apply, val_main_v38_apply, val_main_v37_apply,
    val_main_v36_apply, val_main_cst_6_apply]
  have e1 : idx_main_v44 (idx_main_v45 (ix3 b s h)) = ix1 h := funext fun a => Fin.ext (by match a with | ⟨0, _⟩ => rfl)
  have e2 : idx_main_v41 (idx_main_v42 (ix3 b s h)) = ix1 h := funext fun a => Fin.ext (by match a with | ⟨0, _⟩ => rfl)
  have e3 : idx_main_v39 (ix3 b s h) = ix3 b s (0 : Fin 1) := funext fun a => Fin.ext (by match a with | ⟨0, _⟩ => rfl | ⟨1, _⟩ => rfl | ⟨2, _⟩ => rfl)
  rw [e1, e2, e3, ln_center' x0 x1 x2 x3 x4 x5 x6 b s x hx, ln_var x0 x1 x2 x3 x4 x5 x6 b s x hx]
  rfl

end LayerNorm

theorem ref_apply (hs : Fin 4 → Fin 1024 → Fin 1024 → ℝ) (Wq : Fin 512 → Fin 1024 → ℝ) (bq : Fin 512 → ℝ)
    (K : Fin 32768 → Fin 512 → ℝ) (V : Fin 32768 → Fin 1024 → ℝ) (Wg : Fin 1024 → Fin 2048 → ℝ) (bg : Fin 1024 → ℝ)
    (x0 : (⟨S4x1024x1024, .f32⟩ : BufTy).Contents (Elt Ideal)) (x1 : (⟨S512x1024, .f32⟩ : BufTy).Contents (Elt Ideal)) (x2 : (⟨S512, .f32⟩ : BufTy).Contents (Elt Ideal)) (x3 : (⟨S32768x512, .f32⟩ : BufTy).Contents (Elt Ideal)) (x4 : (⟨S32768x1024, .f32⟩ : BufTy).Contents (Elt Ideal)) (x5 : (⟨S1024x2048, .f32⟩ : BufTy).Contents (Elt Ideal)) (x6 : (⟨S1024, .f32⟩ : BufTy).Contents (Elt Ideal)) (x7 : (⟨S1024, .f32⟩ : BufTy).Contents (Elt Ideal)) (x8 : (⟨S1024, .f32⟩ : BufTy).Contents (Elt Ideal))
    (h0 : ∀ b s h, x0 (ix3 b s h) = ((hs b s h : ℝ) : EReal)) (h1 : ∀ k h, x1 (ix2 k h) = ((Wq k h : ℝ) : EReal))
    (h2 : ∀ k, x2 (ix1 k) = ((bq k : ℝ) : EReal)) (h3 : ∀ n d, x3 (ix2 n d) = ((K n d : ℝ) : EReal))
    (h4 : ∀ n v, x4 (ix2 n v) = ((V n v : ℝ) : EReal)) (h5 : ∀ h c, x5 (ix2 h c) = ((Wg h c : ℝ) : EReal))
    (h6 : ∀ h, x6 (ix1 h) = ((bg h : ℝ) : EReal)) (b : Fin 4) (s h : Fin 1024) :
    val_main_v46 (F := Ideal) x0 x1 x2 x3 x4 x5 x6 x7 x8 (ix3 b s h)
      = result hs Wq bq K V Wg bg (fun h' => x7 (ix1 h')) (fun h' => x8 (ix1 h')) b s h := by
  exact ln_all x0 x1 x2 x3 x4 x5 x6 b s _ (fun h' => v22_eq h0 h1 h2 h3 h4 h5 h6 b s h') x7 x8 h

end Cert.ReferenceIdeal.RefRead

end
-- ==== Proof.lean ====
/-
  A retrieval block: every query row attends over a bank of 32768 memory rows, the retrieved row is gated into the hidden
  row, and the sum is layer-normalised. The kernel walks the bank in eight blocks of 4096 rows per tile of 1024 query rows,
  keeping a running maximum, a running softmax denominator and a running numerator that it rescales whenever the maximum
  grows; the reference forms the whole score row, subtracts its true maximum, normalises and multiplies.

  Over the reals the two agree: a shift of the exponents by any real cancels between the numerator and the denominator of
  a softmax-weighted mean, so the kernel's partial sums under its own shifting maximum (Walk) and the reference's sums
  under the true maximum (RefRead) are the same unshifted mean (Spec), and everything after it is the same arithmetic on
  both sides. The cancellation needs every quantity to be a real number, which is what the precondition gives (Finite).
  The kernel's frame and its word-level twin's are the generated ones; the reference's run is the sequential run of its
  host operations, its result read stage by stage (RefStages).
-/
import proofs.«426381_j5866925326436_3_alg».proof.Defs
import proofs.«426381_j5866925326436_3_alg».proof.Proof.Gen.Kernel
import proofs.«426381_j5866925326436_3_alg».proof.Proof.Gen.Kernel.Frame
import proofs.«426381_j5866925326436_3_alg».proof.Proof.Gen.KernelIdeal
import proofs.«426381_j5866925326436_3_alg».proof.Proof.Gen.KernelIdeal.Frame
import proofs.«426381_j5866925326436_3_alg».proof.Proof.Gen.ReferenceIdeal
import proofs.«426381_j5866925326436_3_alg».proof.Proof.Gen.Pre_finite_inputs
import proofs.«426381_j5866925326436_3_alg».proof.Proof.Walk
import proofs.«426381_j5866925326436_3_alg».proof.Proof.Final
import proofs.«426381_j5866925326436_3_alg».proof.Proof.Finite
import proofs.«426381_j5866925326436_3_alg».proof.Proof.RefRun
import proofs.«426381_j5866925326436_3_alg».proof.Proof.RefStages
import proofs.«426381_j5866925326436_3_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem Cert.Retrieval

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its sequential run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the specification's result of the (real) arguments. -/
theorem algebraic : Cert.algebraic_KernelIdeal_ReferenceIdeal := by
  intro m ρ m' ρ' hpre hagree
  -- every argument entry is a real
  have H := fun c : Dev Cert.KernelIdeal.nD => Cert.Retrieval.Finite.reals_of_finite
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  choose f0 hf0 using fun c => (H c).1
  choose f1 hf1 using fun c => (H c).2.1
  choose f2 hf2 using fun c => (H c).2.2.1
  choose f3 hf3 using fun c => (H c).2.2.2.1
  choose f4 hf4 using fun c => (H c).2.2.2.2.1
  choose f5 hf5 using fun c => (H c).2.2.2.2.2.1
  choose f6 hf6 using fun c => (H c).2.2.2.2.2.2.1
  -- the common result
  let R : (c : Dev Cert.KernelIdeal.nD) → Buf (Elt Ideal) ((c.tc : Thread Cert.KernelIdeal.nD Cert.KernelIdeal.τ).loc Cert.KernelIdeal.main_v13) := fun c i =>
    result (fun b s h => f0 c (ix3 b s h)) (fun k h => f1 c (ix2 k h)) (fun k => f2 c (ix1 k)) (fun n d => f3 c (ix2 n d))
      (fun n v => f4 c (ix2 n v)) (fun h c' => f5 c (ix2 h c')) (fun h => f6 c (ix1 h))
      (fun h' => (m ((c.tc : Thread Cert.KernelIdeal.nD Cert.KernelIdeal.τ).loc Cert.KernelIdeal.main_arg7)) (ix1 h')) (fun h' => (m ((c.tc : Thread Cert.KernelIdeal.nD Cert.KernelIdeal.τ).loc Cert.KernelIdeal.main_arg8)) (ix1 h')) (i 0) (i 1) (i 2)
  refine ⟨R, ?_, ?_⟩
  · -- the kernel: every tile's last-point output block is the result's tile
    exact Cert.KernelIdeal.Final.run_of_blocks m ρ R fun c t h7 p h =>
      Cert.KernelIdeal.Walk.out_good m c _ _ _ _ _ _ _
        (fun b s h => hf0 c (ix3 b s h)) (fun k h => hf1 c (ix2 k h)) (fun k => hf2 c (ix1 k)) (fun n d => hf3 c (ix2 n d))
        (fun n v => hf4 c (ix2 n v)) (fun h c' => hf5 c (ix2 h c')) (fun h => hf6 c (ix1 h)) t.val t.isLt h7 p h
  · -- the reference: its result buffer is the last stage, read at an index
    refine (θ_run Cert.ReferenceIdeal.defs _ _).mono (fun _ h c => ⟨(h c).1.trans ?_, (h c).2⟩)
      (Cert.ReferenceIdeal.RefRun.run (F := Ideal) m' ρ')
    rw [Cert.ReferenceIdeal.RefStages.after_eq m' c]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    funext i
    obtain ⟨b, s, h, rfl⟩ : ∃ (b : Fin 4) (s h : Fin 1024), i = ix3 b s h := ⟨i 0, i 1, i 2, eq_ix3 i⟩
    exact Cert.ReferenceIdeal.RefRead.ref_apply _ _ _ _ _ _ _ _ _ _ _ _ _ _ _ _
      (fun b s h => hf0 c (ix3 b s h)) (fun k h => hf1 c (ix2 k h)) (fun k => hf2 c (ix1 k)) (fun n d => hf3 c (ix2 n d))
      (fun n v => hf4 c (ix2 n v)) (fun h c' => hf5 c (ix2 h c')) (fun h => hf6 c (ix1 h)) b s h

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
